-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S1x1 : Shape := ⟨2, ![1, 1]⟩
abbrev S128x64 : Shape := ⟨2, ![128, 64]⟩
abbrev S8192 : Shape := ⟨1, ![8192]⟩
abbrev S8192x1 : Shape := ⟨2, ![8192, 1]⟩
abbrev S128 : Shape := ⟨1, ![128]⟩
abbrev S128x1 : Shape := ⟨2, ![128, 1]⟩
abbrev S64x128 : Shape := ⟨2, ![64, 128]⟩
abbrev S8192x128 : Shape := ⟨2, ![8192, 128]⟩
abbrev S1x128 : Shape := ⟨2, ![1, 128]⟩
abbrev S1 : Shape := ⟨1, ![1]⟩
abbrev S_ : Shape := ⟨0, ![]⟩

abbrev nBuf : Space → Nat
  | .hbm => 18
  | .vmem => 15
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S8192x64, .f32⟩
  | .local _ .vmem, ⟨1, _⟩ => ⟨S128x64, .f32⟩
  | .local _ .vmem, ⟨2, _⟩ => ⟨S128x64, .f32⟩
  | .local _ .vmem, ⟨3, _⟩ => ⟨S1x1, .f32⟩
  | .local _ .vmem, ⟨4, _⟩ => ⟨S1x1, .f32⟩
  | .local _ .vmem, ⟨5, _⟩ => ⟨S8192x64, .f32⟩
  | .local _ .vmem, ⟨6, _⟩ => ⟨S128x64, .f32⟩
  | .local _ .vmem, ⟨7, _⟩ => ⟨S128x64, .f32⟩
  | .local _ .vmem, ⟨8, _⟩ => ⟨S1x1, .f32⟩
  | .local _ .vmem, ⟨9, _⟩ => ⟨S1x1, .f32⟩
  | .local _ .vmem, ⟨10, _⟩ => ⟨S8192x64, .f32⟩
  | .local _ .vmem, ⟨11, _⟩ => ⟨S128x64, .f32⟩
  | .local _ .vmem, ⟨12, _⟩ => ⟨S128x64, .f32⟩
  | .local _ .vmem, ⟨13, _⟩ => ⟨S1x1, .f32⟩
  | .local _ .vmem, ⟨14, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc2_sem0_0 : DmaSem sig := 8
abbrev cc2_sem1_0 : DmaSem sig := 9
abbrev cc2_sem1_1 : DmaSem sig := 10
abbrev cc2_sem2_0 : DmaSem sig := 11

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v36 : BitVec 1 := Scalar.cmpi .eq arg0 c63_i32
  let v37 : BitVec 32 := Scalar.extui v36
  let c0_i32_15 : BitVec 32 := 0#32
  let v38 : BitVec 1 := Scalar.cmpi .ne v37 c0_i32_15
  v38

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v36 : BitVec 1 := Scalar.cmpi .eq arg0 c63_i32
  let v37 : BitVec 32 := Scalar.extui v36
  let c0_i32_15 : BitVec 32 := 0#32
  let v38 : BitVec 1 := Scalar.cmpi .ne v37 c0_i32_15
  v38

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![64], ![false]⟩

def k2_cond2 (i : grid2.Coords) : BitVec 1 :=
  let arg0 : BitVec 32 := BitVec.ofNat 32 (i 0).val
  let c63_i32 : BitVec 32 := 63#32
  let v36 : BitVec 1 := Scalar.cmpi .eq arg0 c63_i32
  let v37 : BitVec 32 := Scalar.extui v36
  let c0_i32_15 : BitVec 32 := 0#32
  let v38 : BitVec 1 := Scalar.cmpi .ne v37 c0_i32_15
  v38

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8192x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x64_S8192x64_0_0 : ∀ a, (![0, 0] : Fin 2 → Nat) a + S8192x64.size a ≤ S8192x64.size a
  h_S8192x64 : 0 < S8192x64.numel
  inb_S128x64_S128x64_0_0 : ∀ a, (![0, 0] : Fin 2 → Nat) a + S128x64.size a ≤ S128x64.size a
  h_S128x64 : 0 < S128x64.numel
  reduces_S8192x64_S8192 : S8192x64.Reduces [1] S8192
  shapeCasts_S8192_S8192x1 : S8192.ShapeCasts S8192x1
  reduces_S128x64_S128 : S128x64.Reduces [1] S128
  shapeCasts_S128_S128x1 : S128.ShapeCasts S128x1
  bitsLt_bf16_f32 : FTy.bits .bf16 < FTy.bits .f32
  transposes_S128x64_p1_0_S64x128 : S128x64.Transposes [1, 0] S64x128
  transposes_S128x1_p1_0_S1x128 : S128x1.Transposes [1, 0] S1x128
  broadcasts_S8192x1_S8192x128 : S8192x1.Broadcasts S8192x128
  broadcasts_S1x128_S8192x128 : S1x128.Broadcasts S8192x128
  reduces_S8192x128_S8192 : S8192x128.Reduces [1] S8192
  reduces_S8192x1_S1 : S8192x1.Reduces [0] S1
  shapeCasts_S1_S1x1 : S1.ShapeCasts S1x1
  shapeCasts_S1x1_S_ : S1x1.ShapeCasts S_
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S8192x64.size a
  hwx0_1 : ∀ i : grid0.Coords, EltTy.bits .f32 = 32 ∨ (Rect.block (s := S8192x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S8192x64.size a
  hwx1_0 : ∀ i : grid1.Coords, EltTy.bits .f32 = 32 ∨ (Rect.block (s := S8192x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S8192x64.size a
  hwx1_1 : ∀ i : grid1.Coords, EltTy.bits .f32 = 32 ∨ (Rect.block (s := S8192x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S8192x64.size a
  hwx2_0 : ∀ i : grid2.Coords, EltTy.bits .f32 = 32 ∨ (Rect.block (s := S8192x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S8192x64.size a
  hwx2_1 : ∀ i : grid2.Coords, EltTy.bits .f32 = 32 ∨ (Rect.block (s := S8192x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_arg0) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S8192x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S8192x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S128x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x64, .f32⟩
  | .hbm, ⟨29, _⟩ => ⟨S_, .f32⟩
  | .hbm, ⟨30, _⟩ => ⟨S8192, .f32⟩
  | .hbm, ⟨31, _⟩ => ⟨S8192x64, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S1x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S64x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192x64, .f32⟩
  | .hbm, ⟨56, _⟩ => ⟨S_, .f32⟩
  | .hbm, ⟨57, _⟩ => ⟨S8192, .f32⟩
  | .hbm, ⟨58, _⟩ => ⟨S8192x64, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S1x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S64x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_cst_12 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_13 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_14 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_15 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.R0Runs.lean ====
import proofs.«123961_j29377576305361_1_alg».proof.Proof.Gen.Kernel.Launch
import proofs.«123961_j29377576305361_1_alg».proof.Proof.Gen.Kernel.Skeleton
import proofs.«123961_j29377576305361_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what its three runs share

The call's grid has 64 points. At every point the body reads the whole first operand (window 0, resident) and one
block of 128 rows of the second (window 1), and adds one number into a 1×1 scratch accumulator; at point 0 it first
clears the accumulator, at point 63 it copies the accumulator into the 1×1 output block (window 2), which is written
back there and nowhere else. So the body has three control cases: the first point, the middle points, the last point. -/

-- the core's buffer contents when the call is entered: every statement below is at this parameter
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched
    the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, decided over the grid -/

/-- "This is the first point": the condition under which the accumulator is cleared. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is the last point": the condition under which the output block is stored. -/
abbrev cond0_1 (i : grid0.Coords) : Prop := k0_cond2 i = 1#1
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last point nothing is stored into the output block and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is stored. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The accumulator: a whole scoped buffer of the call's own. -/
abbrev scM0 : Memref sig .tc .vmem S1x1 .f32 := Memref.whole cc0_scratch0
/-- The views through which the output block's and the accumulator's contents are stated. -/
abbrev VO0 : View sig .tc .vmem S1x1 .f32 := (Memref.whole cc0_stg2_0 : Memref sig .tc .vmem S1x1 .f32).view
abbrev VS0 : View sig .tc .vmem S1x1 .f32 := scM0.view

/-! ## The call's scoped buffers: the accumulator and the rest -/

/-- The scoped buffers of the other two calls, each whole at some contents: untouched by this call. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The call's invariant before its first point: the accumulator at some contents, the other scoped buffers, the
    generator register at some state. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0
  rw [Pipeline.scopedRest_eq_of_list spec0 c [cc0_scratch0, cc1_stg0_0, cc1_stg1_0, cc1_stg1_1, cc1_stg2_0, cc1_scratch0, cc2_stg0_0, cc2_stg1_0, cc2_stg1_1, cc2_stg2_0, cc2_scratch0] (by decide) (by decide)]
  simp only [scM0, owns_whole]; try rfl

end Cert.Kernel.Hand

end
-- ==== Proof.K.R0RunA.lean ====
import proofs.«123961_j29377576305361_1_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the first point: the accumulator is cleared, then the tile's sum is added; the output block is not touched -/

set_option maxHeartbeats 4000000 in
/-- The body at the first point on whole staging memrefs — the two inputs at their contents, the output block at contents
    handed back untouched, the accumulator at anything — runs to the continuation holding the inputs as they were and
    the accumulator with the pieces its two stores wrote (last first): the pieces are what the run finds. -/
noncomputable def kernelRun0_A (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S8192x64 .f32) (x1 : Vec F S128x64 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_kernel i arg1 harg1 arg2 harg2 arg3 harg3 arg4 harg4) K } := by
  refine ⟨?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R0RunB.lean ====
import proofs.«123961_j29377576305361_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, a middle point: the tile's sum is added to what the point before left; the output block is not touched -/

set_option maxHeartbeats 4000000 in
/-- The body at a middle point on whole staging memrefs — the two inputs at their contents, the output block at contents
    handed back untouched, the accumulator at what the point before left — runs to the continuation holding the inputs
    as they were and the accumulator with the piece its store wrote: the piece is what the run finds. -/
noncomputable def kernelRun0_B (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S8192x64 .f32) (x1 : Vec F S128x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_kernel i arg1 harg1 arg2 harg2 arg3 harg3 arg4 harg4) K } := by
  refine ⟨?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R0RunC.lean ====
import proofs.«123961_j29377576305361_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the last point: the tile's sum is added to what the point before left, and the accumulator is copied into the output block -/

set_option maxHeartbeats 4000000 in
/-- The body at the last point on whole staging memrefs — the two inputs at their contents, the output block at
    anything, the accumulator at what the point before left — runs to the continuation holding the inputs as they were,
    the output block and the accumulator each with the piece its store wrote: the pieces are what the run finds. -/
noncomputable def kernelRun0_C (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S8192x64 .f32) (x1 : Vec F S128x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_kernel i arg1 harg1 arg2 harg2 arg3 harg3 arg4 harg4) K } := by
  refine ⟨?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R0Frame.lean ====
import proofs.«123961_j29377576305361_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what the accumulator and the output block hold point by point, the proof data, the body obligation -/

variable (V : (c : Dev nD) → (b : Ref sig .tc) → Buf (Elt F) ((c : Thread nD τ).loc b))

/-! ## What each case leaves -/

/-- The first point's two stores into the accumulator cover it. -/
theorem scover0_A (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S8192x64 .f32) (x1 : Vec F S128x64 .f32) (y : S1x1.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S1x1.size (by sl_kernel_rfl) y
/-- What the first point leaves in the accumulator: its pieces read back. -/
def sout0_A (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S8192x64 .f32) (x1 : Vec F S128x64 .f32) : Vec F S1x1 .f32 :=
  VS0.read (Elt F) (VS0.writes (Elt F) VS0.junk (kernelRun0_A c i arg1 harg1 arg2 harg2 arg3 harg3 arg4 harg4 hc0 hc1 x0 x1).1)

/-- A middle point's store into the accumulator covers it. -/
theorem scover0_B (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S8192x64 .f32) (x1 : Vec F S128x64 .f32) (xs0 : Vec F S1x1 .f32) (y : S1x1.Idx) :
    ∃ pc ∈ (kernelRun0_B c i arg1 harg1 arg2 harg2 arg3 harg3 arg4 harg4 hc0 hc1 x0 x1 xs0).1, y ∈ pc.1.set :=
  View.cover_of_tiledL (kernelRun0_B c i arg1 harg1 arg2 harg2 arg3 harg3 arg4 harg4 hc0 hc1 x0 x1 xs0).1 S1x1.size (by sl_kernel_rfl) y
/-- What a middle point leaves in the accumulator. -/
def sout0_B (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S8192x64 .f32) (x1 : Vec F S128x64 .f32) (xs0 : Vec F S1x1 .f32) : Vec F S1x1 .f32 :=
  VS0.read (Elt F) (VS0.writes (Elt F) VS0.junk (kernelRun0_B c i arg1 harg1 arg2 harg2 arg3 harg3 arg4 harg4 hc0 hc1 x0 x1 xs0).1)

/-- The last point's store into the output block covers it. -/
theorem cover0_C (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x64 .f32) (x1 : Vec F S128x64 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y
/-- What the last point leaves in the output block. -/
def out0_C (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x64 .f32) (x1 : Vec F S128x64 .f32) (xs0 : Vec F S1x1 .f32) : Vec F S1x1 .f32 :=
  VO0.read (Elt F) (VO0.writes (Elt F) VO0.junk (kernelRun0_C c i arg1 harg1 arg2 harg2 arg3 harg3 arg4 harg4 hc0 hc1 x0 x1 xs0).1)
/-- The last point's store into the accumulator covers it. -/
theorem scover0_C (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x64 .f32) (x1 : Vec F S128x64 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y
/-- What the last point leaves in the accumulator. -/
def sout0_C (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x64 .f32) (x1 : Vec F S128x64 .f32) (xs0 : Vec F S1x1 .f32) : Vec F S1x1 .f32 :=
  VS0.read (Elt F) (VS0.writes (Elt F) VS0.junk (kernelRun0_C c i arg1 harg1 arg2 harg2 arg3 harg3 arg4 harg4 hc0 hc1 x0 x1 xs0).2.1)

/-- A placeholder for the output block at the points that store nothing into it (never consulted: the block is
    neither written back nor read there). -/
def outIdle0 : Vec F S1x1 .f32 := VO0.read (Elt F) VO0.junk

/-! ## Point by point -/

/-- What the output block's staging buffer and the accumulator hold after the body at position `n`: the case the
    point is in, run at the point's memrefs and input blocks, the accumulator read at what position `n - 1` left. -/
def outsAt0 (c : Dev nD) : (n : ℕ) → n < cfg0.N → Vec F S1x1 .f32 × Vec F S1x1 .f32
  | 0, hn => (outIdle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr rfl) (fun h => absurd ((hcond0_1 ⟨0, hn⟩).mp h) (show ¬(0 : ℕ) = 63 by decide)) (iblk0 V c 0 ⟨0, hn⟩) (iblk0 V c 1 ⟨0, hn⟩))
  | n + 1, hn =>
    if h1 : n + 1 = 63 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (outsAt0 c n (Nat.lt_of_succ_lt hn)).2)
    else
      (outIdle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At the first point. -/
theorem outsAt0_A (c : Dev nD) (t : Fin cfg0.N) (h0 : t.val = 0) (h1 : ¬t.val = 63) :
    outsAt0 V c t.val t.isLt = (outIdle0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

/-- At a middle point. -/
theorem outsAt0_B (c : Dev nD) (t : Fin cfg0.N) (h0 : ¬t.val = 0) (h1 : ¬t.val = 63) :
    outsAt0 V c t.val t.isLt = (outIdle0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- At the last point. -/
theorem outsAt0_C (c : Dev nD) (t : Fin cfg0.N) (h0 : ¬t.val = 0) (h1 : t.val = 63) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The call's invariant before position `n`: before the first point the accumulator at anything; afterwards the
    accumulator at what the point before left; beside it the other calls' scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restS0 c) ∗ (∃ r, prngReg c r)) := by
  cases n with
  | zero => exact absurd rfl hz
  | succ n => rfl

/-! ## The proof data -/

/-- The share of its array each input window holds. -/
def q0 : Fin cfg0.W → PosShare TreeShare := fun w => match w with
  | ⟨0, _⟩ => fullShare.left
  | ⟨1, _⟩ => fullShare.right
  | ⟨2, _⟩ => fullShare

/-- The call's proof data on core `c`: the arrays as the call finds them; after the body at point `t` each input's
    buffer at its block and the output block's at `outsAt0`; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q := q0
  owed _ := 0

theorem A_eq0 (c : Dev nD) (w : Fin cfg0.W) : (dat0 V c).A w = V c (Pipeline.arrRef spec0 w) := by
  dsimp only [dat0]
theorem q_eq0 (c : Dev nD) : (dat0 V c).q = q0 := rfl
theorem owed_eq0 (c : Dev nD) (t) : (dat0 V c).owed t = 0 := rfl
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point is the first, a middle or the last one;
    the invariant hands the body the accumulator at what the point before left (at anything at the first point) and takes
    it back at this point's contents; the output block is handed back untouched off the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h1 : t.val = 63
  · have h0 : ¬t.val = 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C sout0_C; (try dsimp only)
    rw [PhiS0_castSucc V c t, PhiS0_pos V c _ _ h0]
    iintro ⟨⟨⟨HS0, HR⟩, Hg⟩, Ho, ⟨%d0, H0⟩, ⟨%d1, H1⟩, ⟨%d2, H2⟩⟩
    iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val = 0
    · rw [outsAt0_A V c t h0 h1]
      unfold sout0_A; (try dsimp only)
      rw [PhiS0_castSucc V c t, PhiS0_zero V c _ _ h0, PhiA0_eq]
      iintro ⟨⟨⟨HS0, HR⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
    · rw [outsAt0_B V c t h0 h1]
      unfold sout0_B; (try dsimp only)
      rw [PhiS0_castSucc V c t, PhiS0_pos V c _ _ h0]
      iintro ⟨⟨⟨HS0, HR⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the accumulator's contents are forgotten. -/
theorem hout0 (c : Dev nD) : (dat0 V c).Φ (Fin.last cfg0.N) ⊢ Pipeline.ΦA spec0 c := by
  have hN : cfg0.N = 64 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, HR⟩, Hg⟩
  isplitl [HS0 HR]
  · isplitl [HS0]
    · iexists _; iexact HS0
    iexact HR
  iexact Hg

end Cert.Kernel.Hand

end
-- ==== Proof.K.R1Runs.lean ====
import proofs.«123961_j29377576305361_1_alg».proof.Proof.Gen.Kernel.Launch
import proofs.«123961_j29377576305361_1_alg».proof.Proof.Gen.Kernel.Skeleton
import proofs.«123961_j29377576305361_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what its three runs share

The call's grid has 64 points. At every point the body reads the whole first operand (window 0, resident) and one
block of 128 rows of the second (window 1), and adds one number into a 1×1 scratch accumulator; at point 0 it first
clears the accumulator, at point 63 it copies the accumulator into the 1×1 output block (window 2), which is written
back there and nowhere else. So the body has three control cases: the first point, the middle points, the last point. -/

-- the core's buffer contents when the call is entered: every statement below is at this parameter
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not fetched
    the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first point": the condition under which the accumulator is cleared. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- "This is the last point": the condition under which the output block is stored. -/
abbrev cond1_1 (i : grid1.Coords) : Prop := k1_cond2 i = 1#1
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last point nothing is stored into the output block and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it is stored. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S8192x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The accumulator: a whole scoped buffer of the call's own. -/
abbrev scM1 : Memref sig .tc .vmem S1x1 .f32 := Memref.whole cc1_scratch0
/-- The views through which the output block's and the accumulator's contents are stated. -/
abbrev VO1 : View sig .tc .vmem S1x1 .f32 := (Memref.whole cc1_stg2_0 : Memref sig .tc .vmem S1x1 .f32).view
abbrev VS1 : View sig .tc .vmem S1x1 .f32 := scM1.view

/-! ## The call's scoped buffers: the accumulator and the rest -/

/-- The scoped buffers of the other two calls, each whole at some contents: untouched by this call. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The call's invariant before its first point: the accumulator at some contents, the other scoped buffers, the
    generator register at some state. -/
theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA restS1
  rw [Pipeline.scopedRest_eq_of_list spec1 c [cc1_scratch0, cc0_stg0_0, cc0_stg1_0, cc0_stg1_1, cc0_stg2_0, cc0_scratch0, cc2_stg0_0, cc2_stg1_0, cc2_stg1_1, cc2_stg2_0, cc2_scratch0] (by decide) (by decide)]
  simp only [scM1, owns_whole]; try rfl

end Cert.Kernel.Hand

end
-- ==== Proof.K.R1RunA.lean ====
import proofs.«123961_j29377576305361_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the first point: the accumulator is cleared, then the tile's sum is added; the output block is not touched -/

set_option maxHeartbeats 4000000 in
/-- The body at the first point on whole staging memrefs — the two inputs at their contents, the output block at contents
    handed back untouched, the accumulator at anything — runs to the continuation holding the inputs as they were and
    the accumulator with the pieces its two stores wrote (last first): the pieces are what the run finds. -/
noncomputable def kernelRun1_A (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S8192x64 .f32) (x1 : Vec F S128x64 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1_kernel i arg1 harg1 arg2 harg2 arg3 harg3 arg4 harg4) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R1RunB.lean ====
import proofs.«123961_j29377576305361_1_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, a middle point: the tile's sum is added to what the point before left; the output block is not touched -/

set_option maxHeartbeats 4000000 in
/-- The body at a middle point on whole staging memrefs — the two inputs at their contents, the output block at contents
    handed back untouched, the accumulator at what the point before left — runs to the continuation holding the inputs
    as they were and the accumulator with the piece its store wrote: the piece is what the run finds. -/
noncomputable def kernelRun1_B (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S8192x64 .f32) (x1 : Vec F S128x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1_kernel i arg1 harg1 arg2 harg2 arg3 harg3 arg4 harg4) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R1RunC.lean ====
import proofs.«123961_j29377576305361_1_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the last point: the tile's sum is added to what the point before left, and the accumulator is copied into the output block -/

set_option maxHeartbeats 4000000 in
/-- The body at the last point on whole staging memrefs — the two inputs at their contents, the output block at
    anything, the accumulator at what the point before left — runs to the continuation holding the inputs as they were,
    the output block and the accumulator each with the piece its store wrote: the pieces are what the run finds. -/
noncomputable def kernelRun1_C (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S8192x64 .f32) (x1 : Vec F S128x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1_kernel i arg1 harg1 arg2 harg2 arg3 harg3 arg4 harg4) K } := by
  refine ⟨?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R1Frame.lean ====
import proofs.«123961_j29377576305361_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what the accumulator and the output block hold point by point, the proof data, the body obligation -/

variable (V : (c : Dev nD) → (b : Ref sig .tc) → Buf (Elt F) ((c : Thread nD τ).loc b))

/-! ## What each case leaves -/

/-- The first point's two stores into the accumulator cover it. -/
theorem scover1_A (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S8192x64 .f32) (x1 : Vec F S128x64 .f32) (y : S1x1.Idx) :
    ∃ pc ∈ (kernelRun1_A c i arg1 harg1 arg2 harg2 arg3 harg3 arg4 harg4 hc0 hc1 x0 x1).1, y ∈ pc.1.set :=
  View.cover_of_tiledL (kernelRun1_A c i arg1 harg1 arg2 harg2 arg3 harg3 arg4 harg4 hc0 hc1 x0 x1).1 S1x1.size (by sl_kernel_rfl) y
/-- What the first point leaves in the accumulator: its pieces read back. -/
def sout1_A (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S8192x64 .f32) (x1 : Vec F S128x64 .f32) : Vec F S1x1 .f32 :=
  VS1.read (Elt F) (VS1.writes (Elt F) VS1.junk (kernelRun1_A c i arg1 harg1 arg2 harg2 arg3 harg3 arg4 harg4 hc0 hc1 x0 x1).1)

/-- A middle point's store into the accumulator covers it. -/
theorem scover1_B (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S8192x64 .f32) (x1 : Vec F S128x64 .f32) (xs0 : Vec F S1x1 .f32) (y : S1x1.Idx) :
    ∃ pc ∈ (kernelRun1_B c i arg1 harg1 arg2 harg2 arg3 harg3 arg4 harg4 hc0 hc1 x0 x1 xs0).1, y ∈ pc.1.set :=
  View.cover_of_tiledL (kernelRun1_B c i arg1 harg1 arg2 harg2 arg3 harg3 arg4 harg4 hc0 hc1 x0 x1 xs0).1 S1x1.size (by sl_kernel_rfl) y
/-- What a middle point leaves in the accumulator. -/
def sout1_B (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S8192x64 .f32) (x1 : Vec F S128x64 .f32) (xs0 : Vec F S1x1 .f32) : Vec F S1x1 .f32 :=
  VS1.read (Elt F) (VS1.writes (Elt F) VS1.junk (kernelRun1_B c i arg1 harg1 arg2 harg2 arg3 harg3 arg4 harg4 hc0 hc1 x0 x1 xs0).1)

/-- The last point's store into the output block covers it. -/
theorem cover1_C (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S8192x64 .f32) (x1 : Vec F S128x64 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y
/-- What the last point leaves in the output block. -/
def out1_C (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S8192x64 .f32) (x1 : Vec F S128x64 .f32) (xs0 : Vec F S1x1 .f32) : Vec F S1x1 .f32 :=
  VO1.read (Elt F) (VO1.writes (Elt F) VO1.junk (kernelRun1_C c i arg1 harg1 arg2 harg2 arg3 harg3 arg4 harg4 hc0 hc1 x0 x1 xs0).1)
/-- The last point's store into the accumulator covers it. -/
theorem scover1_C (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S8192x64 .f32) (x1 : Vec F S128x64 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y
/-- What the last point leaves in the accumulator. -/
def sout1_C (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S8192x64 .f32) (x1 : Vec F S128x64 .f32) (xs0 : Vec F S1x1 .f32) : Vec F S1x1 .f32 :=
  VS1.read (Elt F) (VS1.writes (Elt F) VS1.junk (kernelRun1_C c i arg1 harg1 arg2 harg2 arg3 harg3 arg4 harg4 hc0 hc1 x0 x1 xs0).2.1)

/-- A placeholder for the output block at the points that store nothing into it (never consulted: the block is
    neither written back nor read there). -/
def outIdle1 : Vec F S1x1 .f32 := VO1.read (Elt F) VO1.junk

/-! ## Point by point -/

/-- What the output block's staging buffer and the accumulator hold after the body at position `n`: the case the
    point is in, run at the point's memrefs and input blocks, the accumulator read at what position `n - 1` left. -/
def outsAt1 (c : Dev nD) : (n : ℕ) → n < cfg1.N → Vec F S1x1 .f32 × Vec F S1x1 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr rfl) (fun h => absurd ((hcond1_1 ⟨0, hn⟩).mp h) (show ¬(0 : ℕ) = 63 by decide)) (iblk1 V c 0 ⟨0, hn⟩) (iblk1 V c 1 ⟨0, hn⟩))
  | n + 1, hn =>
    if h1 : n + 1 = 63 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2)
    else
      (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At the first point. -/
theorem outsAt1_A (c : Dev nD) (t : Fin cfg1.N) (h0 : t.val = 0) (h1 : ¬t.val = 63) :
    outsAt1 V c t.val t.isLt = (outIdle1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

/-- At a middle point. -/
theorem outsAt1_B (c : Dev nD) (t : Fin cfg1.N) (h0 : ¬t.val = 0) (h1 : ¬t.val = 63) :
    outsAt1 V c t.val t.isLt = (outIdle1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- At the last point. -/
theorem outsAt1_C (c : Dev nD) (t : Fin cfg1.N) (h0 : ¬t.val = 0) (h1 : t.val = 63) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The call's invariant before position `n`: before the first point the accumulator at anything; afterwards the
    accumulator at what the point before left; beside it the other calls' scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ restS1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restS1 c) ∗ (∃ r, prngReg c r)) := by
  cases n with
  | zero => exact absurd rfl hz
  | succ n => rfl

/-! ## The proof data -/

/-- The share of its array each input window holds. -/
def q1 : Fin cfg1.W → PosShare TreeShare := fun w => match w with
  | ⟨0, _⟩ => fullShare.left
  | ⟨1, _⟩ => fullShare.right
  | ⟨2, _⟩ => fullShare

/-- The call's proof data on core `c`: the arrays as the call finds them; after the body at point `t` each input's
    buffer at its block and the output block's at `outsAt1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]
theorem q_eq1 (c : Dev nD) : (dat1 V c).q = q1 := rfl
theorem owed_eq1 (c : Dev nD) (t) : (dat1 V c).owed t = 0 := rfl
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point is the first, a middle or the last one;
    the invariant hands the body the accumulator at what the point before left (at anything at the first point) and takes
    it back at this point's contents; the output block is handed back untouched off the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h1 : t.val = 63
  · have h0 : ¬t.val = 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C sout1_C; (try dsimp only)
    rw [PhiS1_castSucc V c t, PhiS1_pos V c _ _ h0]
    iintro ⟨⟨⟨HS0, HR⟩, Hg⟩, Ho, ⟨%d0, H0⟩, ⟨%d1, H1⟩, ⟨%d2, H2⟩⟩
    iapply ((kernelRun1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C c _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    by_cases h0 : t.val = 0
    · rw [outsAt1_A V c t h0 h1]
      unfold sout1_A; (try dsimp only)
      rw [PhiS1_castSucc V c t, PhiS1_zero V c _ _ h0, PhiA1_eq]
      iintro ⟨⟨⟨HS0, HR⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
    · rw [outsAt1_B V c t h0 h1]
      unfold sout1_B; (try dsimp only)
      rw [PhiS1_castSucc V c t, PhiS1_pos V c _ _ h0]
      iintro ⟨⟨⟨HS0, HR⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS0, HR⟩, Hg⟩
  isplitl [HS0 HR]
  · isplitl [HS0]
    · iexists _; iexact HS0
    iexact HR
  iexact Hg

end Cert.Kernel.Hand

end
-- ==== Proof.K.R2Runs.lean ====
import proofs.«123961_j29377576305361_1_alg».proof.Proof.Gen.Kernel.Launch
import proofs.«123961_j29377576305361_1_alg».proof.Proof.Gen.Kernel.Skeleton
import proofs.«123961_j29377576305361_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what its three runs share

The call's grid has 64 points. At every point the body reads the whole first operand (window 0, resident) and one
block of 128 rows of the second (window 1), and adds one number into a 1×1 scratch accumulator; at point 0 it first
clears the accumulator, at point 63 it copies the accumulator into the 1×1 output block (window 2), which is written
back there and nowhere else. So the body has three control cases: the first point, the middle points, the last point. -/

-- the core's buffer contents when the call is entered: every statement below is at this parameter
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not fetched
    the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- "This is the first point": the condition under which the accumulator is cleared. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last point": the condition under which the output block is stored. -/
abbrev cond2_1 (i : grid2.Coords) : Prop := k2_cond2 i = 1#1
theorem hcond2_1 : ∀ t : Fin cfg2.N, cond2_1 (grid2.coords t) ↔ t.val = 63 :=
  (by decide +kernel : ∀ t : Fin grid2.N, cond2_1 (grid2.coords t) ↔ t.val = 63)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Off the last point nothing is stored into the output block and it is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point it is stored. -/
theorem liveAt2_2 : ∀ t : Fin cfg2.N, cond2_1 (grid2.coords t) → cfg2.idle 2 (grid2.coords t) = false := by decide +kernel

/-! ## The memrefs the body is called with -/

abbrev ms2_0 (t : Fin cfg2.N) : Memref sig .tc .vmem S8192x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- The accumulator: a whole scoped buffer of the call's own. -/
abbrev scM2 : Memref sig .tc .vmem S1x1 .f32 := Memref.whole cc2_scratch0
/-- The views through which the output block's and the accumulator's contents are stated. -/
abbrev VO2 : View sig .tc .vmem S1x1 .f32 := (Memref.whole cc2_stg2_0 : Memref sig .tc .vmem S1x1 .f32).view
abbrev VS2 : View sig .tc .vmem S1x1 .f32 := scM2.view

/-! ## The call's scoped buffers: the accumulator and the rest -/

/-- The scoped buffers of the other two calls, each whole at some contents: untouched by this call. -/
def restS2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The call's invariant before its first point: the accumulator at some contents, the other scoped buffers, the
    generator register at some state. -/
theorem PhiA2_eq (c : Dev nD) :
    (Pipeline.ΦA spec2 c : sProp 𝕄)
      = iprop(iprop((∃ d, owns (c : Thread nD τ) scM2 fullShare d) ∗ restS2 c) ∗ (∃ r, prngReg c r)) := by
  unfold Pipeline.ΦA restS2
  rw [Pipeline.scopedRest_eq_of_list spec2 c [cc2_scratch0, cc0_stg0_0, cc0_stg1_0, cc0_stg1_1, cc0_stg2_0, cc0_scratch0, cc1_stg0_0, cc1_stg1_0, cc1_stg1_1, cc1_stg2_0, cc1_scratch0] (by decide) (by decide)]
  simp only [scM2, owns_whole]; try rfl

end Cert.Kernel.Hand

end
-- ==== Proof.K.R2RunA.lean ====
import proofs.«123961_j29377576305361_1_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the first point: the accumulator is cleared, then the tile's sum is added; the output block is not touched -/

set_option maxHeartbeats 4000000 in
/-- The body at the first point on whole staging memrefs — the two inputs at their contents, the output block at contents
    handed back untouched, the accumulator at anything — runs to the continuation holding the inputs as they were and
    the accumulator with the pieces its two stores wrote (last first): the pieces are what the run finds. -/
noncomputable def kernelRun2_A (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S8192x64 .f32) (x1 : Vec F S128x64 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_kernel i arg1 harg1 arg2 harg2 arg3 harg3 arg4 harg4) K } := by
  refine ⟨?_, fun xi2 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R2RunB.lean ====
import proofs.«123961_j29377576305361_1_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, a middle point: the tile's sum is added to what the point before left; the output block is not touched -/

set_option maxHeartbeats 4000000 in
/-- The body at a middle point on whole staging memrefs — the two inputs at their contents, the output block at contents
    handed back untouched, the accumulator at what the point before left — runs to the continuation holding the inputs
    as they were and the accumulator with the piece its store wrote: the piece is what the run finds. -/
noncomputable def kernelRun2_B (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S8192x64 .f32) (x1 : Vec F S128x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_kernel i arg1 harg1 arg2 harg2 arg3 harg3 arg4 harg4) K } := by
  refine ⟨?_, fun xi2 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R2RunC.lean ====
import proofs.«123961_j29377576305361_1_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the last point: the tile's sum is added to what the point before left, and the accumulator is copied into the output block -/

set_option maxHeartbeats 4000000 in
/-- The body at the last point on whole staging memrefs — the two inputs at their contents, the output block at
    anything, the accumulator at what the point before left — runs to the continuation holding the inputs as they were,
    the output block and the accumulator each with the piece its store wrote: the pieces are what the run finds. -/
noncomputable def kernelRun2_C (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S8192x64 .f32) (x1 : Vec F S128x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2_kernel i arg1 harg1 arg2 harg2 arg3 harg3 arg4 harg4) K } := by
  refine ⟨?_, ?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R2Frame.lean ====
import proofs.«123961_j29377576305361_1_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what the accumulator and the output block hold point by point, the proof data, the body obligation -/

variable (V : (c : Dev nD) → (b : Ref sig .tc) → Buf (Elt F) ((c : Thread nD τ).loc b))

/-! ## What each case leaves -/

/-- The first point's two stores into the accumulator cover it. -/
theorem scover2_A (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S8192x64 .f32) (x1 : Vec F S128x64 .f32) (y : S1x1.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S1x1.size (by sl_kernel_rfl) y
/-- What the first point leaves in the accumulator: its pieces read back. -/
def sout2_A (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S8192x64 .f32) (x1 : Vec F S128x64 .f32) : Vec F S1x1 .f32 :=
  VS2.read (Elt F) (VS2.writes (Elt F) VS2.junk (kernelRun2_A c i arg1 harg1 arg2 harg2 arg3 harg3 arg4 harg4 hc0 hc1 x0 x1).1)

/-- A middle point's store into the accumulator covers it. -/
theorem scover2_B (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S8192x64 .f32) (x1 : Vec F S128x64 .f32) (xs0 : Vec F S1x1 .f32) (y : S1x1.Idx) :
    ∃ pc ∈ (kernelRun2_B c i arg1 harg1 arg2 harg2 arg3 harg3 arg4 harg4 hc0 hc1 x0 x1 xs0).1, y ∈ pc.1.set :=
  View.cover_of_tiledL (kernelRun2_B c i arg1 harg1 arg2 harg2 arg3 harg3 arg4 harg4 hc0 hc1 x0 x1 xs0).1 S1x1.size (by sl_kernel_rfl) y
/-- What a middle point leaves in the accumulator. -/
def sout2_B (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S8192x64 .f32) (x1 : Vec F S128x64 .f32) (xs0 : Vec F S1x1 .f32) : Vec F S1x1 .f32 :=
  VS2.read (Elt F) (VS2.writes (Elt F) VS2.junk (kernelRun2_B c i arg1 harg1 arg2 harg2 arg3 harg3 arg4 harg4 hc0 hc1 x0 x1 xs0).1)

/-- The last point's store into the output block covers it. -/
theorem cover2_C (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S8192x64 .f32) (x1 : Vec F S128x64 .f32) (xs0 : Vec F S1x1 .f32) (y : S1x1.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x1.size (by sl_kernel_rfl) y
/-- What the last point leaves in the output block. -/
def out2_C (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S8192x64 .f32) (x1 : Vec F S128x64 .f32) (xs0 : Vec F S1x1 .f32) : Vec F S1x1 .f32 :=
  VO2.read (Elt F) (VO2.writes (Elt F) VO2.junk (kernelRun2_C c i arg1 harg1 arg2 harg2 arg3 harg3 arg4 harg4 hc0 hc1 x0 x1 xs0).1)
/-- The last point's store into the accumulator covers it. -/
theorem scover2_C (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S8192x64 .f32) (x1 : Vec F S128x64 .f32) (xs0 : Vec F S1x1 .f32) (y : S1x1.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x1.size (by sl_kernel_rfl) y
/-- What the last point leaves in the accumulator. -/
def sout2_C (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S8192x64 .f32) (x1 : Vec F S128x64 .f32) (xs0 : Vec F S1x1 .f32) : Vec F S1x1 .f32 :=
  VS2.read (Elt F) (VS2.writes (Elt F) VS2.junk (kernelRun2_C c i arg1 harg1 arg2 harg2 arg3 harg3 arg4 harg4 hc0 hc1 x0 x1 xs0).2.1)

/-- A placeholder for the output block at the points that store nothing into it (never consulted: the block is
    neither written back nor read there). -/
def outIdle2 : Vec F S1x1 .f32 := VO2.read (Elt F) VO2.junk

/-! ## Point by point -/

/-- What the output block's staging buffer and the accumulator hold after the body at position `n`: the case the
    point is in, run at the point's memrefs and input blocks, the accumulator read at what position `n - 1` left. -/
def outsAt2 (c : Dev nD) : (n : ℕ) → n < cfg2.N → Vec F S1x1 .f32 × Vec F S1x1 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr rfl) (fun h => absurd ((hcond2_1 ⟨0, hn⟩).mp h) (show ¬(0 : ℕ) = 63 by decide)) (iblk2 V c 0 ⟨0, hn⟩) (iblk2 V c 1 ⟨0, hn⟩))
  | n + 1, hn =>
    if h1 : n + 1 = 63 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2)
    else
      (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At the first point. -/
theorem outsAt2_A (c : Dev nD) (t : Fin cfg2.N) (h0 : t.val = 0) (h1 : ¬t.val = 63) :
    outsAt2 V c t.val t.isLt = (outIdle2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd h0 (Nat.succ_ne_zero n)

/-- At a middle point. -/
theorem outsAt2_B (c : Dev nD) (t : Fin cfg2.N) (h0 : ¬t.val = 0) (h1 : ¬t.val = 63) :
    outsAt2 V c t.val t.isLt = (outIdle2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- At the last point. -/
theorem outsAt2_C (c : Dev nD) (t : Fin cfg2.N) (h0 : ¬t.val = 0) (h1 : t.val = 63) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-- The call's invariant before position `n`: before the first point the accumulator at anything; afterwards the
    accumulator at what the point before left; beside it the other calls' scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ restS2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restS2 c) ∗ (∃ r, prngReg c r)) := by
  cases n with
  | zero => exact absurd rfl hz
  | succ n => rfl

/-! ## The proof data -/

/-- The share of its array each input window holds. -/
def q2 : Fin cfg2.W → PosShare TreeShare := fun _ => fullShare

/-- The call's proof data on core `c`: the arrays as the call finds them; after the body at point `t` each input's
    buffer at its block and the output block's at `outsAt2`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q := q2
  owed _ := 0

theorem A_eq2 (c : Dev nD) (w : Fin cfg2.W) : (dat2 V c).A w = V c (Pipeline.arrRef spec2 w) := by
  dsimp only [dat2]
theorem q_eq2 (c : Dev nD) : (dat2 V c).q = q2 := rfl
theorem owed_eq2 (c : Dev nD) (t) : (dat2 V c).owed t = 0 := rfl
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the point is the first, a middle or the last one;
    the invariant hands the body the accumulator at what the point before left (at anything at the first point) and takes
    it back at this point's contents; the output block is handed back untouched off the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 64 := lt_of_lt_of_eq t.isLt (show cfg2.N = 64 from N_2)
  by_cases h1 : t.val = 63
  · have h0 : ¬t.val = 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [outsAt2_C V c t h0 h1]
    unfold out2_C sout2_C; (try dsimp only)
    rw [PhiS2_castSucc V c t, PhiS2_pos V c _ _ h0]
    iintro ⟨⟨⟨HS0, HR⟩, Hg⟩, Ho, ⟨%d0, H0⟩, ⟨%d1, H1⟩, ⟨%d2, H2⟩⟩
    iapply ((kernelRun2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C c _ _ _ _ _ _ _ _ _ _ _ _ _ _)
  · rw [Dat.leavesExact_idle (dat2 V c) 2 t (idleAt2_2 t (fun h => h1 ((hcond2_1 t).mp h))) (noFlush2_2 t (fun h => h1 ((hcond2_1 t).mp h)))]
    by_cases h0 : t.val = 0
    · rw [outsAt2_A V c t h0 h1]
      unfold sout2_A; (try dsimp only)
      rw [PhiS2_castSucc V c t, PhiS2_zero V c _ _ h0, PhiA2_eq]
      iintro ⟨⟨⟨HS0, HR⟩, Hg⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _)
          iexact HR
        iexact Hg
      isplitl [Ho]; · iexact Ho
      isplitl [H0]; · iexact H0
      isplitl [H1]; · iexact H1
      iexists _; iexact H2
    · rw [outsAt2_B V c t h0 h1]
      unfold sout2_B; (try dsimp only)
      rw [PhiS2_castSucc V c t, PhiS2_pos V c _ _ h0]
      iintro ⟨⟨⟨HS0, HR⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the accumulator's contents are forgotten. -/
theorem hout2 (c : Dev nD) : (dat2 V c).Φ (Fin.last cfg2.N) ⊢ Pipeline.ΦA spec2 c := by
  have hN : cfg2.N = 64 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, HR⟩, Hg⟩
  isplitl [HS0 HR]
  · isplitl [HS0]
    · iexists _; iexact HS0
    iexact HR
  iexact Hg

end Cert.Kernel.Hand

end
-- ==== Proof.K.Shared0.lean ====
import proofs.«123961_j29377576305361_1_alg».proof.Proof.Gen.Kernel.Launch
import proofs.«123961_j29377576305361_1_alg».proof.Proof.Gen.Kernel.Points
import Idealize.ShloMosaic.Lib.Pipeline.FrameBody
import Idealize.ShloMosaic.Lib.Pipeline.RegionsLoop
set_option maxRecDepth 16384
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
variable {F : FTy → Type} [FloatOps F]
local notation "𝕄" => MT nD τ sig Unit (Elt F) ℕ (UR sig nD τ) ℕ

/-! # A pallas call whose two input windows read one array

Windows 0 and 1 both read the array `main_arg0`; window 2 writes `main_v0`. The distinct buffers behind the
windows are therefore two, and the pipeline holds the shared array once per window: at the left half of the
full share for window 0 and at the right half for window 1. The two halves compose to the full share, so the
core's unscoped buffers split into the pipeline's arrays and the rest, and rejoin. -/

/-- A core's unscoped buffers at contents `V` are the distinct buffers behind the windows' arrays at `V` and the rest:
    every window's array is an unscoped buffer, and this needs no distinctness of the arrays. -/
theorem unscopedBufs_split0 (c : Dev nD) (V : (b : Ref sig .tc) → Buf (Elt F) ((c : Thread nD τ).loc b)) :
    (unscopedBufs c V : sProp 𝕄) = iprop((Pipeline.arrBufs spec0 c V : sProp 𝕄) ∗ Pipeline.unscopedRest spec0 c V) :=
  Pipeline.unscopedBufs_split₀ (fun _ : Unit => cfg0) () winFacts₀0.arr_unscoped c V

/-- The distinct buffers behind the three windows are the shared input array and the output array. -/
theorem arrBufs_eq0 (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v0) ↦{fullShare} V main_v0)) := by
  unfold Pipeline.arrBufs
  exact bigSep_eq_bigSepL_of_eq [main_arg0, main_v0] (by decide) (by decide) _

/-- A full-share points-to is its left half and its right half: the two halves of the full share compose to it. -/
private theorem pointsTo_halves {ℓ : Loc nD τ sig} (f : Buf (Elt F) ℓ) :
    (ℓ ↦{fullShare} f : sProp 𝕄) = iprop((ℓ ↦{fullShare.left} f) ∗ ℓ ↦{fullShare.right} f) := by
  have h : (ℓ ↦{fullShare} f : sProp 𝕄) ⊣⊢ iprop((ℓ ↦{fullShare.left} f) ∗ ℓ ↦{fullShare.right} f) :=
    pointsTo_share (PosShare.mem_left_op_right fullShare)
  exact h.1.antisymm h.2

/-- The pipeline's arrays, window by window: the shared input array at the left half share for window 0 and at the
    right half share for window 1, the output array at the full share. Every window's array is a whole buffer, so
    each points-to is over all of the buffer's elements; an output's share is full, an input's is the proof data's. -/
theorem arrays_eq0 {c : Dev nD} (dat : Dat τ (Elt F) Unit ℕ (UR sig nD τ) ℕ cfg0 c)
    (hq0 : dat.q 0 = fullShare.left) (hq1 : dat.q 1 = fullShare.right)
    (Fn : (w : Fin cfg0.W) → Buf (Elt F) ((cfg0.win w).arr.view.loc (c : Thread nD τ))) :
    (dat.arrays Fn : sProp 𝕄)
      = iprop((((c : Thread nD τ).loc main_arg0) ↦{fullShare.left} Fn (0 : Fin 3)) ∗ (((c : Thread nD τ).loc main_arg0) ↦{fullShare.right} Fn (1 : Fin 3))
          ∗ (((c : Thread nD τ).loc main_v0) ↦{fullShare} Fn (2 : Fin 3))) := by
  have hsL : dat.share (0 : Fin 3) = fullShare.left := by unfold Dat.share; rw [if_neg (by decide)]; exact hq0
  have hsR : dat.share (1 : Fin 3) = fullShare.right := by unfold Dat.share; rw [if_neg (by decide)]; exact hq1
  have hsO : dat.share (2 : Fin 3) = fullShare := by unfold Dat.share; rw [if_pos (by decide)]
  have eL : ((cfg0.win (0 : Fin 3)).arr.view.loc (c : Thread nD τ) ↦[(cfg0.win (0 : Fin 3)).arr.view.set]{dat.share (0 : Fin 3)} Fn (0 : Fin 3) : sProp 𝕄)
      = (((c : Thread nD τ).loc main_arg0) ↦{fullShare.left} Fn (0 : Fin 3)) := by
    rw [(arr_whole0 0).set_eq_univ, hsL]
  have eR : ((cfg0.win (1 : Fin 3)).arr.view.loc (c : Thread nD τ) ↦[(cfg0.win (1 : Fin 3)).arr.view.set]{dat.share (1 : Fin 3)} Fn (1 : Fin 3) : sProp 𝕄)
      = (((c : Thread nD τ).loc main_arg0) ↦{fullShare.right} Fn (1 : Fin 3)) := by
    rw [(arr_whole0 1).set_eq_univ, hsR]
  have eO : ((cfg0.win (2 : Fin 3)).arr.view.loc (c : Thread nD τ) ↦[(cfg0.win (2 : Fin 3)).arr.view.set]{dat.share (2 : Fin 3)} Fn (2 : Fin 3) : sProp 𝕄)
      = (((c : Thread nD τ).loc main_v0) ↦{fullShare} Fn (2 : Fin 3)) := by
    rw [(arr_whole0 2).set_eq_univ, hsO]
  unfold Dat.arrays
  rw [bigSep_W0]
  exact congrArg₂ _ eL (congrArg₂ _ eR eO)

/-- ENTRY, the arrays' part: a core's unscoped buffers at contents `V` are the pipeline's arrays at the proof data's
    entry contents, those being read off `V`, and the unscoped rest. The shared input array's full share is dealt to
    its two windows, the left half to window 0 and the right half to window 1. -/
theorem arrays_entry0 {c : Dev nD} (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b)) (hA : ∀ w, dat.A w = V (Pipeline.arrRef spec0 w)) :
    (unscopedBufs c V : sProp 𝕄) ⊢ iprop(dat.arrays dat.A ∗ Pipeline.unscopedRest spec0 c V) := by
  rw [unscopedBufs_split0 c V, arrBufs_eq0, arrays_eq0 dat hq0 hq1 dat.A,
    hA (0 : Fin 3), hA (1 : Fin 3), hA (2 : Fin 3)]
  refine sep_mono ?_ .rfl
  rw [pointsTo_halves (V main_arg0)]
  exact sep_assoc.1

/-- EXIT, the arrays' part: the pipeline's arrays at contents `Fn` and the unscoped rest at `V` are the core's unscoped
    buffers at any valuation `V'` that has the arrays at `Fn` and agrees with `V` off them. Windows 0 and 1 hold the
    one input array at the same contents, so their two half shares rejoin to the full share. -/
theorem arrays_exit0 {c : Dev nD} (dat : Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (Fn : (w : Fin cfg0.W) → Buf (Elt F) ((cfg0.win w).arr.view.loc (c : Thread nD τ)))
    (hF : ∀ w, Fn w = V' (Pipeline.arrRef spec0 w))
    (hrest : ∀ b, b ∉ Finset.univ.image (Pipeline.arrRef spec0) → V' b = V b) :
    iprop(dat.arrays Fn ∗ Pipeline.unscopedRest spec0 c V) ⊢ (unscopedBufs c V' : sProp 𝕄) := by
  rw [unscopedBufs_split0 c V', arrBufs_eq0, arrays_eq0 dat hq0 hq1 Fn,
    hF (0 : Fin 3), hF (1 : Fin 3), hF (2 : Fin 3)]
  refine sep_mono ?_ (Entails.of_eq ?_)
  · rw [pointsTo_halves (V' main_arg0)]
    exact sep_assoc.2
  · unfold Pipeline.unscopedRest
    exact bigSep_congr fun b hb => by rw [hrest b (Finset.mem_sdiff.mp hb).2]

end Cert.Kernel.Hand
-- ==== Proof.K.Shared1.lean ====
import proofs.«123961_j29377576305361_1_alg».proof.Proof.Gen.Kernel.Launch
import proofs.«123961_j29377576305361_1_alg».proof.Proof.Gen.Kernel.Points
import Idealize.ShloMosaic.Lib.Pipeline.FrameBody
import Idealize.ShloMosaic.Lib.Pipeline.RegionsLoop
set_option maxRecDepth 16384
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
variable {F : FTy → Type} [FloatOps F]
local notation "𝕄" => MT nD τ sig Unit (Elt F) ℕ (UR sig nD τ) ℕ

/-! # A pallas call whose two input windows read one array

Windows 0 and 1 both read the array `main_arg1`; window 2 writes `main_v3`. The distinct buffers behind the
windows are therefore two, and the pipeline holds the shared array once per window: at the left half of the
full share for window 0 and at the right half for window 1. The two halves compose to the full share, so the
core's unscoped buffers split into the pipeline's arrays and the rest, and rejoin. -/

/-- A core's unscoped buffers at contents `V` are the distinct buffers behind the windows' arrays at `V` and the rest:
    every window's array is an unscoped buffer, and this needs no distinctness of the arrays. -/
theorem unscopedBufs_split1 (c : Dev nD) (V : (b : Ref sig .tc) → Buf (Elt F) ((c : Thread nD τ).loc b)) :
    (unscopedBufs c V : sProp 𝕄) = iprop((Pipeline.arrBufs spec1 c V : sProp 𝕄) ∗ Pipeline.unscopedRest spec1 c V) :=
  Pipeline.unscopedBufs_split₀ (fun _ : Unit => cfg1) () winFacts₀1.arr_unscoped c V

/-- The distinct buffers behind the three windows are the shared input array and the output array. -/
theorem arrBufs_eq1 (c : Dev nD) (V : (b : Ref sig .tc) → Buf (Elt F) ((c : Thread nD τ).loc b)) :
    (Pipeline.arrBufs spec1 c V : sProp 𝕄)
      = iprop((((c : Thread nD τ).loc main_arg1) ↦{fullShare} V main_arg1) ∗ (((c : Thread nD τ).loc main_v3) ↦{fullShare} V main_v3)) := by
  unfold Pipeline.arrBufs
  exact bigSep_eq_bigSepL_of_eq [main_arg1, main_v3] (by decide) (by decide) _

/-- A full-share points-to is its left half and its right half: the two halves of the full share compose to it. -/
private theorem pointsTo_halves {ℓ : Loc nD τ sig} (f : Buf (Elt F) ℓ) :
    (ℓ ↦{fullShare} f : sProp 𝕄) = iprop((ℓ ↦{fullShare.left} f) ∗ ℓ ↦{fullShare.right} f) := by
  have h : (ℓ ↦{fullShare} f : sProp 𝕄) ⊣⊢ iprop((ℓ ↦{fullShare.left} f) ∗ ℓ ↦{fullShare.right} f) :=
    pointsTo_share (PosShare.mem_left_op_right fullShare)
  exact h.1.antisymm h.2

/-- The pipeline's arrays, window by window: the shared input array at the left half share for window 0 and at the
    right half share for window 1, the output array at the full share. Every window's array is a whole buffer, so
    each points-to is over all of the buffer's elements; an output's share is full, an input's is the proof data's. -/
theorem arrays_eq1 {c : Dev nD} (dat : Dat τ (Elt F) Unit ℕ (UR sig nD τ) ℕ cfg1 c)
    (hq0 : dat.q 0 = fullShare.left) (hq1 : dat.q 1 = fullShare.right)
    (Fn : (w : Fin cfg1.W) → Buf (Elt F) ((cfg1.win w).arr.view.loc (c : Thread nD τ))) :
    (dat.arrays Fn : sProp 𝕄)
      = iprop((((c : Thread nD τ).loc main_arg1) ↦{fullShare.left} Fn (0 : Fin 3)) ∗ (((c : Thread nD τ).loc main_arg1) ↦{fullShare.right} Fn (1 : Fin 3))
          ∗ (((c : Thread nD τ).loc main_v3) ↦{fullShare} Fn (2 : Fin 3))) := by
  have hsL : dat.share (0 : Fin 3) = fullShare.left := by unfold Dat.share; rw [if_neg (by decide)]; exact hq0
  have hsR : dat.share (1 : Fin 3) = fullShare.right := by unfold Dat.share; rw [if_neg (by decide)]; exact hq1
  have hsO : dat.share (2 : Fin 3) = fullShare := by unfold Dat.share; rw [if_pos (by decide)]
  have eL : ((cfg1.win (0 : Fin 3)).arr.view.loc (c : Thread nD τ) ↦[(cfg1.win (0 : Fin 3)).arr.view.set]{dat.share (0 : Fin 3)} Fn (0 : Fin 3) : sProp 𝕄)
      = (((c : Thread nD τ).loc main_arg1) ↦{fullShare.left} Fn (0 : Fin 3)) := by
    rw [(arr_whole1 0).set_eq_univ, hsL]
  have eR : ((cfg1.win (1 : Fin 3)).arr.view.loc (c : Thread nD τ) ↦[(cfg1.win (1 : Fin 3)).arr.view.set]{dat.share (1 : Fin 3)} Fn (1 : Fin 3) : sProp 𝕄)
      = (((c : Thread nD τ).loc main_arg1) ↦{fullShare.right} Fn (1 : Fin 3)) := by
    rw [(arr_whole1 1).set_eq_univ, hsR]
  have eO : ((cfg1.win (2 : Fin 3)).arr.view.loc (c : Thread nD τ) ↦[(cfg1.win (2 : Fin 3)).arr.view.set]{dat.share (2 : Fin 3)} Fn (2 : Fin 3) : sProp 𝕄)
      = (((c : Thread nD τ).loc main_v3) ↦{fullShare} Fn (2 : Fin 3)) := by
    rw [(arr_whole1 2).set_eq_univ, hsO]
  unfold Dat.arrays
  rw [bigSep_W1]
  exact congrArg₂ _ eL (congrArg₂ _ eR eO)

/-- ENTRY, the arrays' part: a core's unscoped buffers at contents `V` are the pipeline's arrays at the proof data's
    entry contents, those being read off `V`, and the unscoped rest. The shared input array's full share is dealt to
    its two windows, the left half to window 0 and the right half to window 1. -/
theorem arrays_entry1 {c : Dev nD} (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b)) (hA : ∀ w, dat.A w = V (Pipeline.arrRef spec1 w)) :
    (unscopedBufs c V : sProp 𝕄) ⊢ iprop(dat.arrays dat.A ∗ Pipeline.unscopedRest spec1 c V) := by
  rw [unscopedBufs_split1 c V, arrBufs_eq1, arrays_eq1 dat hq0 hq1 dat.A,
    hA (0 : Fin 3), hA (1 : Fin 3), hA (2 : Fin 3)]
  refine sep_mono ?_ .rfl
  rw [pointsTo_halves (V main_arg1)]
  exact sep_assoc.1

/-- EXIT, the arrays' part: the pipeline's arrays at contents `Fn` and the unscoped rest at `V` are the core's unscoped
    buffers at any valuation `V'` that has the arrays at `Fn` and agrees with `V` off them. Windows 0 and 1 hold the
    one input array at the same contents, so their two half shares rejoin to the full share. -/
theorem arrays_exit1 {c : Dev nD} (dat : Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w))
    (hrest : ∀ b, b ∉ Finset.univ.image (Pipeline.arrRef spec1) → V' b = V b) :
    iprop(dat.arrays Fn ∗ Pipeline.unscopedRest spec1 c V) ⊢ (unscopedBufs c V' : sProp 𝕄) := by
  rw [unscopedBufs_split1 c V', arrBufs_eq1, arrays_eq1 dat hq0 hq1 Fn,
    hF (0 : Fin 3), hF (1 : Fin 3), hF (2 : Fin 3)]
  refine sep_mono ?_ (Entails.of_eq ?_)
  · rw [pointsTo_halves (V' main_arg1)]
    exact sep_assoc.2
  · unfold Pipeline.unscopedRest
    exact bigSep_congr fun b hb => by rw [hrest b (Finset.mem_sdiff.mp hb).2]

end Cert.Kernel.Hand
-- ==== Proof.K.Run.lean ====
import proofs.«123961_j29377576305361_1_alg».proof.Proof.K.R0Frame
import proofs.«123961_j29377576305361_1_alg».proof.Proof.K.R1Frame
import proofs.«123961_j29377576305361_1_alg».proof.Proof.K.R2Frame
import proofs.«123961_j29377576305361_1_alg».proof.Proof.K.Shared0
import proofs.«123961_j29377576305361_1_alg».proof.Proof.K.Shared1
import proofs.«123961_j29377576305361_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The run of @main: three kernel regions among three stretches of host operations

## The buffers' contents at every boundary between two items: a fold from the launch memory -/

variable (m : (ℓ : Loc nD τ sig) → Buf (Elt F) ℓ) (ρ : Dev nD → PrngReg)

/-- Core `c`'s unscoped buffers at launch: the launch memory. -/
abbrev U0 (c : Dev nD) : Valuation τ sig (Elt F) := fun b => m (c, b)
/-- The same read at the TensorCore's references: the contents call 0 is entered at. -/
abbrev E0 : (c : Dev nD) → (b : Ref sig .tc) → Buf (Elt F) ((c : Thread nD τ).loc b) := fun c b => U0 m c b
/-- After call 0: only its output array `main_v0` has changed, to what the write-backs of all points leave. -/
abbrev U1 (c : Dev nD) : Valuation τ sig (Elt F) :=
  Function.update (U0 m c) (Proc.devRef .tc main_v0) ((dat0 (E0 m) c).arrAt 2 cfg0.N)
/-- The same read at the TensorCore's references: the contents call 0 is left at. -/
abbrev X0 : (c : Dev nD) → (b : Ref sig .tc) → Buf (Elt F) ((c : Thread nD τ).loc b) := fun c b => U1 m c b
/-- After the first stretch of host operations. -/
abbrev U2 (c : Dev nD) : Valuation τ sig (Elt F) := StableHlo.after hostOps1 (U1 m c)
/-- The contents call 1 is entered at. -/
abbrev E1 : (c : Dev nD) → (b : Ref sig .tc) → Buf (Elt F) ((c : Thread nD τ).loc b) := fun c b => U2 m c b
/-- After call 1: only its output array `main_v3` has changed. -/
abbrev U3 (c : Dev nD) : Valuation τ sig (Elt F) :=
  Function.update (U2 m c) (Proc.devRef .tc main_v3) ((dat1 (E1 m) c).arrAt 2 cfg1.N)
/-- The contents call 1 is left at. -/
abbrev X1 : (c : Dev nD) → (b : Ref sig .tc) → Buf (Elt F) ((c : Thread nD τ).loc b) := fun c b => U3 m c b
/-- After the second stretch of host operations. -/
abbrev U4 (c : Dev nD) : Valuation τ sig (Elt F) := StableHlo.after hostOps2 (U3 m c)
/-- The contents call 2 is entered at. -/
abbrev E2 : (c : Dev nD) → (b : Ref sig .tc) → Buf (Elt F) ((c : Thread nD τ).loc b) := fun c b => U4 m c b
/-- After call 2: only its output array `main_v6` has changed. -/
abbrev U5 (c : Dev nD) : Valuation τ sig (Elt F) :=
  Function.update (U4 m c) (Proc.devRef .tc main_v6) ((dat2 (E2 m) c).arrAt 2 cfg2.N)
/-- The contents call 2 is left at. -/
abbrev X2 : (c : Dev nD) → (b : Ref sig .tc) → Buf (Elt F) ((c : Thread nD τ).loc b) := fun c b => U5 m c b
/-- After the last stretch of host operations: what @main returns with. -/
abbrev U6 (c : Dev nD) : Valuation τ sig (Elt F) := StableHlo.after hostOps3 (U5 m c)

/-- Call 0's output array after the call holds what the write-backs leave. -/
theorem U1_out (c : Dev nD) : U1 m c (Proc.devRef .tc main_v0) = (dat0 (E0 m) c).arrAt 2 cfg0.N := Function.update_self ..
/-- Call 0 changes no other buffer. -/
theorem U1_of_ne (c : Dev nD) (b : Ref sig .tc) (h : b ≠ main_v0) : U1 m c (Proc.devRef .tc b) = U0 m c (Proc.devRef .tc b) :=
  Function.update_of_ne (StableHlo.devRef_ne_of_ne h) ..
theorem U3_out (c : Dev nD) : U3 m c (Proc.devRef .tc main_v3) = (dat1 (E1 m) c).arrAt 2 cfg1.N := Function.update_self ..
theorem U3_of_ne (c : Dev nD) (b : Ref sig .tc) (h : b ≠ main_v3) : U3 m c (Proc.devRef .tc b) = U2 m c (Proc.devRef .tc b) :=
  Function.update_of_ne (StableHlo.devRef_ne_of_ne h) ..
theorem U5_out (c : Dev nD) : U5 m c (Proc.devRef .tc main_v6) = (dat2 (E2 m) c).arrAt 2 cfg2.N := Function.update_self ..
theorem U5_of_ne (c : Dev nD) (b : Ref sig .tc) (h : b ≠ main_v6) : U5 m c (Proc.devRef .tc b) = U4 m c (Proc.devRef .tc b) :=
  Function.update_of_ne (StableHlo.devRef_ne_of_ne h) ..
/-- A stretch of host operations leaves a buffer it does not write as it was. -/
theorem U2_of (c : Dev nD) (b : Ref sig .tc) (h : b ∉ hostOps1_W) : U2 m c (Proc.devRef .tc b) = U1 m c (Proc.devRef .tc b) :=
  StableHlo.after_of_writes_sub hostOps1 _ hostOps1_writes h
theorem U4_of (c : Dev nD) (b : Ref sig .tc) (h : b ∉ hostOps2_W) : U4 m c (Proc.devRef .tc b) = U3 m c (Proc.devRef .tc b) :=
  StableHlo.after_of_writes_sub hostOps2 _ hostOps2_writes h
theorem U6_of (c : Dev nD) (b : Ref sig .tc) (h : b ∉ hostOps3_W) : U6 m c (Proc.devRef .tc b) = U5 m c (Proc.devRef .tc b) :=
  StableHlo.after_of_writes_sub hostOps3 _ hostOps3_writes h

/-- No item of @main writes the argument `main_arg0`: no host operation writes it and no call's output array is
    it, so the fold read at it walks back to the launch memory. -/
theorem U6_main_arg0 (c : Dev nD) : U6 m c (Proc.devRef .tc main_arg0) = m ((c : Thread nD τ).loc main_arg0) :=
  (U6_of m c main_arg0 (by decide)).trans <| (U5_of_ne m c main_arg0 (by decide)).trans <|
    (U4_of m c main_arg0 (by decide)).trans <| (U3_of_ne m c main_arg0 (by decide)).trans <|
    (U2_of m c main_arg0 (by decide)).trans <| (U1_of_ne m c main_arg0 (by decide)).trans rfl
/-- Nor the argument `main_arg1`. -/
theorem U6_main_arg1 (c : Dev nD) : U6 m c (Proc.devRef .tc main_arg1) = m ((c : Thread nD τ).loc main_arg1) :=
  (U6_of m c main_arg1 (by decide)).trans <| (U5_of_ne m c main_arg1 (by decide)).trans <|
    (U4_of m c main_arg1 (by decide)).trans <| (U3_of_ne m c main_arg1 (by decide)).trans <|
    (U2_of m c main_arg1 (by decide)).trans <| (U1_of_ne m c main_arg1 (by decide)).trans rfl

/-! ## The proof data of the three calls, each at the contents its call is entered at -/

/-- Every call's proof data, each at the contents its call is entered at, given call by call (no call has a
    prefetched table, so the tables' admissible contents are the trivial ones). -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
theorem pdats_0 (c : Dev nD) : pdats m 0 c = dat0 (E0 m) c := rfl
theorem pdats_1 (c : Dev nD) : pdats m 1 c = dat1 (E1 m) c := rfl
theorem pdats_2 (c : Dev nD) : pdats m 2 c = dat2 (E2 m) c := rfl

/-! ## The thread state between two items -/

/-- No core owes another anything: no level is assigned. -/
abbrev L : GSem nD τ sig → Finset Unit := fun _ => ∅
abbrev lv : GSem nD τ sig → Unit → ℕ := fun _ _ => 0
/-- What rides beside the buffers through every item: the core's generator register at some state (a call's
    invariant takes it in and gives it back) and the core's dues, none. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding
    along; it leaves them at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

/-- At call 0's exit each of its arrays holds what the pipeline leaves: an input array what it held at entry
    (never written), the output array its write-backs folded. -/
theorem hF0 (c : Dev nD) (w : Fin cfg0.W) : (pdats m 0 c).arrAt w cfg0.N = X0 m c (Pipeline.arrRef spec0 w) :=
  match w with
  | ⟨0, _⟩ => (((dat0 (E0 m) c).arrAt_in 0 rfl _).trans (A_eq0 (E0 m) c 0)).trans (U1_of_ne m c _ (by decide)).symm
  | ⟨1, _⟩ => (((dat0 (E0 m) c).arrAt_in 1 rfl _).trans (A_eq0 (E0 m) c 1)).trans (U1_of_ne m c _ (by decide)).symm
  | ⟨2, _⟩ => (U1_out m c).symm
/-- And every buffer that is none of its arrays holds what it held at entry. -/
theorem hrest0 (c : Dev nD) : ∀ b, b ∉ Finset.univ.image (Pipeline.arrRef spec0) → X0 m c b = E0 m c b :=
  fun b hb => U1_of_ne m c b fun e => hb (Finset.mem_image.mpr ⟨2, Finset.mem_univ _, e.symm⟩)

set_option backward.isDefEq.respectTransparency.types false in
/-- CALL 0 as a segment over the thread state: entered with every unscoped buffer at the contents before it, left
    with them at the contents after it. Its arrays are split out of the unscoped buffers at entry and put back at the
    exit contents; the generator register goes into the call's invariant and comes back; nothing is owed; the kernel
    has no semaphore of its own. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := arrays_entry0 (pdats m 0 c) rfl rfl (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    refine (hout0 (E0 m) c).trans ?_
    rw [Pipeline.ownSems0_none]; unfold Pipeline.ΦA
    iintro ⟨Hr, Hp⟩
    isplitl [Hp]; · iexact Hp
    isplitr; · iempintro
    iexact Hr
  hexit c := by
    have hjoin := arrays_exit0 (pdats m 0 c) rfl rfl (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At call 1's exit each of its arrays holds what the pipeline leaves: an input array what it held at entry
    (never written), the output array its write-backs folded. -/
theorem hF1 (c : Dev nD) (w : Fin cfg1.W) : (pdats m 1 c).arrAt w cfg1.N = X1 m c (Pipeline.arrRef spec1 w) :=
  match w with
  | ⟨0, _⟩ => (((dat1 (E1 m) c).arrAt_in 0 rfl _).trans (A_eq1 (E1 m) c 0)).trans (U3_of_ne m c _ (by decide)).symm
  | ⟨1, _⟩ => (((dat1 (E1 m) c).arrAt_in 1 rfl _).trans (A_eq1 (E1 m) c 1)).trans (U3_of_ne m c _ (by decide)).symm
  | ⟨2, _⟩ => (U3_out m c).symm
/-- And every buffer that is none of its arrays holds what it held at entry. -/
theorem hrest1 (c : Dev nD) : ∀ b, b ∉ Finset.univ.image (Pipeline.arrRef spec1) → X1 m c b = E1 m c b :=
  fun b hb => U3_of_ne m c b fun e => hb (Finset.mem_image.mpr ⟨2, Finset.mem_univ _, e.symm⟩)

set_option backward.isDefEq.respectTransparency.types false in
/-- CALL 1 as a segment over the thread state: entered with every unscoped buffer at the contents before it, left
    with them at the contents after it. Its arrays are split out of the unscoped buffers at entry and put back at the
    exit contents; the generator register goes into the call's invariant and comes back; nothing is owed; the kernel
    has no semaphore of its own. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays_entry1 (pdats m 1 c) rfl rfl (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    refine (hout1 (E1 m) c).trans ?_
    rw [Pipeline.ownSems0_none]; unfold Pipeline.ΦA
    iintro ⟨Hr, Hp⟩
    isplitl [Hp]; · iexact Hp
    isplitr; · iempintro
    iexact Hr
  hexit c := by
    have hjoin := arrays_exit1 (pdats m 1 c) rfl rfl (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At call 2's exit each of its arrays holds what the pipeline leaves: an input array what it held at entry
    (never written), the output array its write-backs folded. -/
theorem hF2 (c : Dev nD) (w : Fin cfg2.W) : (pdats m 2 c).arrAt w cfg2.N = X2 m c (Pipeline.arrRef spec2 w) :=
  match w with
  | ⟨0, _⟩ => (((dat2 (E2 m) c).arrAt_in 0 rfl _).trans (A_eq2 (E2 m) c 0)).trans (U5_of_ne m c _ (by decide)).symm
  | ⟨1, _⟩ => (((dat2 (E2 m) c).arrAt_in 1 rfl _).trans (A_eq2 (E2 m) c 1)).trans (U5_of_ne m c _ (by decide)).symm
  | ⟨2, _⟩ => (U5_out m c).symm
/-- And every buffer that is none of its arrays holds what it held at entry. -/
theorem hrest2 (c : Dev nD) : ∀ b, b ∉ Finset.univ.image (Pipeline.arrRef spec2) → X2 m c b = E2 m c b :=
  fun b hb => U5_of_ne m c b fun e => hb (Finset.mem_image.mpr ⟨2, Finset.mem_univ _, e.symm⟩)

set_option backward.isDefEq.respectTransparency.types false in
/-- CALL 2 as a segment over the thread state: entered with every unscoped buffer at the contents before it, left
    with them at the contents after it. Its arrays are split out of the unscoped buffers at entry and put back at the
    exit contents; the generator register goes into the call's invariant and comes back; nothing is owed; the kernel
    has no semaphore of its own. -/
def reg2 : Pipeline.RegionSeg (pcfgs (F := F)) adm (pdats m) () defs₀ Variants.none L lv 2 where
  win := launch2.win.to₀
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E2 m) c)
    unfold Pipeline.ΦA
    iintro ⟨Hp, -, Hr⟩
    isplitl [Hr]; · iexact Hr
    iexact Hp
  hout c := by
    refine (hout2 (E2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order: a region per call, a host segment per stretch from its boundary's contents. -/
abbrev segs : List (Pipeline.Seg (pcfgs (F := F)) adm (pdats m) () defs₀ Variants.none L lv) :=
  [ .region (reg0 m),
    .host (hseg hostOps1 hostOps1_sub hostOps1_fresh (U1 m)),
    .region (reg1 m),
    .host (hseg hostOps2 hostOps2_sub hostOps2_fresh (U3 m)),
    .region (reg2 m),
    .host (hseg hostOps3 hostOps3_sub hostOps3_fresh (U5 m)) ]
/-- @main is the run of the segments. -/
theorem main_run (c : Dev nD) : main (F := F) c = Pipeline.Seg.run (segs m) :=
  main_segs adm (pdats m) () Variants.none L lv _ _ _ (reg0 m) (reg1 m) (reg2 m) rfl rfl rfl c

set_option backward.isDefEq.respectTransparency.types false in
/-- THE RUN: from any memory with zero counters every weakly fair execution of @main on the TensorCores terminates,
    and every final memory holds, at each unscoped buffer, the last contents of the fold. The launch over the segments;
    the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = U6 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c))
    (Tₙ := fun c => iprop(StableHlo.held (c : Thread nD τ) (Pipeline.ucRefs τ sig) (U6 m c) ∗ ∃ r, prngReg c r))
    (hch := ⟨fun _ => .rfl, fun _ => .rfl, fun _ => .rfl, fun _ => .rfl, fun _ => .rfl, fun _ => .rfl, fun c =>
      show iprop(StableHlo.held (c : Thread nD τ) (Pipeline.ucRefs τ sig) (U6 m c) ∗ R c)
        ⊢ iprop(iprop(StableHlo.held (c : Thread nD τ) (Pipeline.ucRefs τ sig) (U6 m c) ∗ ∃ r, prngReg c r)
            ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun _ h => h)

/-- THE FRAME: every final memory holds the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (U6_main_arg0 m c),
     (h c _ (mem_uc main_arg1 (by decide))).trans (U6_main_arg1 m c)⟩) (run_all m ρ)

/-- info: 'Cert.Kernel.Hand.frame' depends on axioms: [propext, Classical.choice, Quot.sound] -/
#guard_msgs in #print axioms frame

end Cert.Kernel.Hand

end
-- ==== Proof.KI.R0Runs.lean ====
import proofs.«123961_j29377576305361_1_alg».proof.Proof.Gen.KernelIdeal.Launch
import proofs.«123961_j29377576305361_1_alg».proof.Proof.Gen.KernelIdeal.Skeleton
import proofs.«123961_j29377576305361_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what its three runs share

The call's grid has 64 points. At every point the body reads the whole first operand (window 0, resident) and one
block of 128 rows of the second (window 1), and adds one number into a 1×1 scratch accumulator; at point 0 it first
clears the accumulator, at point 63 it copies the accumulator into the 1×1 output block (window 2), which is written
back there and nowhere else. So the body has three control cases: the first point, the middle points, the last point. -/

-- the core's buffer contents when the call is entered: every statement below is at this parameter
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched
    the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, decided over the grid -/

/-- "This is the first point": the condition under which the accumulator is cleared. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is the last point": the condition under which the output block is stored. -/
abbrev cond0_1 (i : grid0.Coords) : Prop := k0_cond2 i = 1#1
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last point nothing is stored into the output block and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is stored. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The accumulator: a whole scoped buffer of the call's own. -/
abbrev scM0 : Memref sig .tc .vmem S1x1 .f32 := Memref.whole cc0_scratch0
/-- The views through which the output block's and the accumulator's contents are stated. -/
abbrev VO0 : View sig .tc .vmem S1x1 .f32 := (Memref.whole cc0_stg2_0 : Memref sig .tc .vmem S1x1 .f32).view
abbrev VS0 : View sig .tc .vmem S1x1 .f32 := scM0.view

/-! ## The call's scoped buffers: the accumulator and the rest -/

/-- The scoped buffers of the other two calls, each whole at some contents: untouched by this call. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The call's invariant before its first point: the accumulator at some contents, the other scoped buffers, the
    generator register at some state. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0
  rw [Pipeline.scopedRest_eq_of_list spec0 c [cc0_scratch0, cc1_stg0_0, cc1_stg1_0, cc1_stg1_1, cc1_stg2_0, cc1_scratch0, cc2_stg0_0, cc2_stg1_0, cc2_stg1_1, cc2_stg2_0, cc2_scratch0] (by decide) (by decide)]
  simp only [scM0, owns_whole]; try rfl

end Cert.KernelIdeal.Hand

end
-- ==== Proof.KI.R0RunA.lean ====
import proofs.«123961_j29377576305361_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the first point: the accumulator is cleared, then the tile's sum is added; the output block is not touched -/

set_option maxHeartbeats 4000000 in
/-- The body at the first point on whole staging memrefs — the two inputs at their contents, the output block at contents
    handed back untouched, the accumulator at anything — runs to the continuation holding the inputs as they were and
    the accumulator with the pieces its two stores wrote (last first): the pieces are what the run finds. -/
noncomputable def kernelRun0_A (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S8192x64 .f32) (x1 : Vec F S128x64 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_kernel i arg1 harg1 arg2 harg2 arg3 harg3 arg4 harg4) K } := by
  refine ⟨?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R0RunB.lean ====
import proofs.«123961_j29377576305361_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, a middle point: the tile's sum is added to what the point before left; the output block is not touched -/

set_option maxHeartbeats 4000000 in
/-- The body at a middle point on whole staging memrefs — the two inputs at their contents, the output block at contents
    handed back untouched, the accumulator at what the point before left — runs to the continuation holding the inputs
    as they were and the accumulator with the piece its store wrote: the piece is what the run finds. -/
noncomputable def kernelRun0_B (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S8192x64 .f32) (x1 : Vec F S128x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_kernel i arg1 harg1 arg2 harg2 arg3 harg3 arg4 harg4) K } := by
  refine ⟨?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R0RunC.lean ====
import proofs.«123961_j29377576305361_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the last point: the tile's sum is added to what the point before left, and the accumulator is copied into the output block -/

set_option maxHeartbeats 4000000 in
/-- The body at the last point on whole staging memrefs — the two inputs at their contents, the output block at
    anything, the accumulator at what the point before left — runs to the continuation holding the inputs as they were,
    the output block and the accumulator each with the piece its store wrote: the pieces are what the run finds. -/
noncomputable def kernelRun0_C (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S8192x64 .f32) (x1 : Vec F S128x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_kernel i arg1 harg1 arg2 harg2 arg3 harg3 arg4 harg4) K } := by
  refine ⟨?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R0Frame.lean ====
import proofs.«123961_j29377576305361_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what the accumulator and the output block hold point by point, the proof data, the body obligation -/

variable (V : (c : Dev nD) → (b : Ref sig .tc) → Buf (Elt F) ((c : Thread nD τ).loc b))

/-! ## What each case leaves -/

/-- The first point's two stores into the accumulator cover it. -/
theorem scover0_A (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S8192x64 .f32) (x1 : Vec F S128x64 .f32) (y : S1x1.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S1x1.size (by sl_kernel_rfl) y
/-- What the first point leaves in the accumulator: its pieces read back. -/
def sout0_A (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S8192x64 .f32) (x1 : Vec F S128x64 .f32) : Vec F S1x1 .f32 :=
  VS0.read (Elt F) (VS0.writes (Elt F) VS0.junk (kernelRun0_A c i arg1 harg1 arg2 harg2 arg3 harg3 arg4 harg4 hc0 hc1 x0 x1).1)

/-- A middle point's store into the accumulator covers it. -/
theorem scover0_B (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S8192x64 .f32) (x1 : Vec F S128x64 .f32) (xs0 : Vec F S1x1 .f32) (y : S1x1.Idx) :
    ∃ pc ∈ (kernelRun0_B c i arg1 harg1 arg2 harg2 arg3 harg3 arg4 harg4 hc0 hc1 x0 x1 xs0).1, y ∈ pc.1.set :=
  View.cover_of_tiledL (kernelRun0_B c i arg1 harg1 arg2 harg2 arg3 harg3 arg4 harg4 hc0 hc1 x0 x1 xs0).1 S1x1.size (by sl_kernel_rfl) y
/-- What a middle point leaves in the accumulator. -/
def sout0_B (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S8192x64 .f32) (x1 : Vec F S128x64 .f32) (xs0 : Vec F S1x1 .f32) : Vec F S1x1 .f32 :=
  VS0.read (Elt F) (VS0.writes (Elt F) VS0.junk (kernelRun0_B c i arg1 harg1 arg2 harg2 arg3 harg3 arg4 harg4 hc0 hc1 x0 x1 xs0).1)

/-- The last point's store into the output block covers it. -/
theorem cover0_C (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x64 .f32) (x1 : Vec F S128x64 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y
/-- What the last point leaves in the output block. -/
def out0_C (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x64 .f32) (x1 : Vec F S128x64 .f32) (xs0 : Vec F S1x1 .f32) : Vec F S1x1 .f32 :=
  VO0.read (Elt F) (VO0.writes (Elt F) VO0.junk (kernelRun0_C c i arg1 harg1 arg2 harg2 arg3 harg3 arg4 harg4 hc0 hc1 x0 x1 xs0).1)
/-- The last point's store into the accumulator covers it. -/
theorem scover0_C (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x64 .f32) (x1 : Vec F S128x64 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y
/-- What the last point leaves in the accumulator. -/
def sout0_C (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x64 .f32) (x1 : Vec F S128x64 .f32) (xs0 : Vec F S1x1 .f32) : Vec F S1x1 .f32 :=
  VS0.read (Elt F) (VS0.writes (Elt F) VS0.junk (kernelRun0_C c i arg1 harg1 arg2 harg2 arg3 harg3 arg4 harg4 hc0 hc1 x0 x1 xs0).2.1)

/-- A placeholder for the output block at the points that store nothing into it (never consulted: the block is
    neither written back nor read there). -/
def outIdle0 : Vec F S1x1 .f32 := VO0.read (Elt F) VO0.junk

/-! ## Point by point -/

/-- What the output block's staging buffer and the accumulator hold after the body at position `n`: the case the
    point is in, run at the point's memrefs and input blocks, the accumulator read at what position `n - 1` left. -/
def outsAt0 (c : Dev nD) : (n : ℕ) → n < cfg0.N → Vec F S1x1 .f32 × Vec F S1x1 .f32
  | 0, hn => (outIdle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr rfl) (fun h => absurd ((hcond0_1 ⟨0, hn⟩).mp h) (show ¬(0 : ℕ) = 63 by decide)) (iblk0 V c 0 ⟨0, hn⟩) (iblk0 V c 1 ⟨0, hn⟩))
  | n + 1, hn =>
    if h1 : n + 1 = 63 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (outsAt0 c n (Nat.lt_of_succ_lt hn)).2)
    else
      (outIdle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At the first point. -/
theorem outsAt0_A (c : Dev nD) (t : Fin cfg0.N) (h0 : t.val = 0) (h1 : ¬t.val = 63) :
    outsAt0 V c t.val t.isLt = (outIdle0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

/-- At a middle point. -/
theorem outsAt0_B (c : Dev nD) (t : Fin cfg0.N) (h0 : ¬t.val = 0) (h1 : ¬t.val = 63) :
    outsAt0 V c t.val t.isLt = (outIdle0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- At the last point. -/
theorem outsAt0_C (c : Dev nD) (t : Fin cfg0.N) (h0 : ¬t.val = 0) (h1 : t.val = 63) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-- The call's invariant before position `n`: before the first point the accumulator at anything; afterwards the
    accumulator at what the point before left; beside it the other calls' scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restS0 c) ∗ (∃ r, prngReg c r)) := by
  cases n with
  | zero => exact absurd rfl hz
  | succ n => rfl

/-! ## The proof data -/

/-- The share of its array each input window holds. -/
def q0 : Fin cfg0.W → PosShare TreeShare := fun w => match w with
  | ⟨0, _⟩ => fullShare.left
  | ⟨1, _⟩ => fullShare.right
  | ⟨2, _⟩ => fullShare

/-- The call's proof data on core `c`: the arrays as the call finds them; after the body at point `t` each input's
    buffer at its block and the output block's at `outsAt0`; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q := q0
  owed _ := 0

theorem A_eq0 (c : Dev nD) (w : Fin cfg0.W) : (dat0 V c).A w = V c (Pipeline.arrRef spec0 w) := by
  dsimp only [dat0]
theorem q_eq0 (c : Dev nD) : (dat0 V c).q = q0 := rfl
theorem owed_eq0 (c : Dev nD) (t) : (dat0 V c).owed t = 0 := rfl
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point is the first, a middle or the last one;
    the invariant hands the body the accumulator at what the point before left (at anything at the first point) and takes
    it back at this point's contents; the output block is handed back untouched off the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h1 : t.val = 63
  · have h0 : ¬t.val = 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C sout0_C; (try dsimp only)
    rw [PhiS0_castSucc V c t, PhiS0_pos V c _ _ h0]
    iintro ⟨⟨⟨HS0, HR⟩, Hg⟩, Ho, ⟨%d0, H0⟩, ⟨%d1, H1⟩, ⟨%d2, H2⟩⟩
    iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val = 0
    · rw [outsAt0_A V c t h0 h1]
      unfold sout0_A; (try dsimp only)
      rw [PhiS0_castSucc V c t, PhiS0_zero V c _ _ h0, PhiA0_eq]
      iintro ⟨⟨⟨HS0, HR⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
    · rw [outsAt0_B V c t h0 h1]
      unfold sout0_B; (try dsimp only)
      rw [PhiS0_castSucc V c t, PhiS0_pos V c _ _ h0]
      iintro ⟨⟨⟨HS0, HR⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the accumulator's contents are forgotten. -/
theorem hout0 (c : Dev nD) : (dat0 V c).Φ (Fin.last cfg0.N) ⊢ Pipeline.ΦA spec0 c := by
  have hN : cfg0.N = 64 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, HR⟩, Hg⟩
  isplitl [HS0 HR]
  · isplitl [HS0]
    · iexists _; iexact HS0
    iexact HR
  iexact Hg

end Cert.KernelIdeal.Hand

end
-- ==== Proof.KI.R1Runs.lean ====
import proofs.«123961_j29377576305361_1_alg».proof.Proof.Gen.KernelIdeal.Launch
import proofs.«123961_j29377576305361_1_alg».proof.Proof.Gen.KernelIdeal.Skeleton
import proofs.«123961_j29377576305361_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what its three runs share

The call's grid has 64 points. At every point the body reads the whole first operand (window 0, resident) and one
block of 128 rows of the second (window 1), and adds one number into a 1×1 scratch accumulator; at point 0 it first
clears the accumulator, at point 63 it copies the accumulator into the 1×1 output block (window 2), which is written
back there and nowhere else. So the body has three control cases: the first point, the middle points, the last point. -/

-- the core's buffer contents when the call is entered: every statement below is at this parameter
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not fetched
    the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first point": the condition under which the accumulator is cleared. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- "This is the last point": the condition under which the output block is stored. -/
abbrev cond1_1 (i : grid1.Coords) : Prop := k1_cond2 i = 1#1
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last point nothing is stored into the output block and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it is stored. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S8192x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The accumulator: a whole scoped buffer of the call's own. -/
abbrev scM1 : Memref sig .tc .vmem S1x1 .f32 := Memref.whole cc1_scratch0
/-- The views through which the output block's and the accumulator's contents are stated. -/
abbrev VO1 : View sig .tc .vmem S1x1 .f32 := (Memref.whole cc1_stg2_0 : Memref sig .tc .vmem S1x1 .f32).view
abbrev VS1 : View sig .tc .vmem S1x1 .f32 := scM1.view

/-! ## The call's scoped buffers: the accumulator and the rest -/

/-- The scoped buffers of the other two calls, each whole at some contents: untouched by this call. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The call's invariant before its first point: the accumulator at some contents, the other scoped buffers, the
    generator register at some state. -/
theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA restS1
  rw [Pipeline.scopedRest_eq_of_list spec1 c [cc1_scratch0, cc0_stg0_0, cc0_stg1_0, cc0_stg1_1, cc0_stg2_0, cc0_scratch0, cc2_stg0_0, cc2_stg1_0, cc2_stg1_1, cc2_stg2_0, cc2_scratch0] (by decide) (by decide)]
  simp only [scM1, owns_whole]; try rfl

end Cert.KernelIdeal.Hand

end
-- ==== Proof.KI.R1RunA.lean ====
import proofs.«123961_j29377576305361_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the first point: the accumulator is cleared, then the tile's sum is added; the output block is not touched -/

set_option maxHeartbeats 4000000 in
/-- The body at the first point on whole staging memrefs — the two inputs at their contents, the output block at contents
    handed back untouched, the accumulator at anything — runs to the continuation holding the inputs as they were and
    the accumulator with the pieces its two stores wrote (last first): the pieces are what the run finds. -/
noncomputable def kernelRun1_A (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S8192x64 .f32) (x1 : Vec F S128x64 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1_kernel i arg1 harg1 arg2 harg2 arg3 harg3 arg4 harg4) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R1RunB.lean ====
import proofs.«123961_j29377576305361_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, a middle point: the tile's sum is added to what the point before left; the output block is not touched -/

set_option maxHeartbeats 4000000 in
/-- The body at a middle point on whole staging memrefs — the two inputs at their contents, the output block at contents
    handed back untouched, the accumulator at what the point before left — runs to the continuation holding the inputs
    as they were and the accumulator with the piece its store wrote: the piece is what the run finds. -/
noncomputable def kernelRun1_B (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S8192x64 .f32) (x1 : Vec F S128x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1_kernel i arg1 harg1 arg2 harg2 arg3 harg3 arg4 harg4) K } := by
  refine ⟨?_, fun xi2 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R1RunC.lean ====
import proofs.«123961_j29377576305361_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the last point: the tile's sum is added to what the point before left, and the accumulator is copied into the output block -/

set_option maxHeartbeats 4000000 in
/-- The body at the last point on whole staging memrefs — the two inputs at their contents, the output block at
    anything, the accumulator at what the point before left — runs to the continuation holding the inputs as they were,
    the output block and the accumulator each with the piece its store wrote: the pieces are what the run finds. -/
noncomputable def kernelRun1_C (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S8192x64 .f32) (x1 : Vec F S128x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1_kernel i arg1 harg1 arg2 harg2 arg3 harg3 arg4 harg4) K } := by
  refine ⟨?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R1Frame.lean ====
import proofs.«123961_j29377576305361_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what the accumulator and the output block hold point by point, the proof data, the body obligation -/

variable (V : (c : Dev nD) → (b : Ref sig .tc) → Buf (Elt F) ((c : Thread nD τ).loc b))

/-! ## What each case leaves -/

/-- The first point's two stores into the accumulator cover it. -/
theorem scover1_A (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S8192x64 .f32) (x1 : Vec F S128x64 .f32) (y : S1x1.Idx) :
    ∃ pc ∈ (kernelRun1_A c i arg1 harg1 arg2 harg2 arg3 harg3 arg4 harg4 hc0 hc1 x0 x1).1, y ∈ pc.1.set :=
  View.cover_of_tiledL (kernelRun1_A c i arg1 harg1 arg2 harg2 arg3 harg3 arg4 harg4 hc0 hc1 x0 x1).1 S1x1.size (by sl_kernel_rfl) y
/-- What the first point leaves in the accumulator: its pieces read back. -/
def sout1_A (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S8192x64 .f32) (x1 : Vec F S128x64 .f32) : Vec F S1x1 .f32 :=
  VS1.read (Elt F) (VS1.writes (Elt F) VS1.junk (kernelRun1_A c i arg1 harg1 arg2 harg2 arg3 harg3 arg4 harg4 hc0 hc1 x0 x1).1)

/-- A middle point's store into the accumulator covers it. -/
theorem scover1_B (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S8192x64 .f32) (x1 : Vec F S128x64 .f32) (xs0 : Vec F S1x1 .f32) (y : S1x1.Idx) :
    ∃ pc ∈ (kernelRun1_B c i arg1 harg1 arg2 harg2 arg3 harg3 arg4 harg4 hc0 hc1 x0 x1 xs0).1, y ∈ pc.1.set :=
  View.cover_of_tiledL (kernelRun1_B c i arg1 harg1 arg2 harg2 arg3 harg3 arg4 harg4 hc0 hc1 x0 x1 xs0).1 S1x1.size (by sl_kernel_rfl) y
/-- What a middle point leaves in the accumulator. -/
def sout1_B (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S8192x64 .f32) (x1 : Vec F S128x64 .f32) (xs0 : Vec F S1x1 .f32) : Vec F S1x1 .f32 :=
  VS1.read (Elt F) (VS1.writes (Elt F) VS1.junk (kernelRun1_B c i arg1 harg1 arg2 harg2 arg3 harg3 arg4 harg4 hc0 hc1 x0 x1 xs0).1)

/-- The last point's store into the output block covers it. -/
theorem cover1_C (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S8192x64 .f32) (x1 : Vec F S128x64 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y
/-- What the last point leaves in the output block. -/
def out1_C (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S8192x64 .f32) (x1 : Vec F S128x64 .f32) (xs0 : Vec F S1x1 .f32) : Vec F S1x1 .f32 :=
  VO1.read (Elt F) (VO1.writes (Elt F) VO1.junk (kernelRun1_C c i arg1 harg1 arg2 harg2 arg3 harg3 arg4 harg4 hc0 hc1 x0 x1 xs0).1)
/-- The last point's store into the accumulator covers it. -/
theorem scover1_C (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S8192x64 .f32) (x1 : Vec F S128x64 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y
/-- What the last point leaves in the accumulator. -/
def sout1_C (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S8192x64 .f32) (x1 : Vec F S128x64 .f32) (xs0 : Vec F S1x1 .f32) : Vec F S1x1 .f32 :=
  VS1.read (Elt F) (VS1.writes (Elt F) VS1.junk (kernelRun1_C c i arg1 harg1 arg2 harg2 arg3 harg3 arg4 harg4 hc0 hc1 x0 x1 xs0).2.1)

/-- A placeholder for the output block at the points that store nothing into it (never consulted: the block is
    neither written back nor read there). -/
def outIdle1 : Vec F S1x1 .f32 := VO1.read (Elt F) VO1.junk

/-! ## Point by point -/

/-- What the output block's staging buffer and the accumulator hold after the body at position `n`: the case the
    point is in, run at the point's memrefs and input blocks, the accumulator read at what position `n - 1` left. -/
def outsAt1 (c : Dev nD) : (n : ℕ) → n < cfg1.N → Vec F S1x1 .f32 × Vec F S1x1 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr rfl) (fun h => absurd ((hcond1_1 ⟨0, hn⟩).mp h) (show ¬(0 : ℕ) = 63 by decide)) (iblk1 V c 0 ⟨0, hn⟩) (iblk1 V c 1 ⟨0, hn⟩))
  | n + 1, hn =>
    if h1 : n + 1 = 63 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2)
    else
      (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At the first point. -/
theorem outsAt1_A (c : Dev nD) (t : Fin cfg1.N) (h0 : t.val = 0) (h1 : ¬t.val = 63) :
    outsAt1 V c t.val t.isLt = (outIdle1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

/-- At a middle point. -/
theorem outsAt1_B (c : Dev nD) (t : Fin cfg1.N) (h0 : ¬t.val = 0) (h1 : ¬t.val = 63) :
    outsAt1 V c t.val t.isLt = (outIdle1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- At the last point. -/
theorem outsAt1_C (c : Dev nD) (t : Fin cfg1.N) (h0 : ¬t.val = 0) (h1 : t.val = 63) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The call's invariant before position `n`: before the first point the accumulator at anything; afterwards the
    accumulator at what the point before left; beside it the other calls' scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ restS1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restS1 c) ∗ (∃ r, prngReg c r)) := by
  cases n with
  | zero => exact absurd rfl hz
  | succ n => rfl

/-! ## The proof data -/

/-- The share of its array each input window holds. -/
def q1 : Fin cfg1.W → PosShare TreeShare := fun w => match w with
  | ⟨0, _⟩ => fullShare.left
  | ⟨1, _⟩ => fullShare.right
  | ⟨2, _⟩ => fullShare

/-- The call's proof data on core `c`: the arrays as the call finds them; after the body at point `t` each input's
    buffer at its block and the output block's at `outsAt1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]
theorem q_eq1 (c : Dev nD) : (dat1 V c).q = q1 := rfl
theorem owed_eq1 (c : Dev nD) (t) : (dat1 V c).owed t = 0 := rfl
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point is the first, a middle or the last one;
    the invariant hands the body the accumulator at what the point before left (at anything at the first point) and takes
    it back at this point's contents; the output block is handed back untouched off the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h1 : t.val = 63
  · have h0 : ¬t.val = 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C sout1_C; (try dsimp only)
    rw [PhiS1_castSucc V c t, PhiS1_pos V c _ _ h0]
    iintro ⟨⟨⟨HS0, HR⟩, Hg⟩, Ho, ⟨%d0, H0⟩, ⟨%d1, H1⟩, ⟨%d2, H2⟩⟩
    iapply ((kernelRun1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C c _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    by_cases h0 : t.val = 0
    · rw [outsAt1_A V c t h0 h1]
      unfold sout1_A; (try dsimp only)
      rw [PhiS1_castSucc V c t, PhiS1_zero V c _ _ h0, PhiA1_eq]
      iintro ⟨⟨⟨HS0, HR⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
    · rw [outsAt1_B V c t h0 h1]
      unfold sout1_B; (try dsimp only)
      rw [PhiS1_castSucc V c t, PhiS1_pos V c _ _ h0]
      iintro ⟨⟨⟨HS0, HR⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS0, HR⟩, Hg⟩
  isplitl [HS0 HR]
  · isplitl [HS0]
    · iexists _; iexact HS0
    iexact HR
  iexact Hg

end Cert.KernelIdeal.Hand

end
-- ==== Proof.KI.R2Runs.lean ====
import proofs.«123961_j29377576305361_1_alg».proof.Proof.Gen.KernelIdeal.Launch
import proofs.«123961_j29377576305361_1_alg».proof.Proof.Gen.KernelIdeal.Skeleton
import proofs.«123961_j29377576305361_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what its three runs share

The call's grid has 64 points. At every point the body reads the whole first operand (window 0, resident) and one
block of 128 rows of the second (window 1), and adds one number into a 1×1 scratch accumulator; at point 0 it first
clears the accumulator, at point 63 it copies the accumulator into the 1×1 output block (window 2), which is written
back there and nowhere else. So the body has three control cases: the first point, the middle points, the last point. -/

-- the core's buffer contents when the call is entered: every statement below is at this parameter
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not fetched
    the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- "This is the first point": the condition under which the accumulator is cleared. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last point": the condition under which the output block is stored. -/
abbrev cond2_1 (i : grid2.Coords) : Prop := k2_cond2 i = 1#1
theorem hcond2_1 : ∀ t : Fin cfg2.N, cond2_1 (grid2.coords t) ↔ t.val = 63 :=
  (by decide +kernel : ∀ t : Fin grid2.N, cond2_1 (grid2.coords t) ↔ t.val = 63)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Off the last point nothing is stored into the output block and it is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point it is stored. -/
theorem liveAt2_2 : ∀ t : Fin cfg2.N, cond2_1 (grid2.coords t) → cfg2.idle 2 (grid2.coords t) = false := by decide +kernel

/-! ## The memrefs the body is called with -/

abbrev ms2_0 (t : Fin cfg2.N) : Memref sig .tc .vmem S8192x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- The accumulator: a whole scoped buffer of the call's own. -/
abbrev scM2 : Memref sig .tc .vmem S1x1 .f32 := Memref.whole cc2_scratch0
/-- The views through which the output block's and the accumulator's contents are stated. -/
abbrev VO2 : View sig .tc .vmem S1x1 .f32 := (Memref.whole cc2_stg2_0 : Memref sig .tc .vmem S1x1 .f32).view
abbrev VS2 : View sig .tc .vmem S1x1 .f32 := scM2.view

/-! ## The call's scoped buffers: the accumulator and the rest -/

/-- The scoped buffers of the other two calls, each whole at some contents: untouched by this call. -/
def restS2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The call's invariant before its first point: the accumulator at some contents, the other scoped buffers, the
    generator register at some state. -/
theorem PhiA2_eq (c : Dev nD) :
    (Pipeline.ΦA spec2 c : sProp 𝕄)
      = iprop(iprop((∃ d, owns (c : Thread nD τ) scM2 fullShare d) ∗ restS2 c) ∗ (∃ r, prngReg c r)) := by
  unfold Pipeline.ΦA restS2
  rw [Pipeline.scopedRest_eq_of_list spec2 c [cc2_scratch0, cc0_stg0_0, cc0_stg1_0, cc0_stg1_1, cc0_stg2_0, cc0_scratch0, cc1_stg0_0, cc1_stg1_0, cc1_stg1_1, cc1_stg2_0, cc1_scratch0] (by decide) (by decide)]
  simp only [scM2, owns_whole]; try rfl

end Cert.KernelIdeal.Hand

end
-- ==== Proof.KI.R2RunA.lean ====
import proofs.«123961_j29377576305361_1_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the first point: the accumulator is cleared, then the tile's sum is added; the output block is not touched -/

set_option maxHeartbeats 4000000 in
/-- The body at the first point on whole staging memrefs — the two inputs at their contents, the output block at contents
    handed back untouched, the accumulator at anything — runs to the continuation holding the inputs as they were and
    the accumulator with the pieces its two stores wrote (last first): the pieces are what the run finds. -/
noncomputable def kernelRun2_A (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S8192x64 .f32) (x1 : Vec F S128x64 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_kernel i arg1 harg1 arg2 harg2 arg3 harg3 arg4 harg4) K } := by
  refine ⟨?_, fun xi2 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R2RunB.lean ====
import proofs.«123961_j29377576305361_1_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, a middle point: the tile's sum is added to what the point before left; the output block is not touched -/

set_option maxHeartbeats 4000000 in
/-- The body at a middle point on whole staging memrefs — the two inputs at their contents, the output block at contents
    handed back untouched, the accumulator at what the point before left — runs to the continuation holding the inputs
    as they were and the accumulator with the piece its store wrote: the piece is what the run finds. -/
noncomputable def kernelRun2_B (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S8192x64 .f32) (x1 : Vec F S128x64 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2_kernel i arg1 harg1 arg2 harg2 arg3 harg3 arg4 harg4) K } := by
  refine ⟨?_, fun xi2 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R2RunC.lean ====
import proofs.«123961_j29377576305361_1_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0, the last point: the tile's sum is added to what the point before left, and the accumulator is copied into the output block -/

set_option maxHeartbeats 4000000 in
/-- The body at the last point on whole staging memrefs — the two inputs at their contents, the output block at
    anything, the accumulator at what the point before left — runs to the continuation holding the inputs as they were,
    the output block and the accumulator each with the piece its store wrote: the pieces are what the run finds. -/
noncomputable def kernelRun2_C (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S8192x64 .f32) (x1 : Vec F S128x64 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2_kernel i arg1 harg1 arg2 harg2 arg3 harg3 arg4 harg4) K } := by
  refine ⟨?_, ?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R2Frame.lean ====
import proofs.«123961_j29377576305361_1_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Pallas call 0: what the accumulator and the output block hold point by point, the proof data, the body obligation -/

variable (V : (c : Dev nD) → (b : Ref sig .tc) → Buf (Elt F) ((c : Thread nD τ).loc b))

/-! ## What each case leaves -/

/-- The first point's two stores into the accumulator cover it. -/
theorem scover2_A (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S8192x64 .f32) (x1 : Vec F S128x64 .f32) (y : S1x1.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S1x1.size (by sl_kernel_rfl) y
/-- What the first point leaves in the accumulator: its pieces read back. -/
def sout2_A (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S8192x64 .f32) (x1 : Vec F S128x64 .f32) : Vec F S1x1 .f32 :=
  VS2.read (Elt F) (VS2.writes (Elt F) VS2.junk (kernelRun2_A c i arg1 harg1 arg2 harg2 arg3 harg3 arg4 harg4 hc0 hc1 x0 x1).1)

/-- A middle point's store into the accumulator covers it. -/
theorem scover2_B (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S8192x64 .f32) (x1 : Vec F S128x64 .f32) (xs0 : Vec F S1x1 .f32) (y : S1x1.Idx) :
    ∃ pc ∈ (kernelRun2_B c i arg1 harg1 arg2 harg2 arg3 harg3 arg4 harg4 hc0 hc1 x0 x1 xs0).1, y ∈ pc.1.set :=
  View.cover_of_tiledL (kernelRun2_B c i arg1 harg1 arg2 harg2 arg3 harg3 arg4 harg4 hc0 hc1 x0 x1 xs0).1 S1x1.size (by sl_kernel_rfl) y
/-- What a middle point leaves in the accumulator. -/
def sout2_B (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S8192x64 .f32) (x1 : Vec F S128x64 .f32) (xs0 : Vec F S1x1 .f32) : Vec F S1x1 .f32 :=
  VS2.read (Elt F) (VS2.writes (Elt F) VS2.junk (kernelRun2_B c i arg1 harg1 arg2 harg2 arg3 harg3 arg4 harg4 hc0 hc1 x0 x1 xs0).1)

/-- The last point's store into the output block covers it. -/
theorem cover2_C (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S8192x64 .f32) (x1 : Vec F S128x64 .f32) (xs0 : Vec F S1x1 .f32) (y : S1x1.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x1.size (by sl_kernel_rfl) y
/-- What the last point leaves in the output block. -/
def out2_C (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S8192x64 .f32) (x1 : Vec F S128x64 .f32) (xs0 : Vec F S1x1 .f32) : Vec F S1x1 .f32 :=
  VO2.read (Elt F) (VO2.writes (Elt F) VO2.junk (kernelRun2_C c i arg1 harg1 arg2 harg2 arg3 harg3 arg4 harg4 hc0 hc1 x0 x1 xs0).1)
/-- The last point's store into the accumulator covers it. -/
theorem scover2_C (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S8192x64 .f32) (x1 : Vec F S128x64 .f32) (xs0 : Vec F S1x1 .f32) (y : S1x1.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x1.size (by sl_kernel_rfl) y
/-- What the last point leaves in the accumulator. -/
def sout2_C (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S8192x64 .f32) (x1 : Vec F S128x64 .f32) (xs0 : Vec F S1x1 .f32) : Vec F S1x1 .f32 :=
  VS2.read (Elt F) (VS2.writes (Elt F) VS2.junk (kernelRun2_C c i arg1 harg1 arg2 harg2 arg3 harg3 arg4 harg4 hc0 hc1 x0 x1 xs0).2.1)

/-- A placeholder for the output block at the points that store nothing into it (never consulted: the block is
    neither written back nor read there). -/
def outIdle2 : Vec F S1x1 .f32 := VO2.read (Elt F) VO2.junk

/-! ## Point by point -/

/-- What the output block's staging buffer and the accumulator hold after the body at position `n`: the case the
    point is in, run at the point's memrefs and input blocks, the accumulator read at what position `n - 1` left. -/
def outsAt2 (c : Dev nD) : (n : ℕ) → n < cfg2.N → Vec F S1x1 .f32 × Vec F S1x1 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr rfl) (fun h => absurd ((hcond2_1 ⟨0, hn⟩).mp h) (show ¬(0 : ℕ) = 63 by decide)) (iblk2 V c 0 ⟨0, hn⟩) (iblk2 V c 1 ⟨0, hn⟩))
  | n + 1, hn =>
    if h1 : n + 1 = 63 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (outsAt2 c n (Nat.lt_of_succ_lt hn)).2)
    else
      (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At the first point. -/
theorem outsAt2_A (c : Dev nD) (t : Fin cfg2.N) (h0 : t.val = 0) (h1 : ¬t.val = 63) :
    outsAt2 V c t.val t.isLt = (outIdle2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact absurd h0 (Nat.succ_ne_zero n)

/-- At a middle point. -/
theorem outsAt2_B (c : Dev nD) (t : Fin cfg2.N) (h0 : ¬t.val = 0) (h1 : ¬t.val = 63) :
    outsAt2 V c t.val t.isLt = (outIdle2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- At the last point. -/
theorem outsAt2_C (c : Dev nD) (t : Fin cfg2.N) (h0 : ¬t.val = 0) (h1 : t.val = 63) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-- The call's invariant before position `n`: before the first point the accumulator at anything; afterwards the
    accumulator at what the point before left; beside it the other calls' scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ restS2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restS2 c) ∗ (∃ r, prngReg c r)) := by
  cases n with
  | zero => exact absurd rfl hz
  | succ n => rfl

/-! ## The proof data -/

/-- The share of its array each input window holds. -/
def q2 : Fin cfg2.W → PosShare TreeShare := fun _ => fullShare

/-- The call's proof data on core `c`: the arrays as the call finds them; after the body at point `t` each input's
    buffer at its block and the output block's at `outsAt2`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q := q2
  owed _ := 0

theorem A_eq2 (c : Dev nD) (w : Fin cfg2.W) : (dat2 V c).A w = V c (Pipeline.arrRef spec2 w) := by
  dsimp only [dat2]
theorem q_eq2 (c : Dev nD) : (dat2 V c).q = q2 := rfl
theorem owed_eq2 (c : Dev nD) (t) : (dat2 V c).owed t = 0 := rfl
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the point is the first, a middle or the last one;
    the invariant hands the body the accumulator at what the point before left (at anything at the first point) and takes
    it back at this point's contents; the output block is handed back untouched off the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 64 := lt_of_lt_of_eq t.isLt (show cfg2.N = 64 from N_2)
  by_cases h1 : t.val = 63
  · have h0 : ¬t.val = 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [outsAt2_C V c t h0 h1]
    unfold out2_C sout2_C; (try dsimp only)
    rw [PhiS2_castSucc V c t, PhiS2_pos V c _ _ h0]
    iintro ⟨⟨⟨HS0, HR⟩, Hg⟩, Ho, ⟨%d0, H0⟩, ⟨%d1, H1⟩, ⟨%d2, H2⟩⟩
    iapply ((kernelRun2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C c _ _ _ _ _ _ _ _ _ _ _ _ _ _)
  · rw [Dat.leavesExact_idle (dat2 V c) 2 t (idleAt2_2 t (fun h => h1 ((hcond2_1 t).mp h))) (noFlush2_2 t (fun h => h1 ((hcond2_1 t).mp h)))]
    by_cases h0 : t.val = 0
    · rw [outsAt2_A V c t h0 h1]
      unfold sout2_A; (try dsimp only)
      rw [PhiS2_castSucc V c t, PhiS2_zero V c _ _ h0, PhiA2_eq]
      iintro ⟨⟨⟨HS0, HR⟩, Hg⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _)
          iexact HR
        iexact Hg
      isplitl [Ho]; · iexact Ho
      isplitl [H0]; · iexact H0
      isplitl [H1]; · iexact H1
      iexists _; iexact H2
    · rw [outsAt2_B V c t h0 h1]
      unfold sout2_B; (try dsimp only)
      rw [PhiS2_castSucc V c t, PhiS2_pos V c _ _ h0]
      iintro ⟨⟨⟨HS0, HR⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the accumulator's contents are forgotten. -/
theorem hout2 (c : Dev nD) : (dat2 V c).Φ (Fin.last cfg2.N) ⊢ Pipeline.ΦA spec2 c := by
  have hN : cfg2.N = 64 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, HR⟩, Hg⟩
  isplitl [HS0 HR]
  · isplitl [HS0]
    · iexists _; iexact HS0
    iexact HR
  iexact Hg

end Cert.KernelIdeal.Hand

end
-- ==== Proof.KI.Shared0.lean ====
import proofs.«123961_j29377576305361_1_alg».proof.Proof.Gen.KernelIdeal.Launch
import proofs.«123961_j29377576305361_1_alg».proof.Proof.Gen.KernelIdeal.Points
import Idealize.ShloMosaic.Lib.Pipeline.FrameBody
import Idealize.ShloMosaic.Lib.Pipeline.RegionsLoop
set_option maxRecDepth 16384
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
variable {F : FTy → Type} [FloatOps F]
local notation "𝕄" => MT nD τ sig Unit (Elt F) ℕ (UR sig nD τ) ℕ

/-! # A pallas call whose two input windows read one array

Windows 0 and 1 both read the array `main_arg0`; window 2 writes `main_v0`. The distinct buffers behind the
windows are therefore two, and the pipeline holds the shared array once per window: at the left half of the
full share for window 0 and at the right half for window 1. The two halves compose to the full share, so the
core's unscoped buffers split into the pipeline's arrays and the rest, and rejoin. -/

/-- A core's unscoped buffers at contents `V` are the distinct buffers behind the windows' arrays at `V` and the rest:
    every window's array is an unscoped buffer, and this needs no distinctness of the arrays. -/
theorem unscopedBufs_split0 (c : Dev nD) (V : (b : Ref sig .tc) → Buf (Elt F) ((c : Thread nD τ).loc b)) :
    (unscopedBufs c V : sProp 𝕄) = iprop((Pipeline.arrBufs spec0 c V : sProp 𝕄) ∗ Pipeline.unscopedRest spec0 c V) :=
  Pipeline.unscopedBufs_split₀ (fun _ : Unit => cfg0) () winFacts₀0.arr_unscoped c V

/-- The distinct buffers behind the three windows are the shared input array and the output array. -/
theorem arrBufs_eq0 (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v0) ↦{fullShare} V main_v0)) := by
  unfold Pipeline.arrBufs
  exact bigSep_eq_bigSepL_of_eq [main_arg0, main_v0] (by decide) (by decide) _

/-- A full-share points-to is its left half and its right half: the two halves of the full share compose to it. -/
private theorem pointsTo_halves {ℓ : Loc nD τ sig} (f : Buf (Elt F) ℓ) :
    (ℓ ↦{fullShare} f : sProp 𝕄) = iprop((ℓ ↦{fullShare.left} f) ∗ ℓ ↦{fullShare.right} f) := by
  have h : (ℓ ↦{fullShare} f : sProp 𝕄) ⊣⊢ iprop((ℓ ↦{fullShare.left} f) ∗ ℓ ↦{fullShare.right} f) :=
    pointsTo_share (PosShare.mem_left_op_right fullShare)
  exact h.1.antisymm h.2

/-- The pipeline's arrays, window by window: the shared input array at the left half share for window 0 and at the
    right half share for window 1, the output array at the full share. Every window's array is a whole buffer, so
    each points-to is over all of the buffer's elements; an output's share is full, an input's is the proof data's. -/
theorem arrays_eq0 {c : Dev nD} (dat : Dat τ (Elt F) Unit ℕ (UR sig nD τ) ℕ cfg0 c)
    (hq0 : dat.q 0 = fullShare.left) (hq1 : dat.q 1 = fullShare.right)
    (Fn : (w : Fin cfg0.W) → Buf (Elt F) ((cfg0.win w).arr.view.loc (c : Thread nD τ))) :
    (dat.arrays Fn : sProp 𝕄)
      = iprop((((c : Thread nD τ).loc main_arg0) ↦{fullShare.left} Fn (0 : Fin 3)) ∗ (((c : Thread nD τ).loc main_arg0) ↦{fullShare.right} Fn (1 : Fin 3))
          ∗ (((c : Thread nD τ).loc main_v0) ↦{fullShare} Fn (2 : Fin 3))) := by
  have hsL : dat.share (0 : Fin 3) = fullShare.left := by unfold Dat.share; rw [if_neg (by decide)]; exact hq0
  have hsR : dat.share (1 : Fin 3) = fullShare.right := by unfold Dat.share; rw [if_neg (by decide)]; exact hq1
  have hsO : dat.share (2 : Fin 3) = fullShare := by unfold Dat.share; rw [if_pos (by decide)]
  have eL : ((cfg0.win (0 : Fin 3)).arr.view.loc (c : Thread nD τ) ↦[(cfg0.win (0 : Fin 3)).arr.view.set]{dat.share (0 : Fin 3)} Fn (0 : Fin 3) : sProp 𝕄)
      = (((c : Thread nD τ).loc main_arg0) ↦{fullShare.left} Fn (0 : Fin 3)) := by
    rw [(arr_whole0 0).set_eq_univ, hsL]
  have eR : ((cfg0.win (1 : Fin 3)).arr.view.loc (c : Thread nD τ) ↦[(cfg0.win (1 : Fin 3)).arr.view.set]{dat.share (1 : Fin 3)} Fn (1 : Fin 3) : sProp 𝕄)
      = (((c : Thread nD τ).loc main_arg0) ↦{fullShare.right} Fn (1 : Fin 3)) := by
    rw [(arr_whole0 1).set_eq_univ, hsR]
  have eO : ((cfg0.win (2 : Fin 3)).arr.view.loc (c : Thread nD τ) ↦[(cfg0.win (2 : Fin 3)).arr.view.set]{dat.share (2 : Fin 3)} Fn (2 : Fin 3) : sProp 𝕄)
      = (((c : Thread nD τ).loc main_v0) ↦{fullShare} Fn (2 : Fin 3)) := by
    rw [(arr_whole0 2).set_eq_univ, hsO]
  unfold Dat.arrays
  rw [bigSep_W0]
  exact congrArg₂ _ eL (congrArg₂ _ eR eO)

/-- ENTRY, the arrays' part: a core's unscoped buffers at contents `V` are the pipeline's arrays at the proof data's
    entry contents, those being read off `V`, and the unscoped rest. The shared input array's full share is dealt to
    its two windows, the left half to window 0 and the right half to window 1. -/
theorem arrays_entry0 {c : Dev nD} (dat : Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b)) (hA : ∀ w, dat.A w = V (Pipeline.arrRef spec0 w)) :
    (unscopedBufs c V : sProp 𝕄) ⊢ iprop(dat.arrays dat.A ∗ Pipeline.unscopedRest spec0 c V) := by
  rw [unscopedBufs_split0 c V, arrBufs_eq0, arrays_eq0 dat hq0 hq1 dat.A,
    hA (0 : Fin 3), hA (1 : Fin 3), hA (2 : Fin 3)]
  refine sep_mono ?_ .rfl
  rw [pointsTo_halves (V main_arg0)]
  exact sep_assoc.1

/-- EXIT, the arrays' part: the pipeline's arrays at contents `Fn` and the unscoped rest at `V` are the core's unscoped
    buffers at any valuation `V'` that has the arrays at `Fn` and agrees with `V` off them. Windows 0 and 1 hold the
    one input array at the same contents, so their two half shares rejoin to the full share. -/
theorem arrays_exit0 {c : Dev nD} (dat : Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (Fn : (w : Fin cfg0.W) → Buf (Elt F) ((cfg0.win w).arr.view.loc (c : Thread nD τ)))
    (hF : ∀ w, Fn w = V' (Pipeline.arrRef spec0 w))
    (hrest : ∀ b, b ∉ Finset.univ.image (Pipeline.arrRef spec0) → V' b = V b) :
    iprop(dat.arrays Fn ∗ Pipeline.unscopedRest spec0 c V) ⊢ (unscopedBufs c V' : sProp 𝕄) := by
  rw [unscopedBufs_split0 c V', arrBufs_eq0, arrays_eq0 dat hq0 hq1 Fn,
    hF (0 : Fin 3), hF (1 : Fin 3), hF (2 : Fin 3)]
  refine sep_mono ?_ (Entails.of_eq ?_)
  · rw [pointsTo_halves (V' main_arg0)]
    exact sep_assoc.2
  · unfold Pipeline.unscopedRest
    exact bigSep_congr fun b hb => by rw [hrest b (Finset.mem_sdiff.mp hb).2]

end Cert.KernelIdeal.Hand
-- ==== Proof.KI.Shared1.lean ====
import proofs.«123961_j29377576305361_1_alg».proof.Proof.Gen.KernelIdeal.Launch
import proofs.«123961_j29377576305361_1_alg».proof.Proof.Gen.KernelIdeal.Points
import Idealize.ShloMosaic.Lib.Pipeline.FrameBody
import Idealize.ShloMosaic.Lib.Pipeline.RegionsLoop
set_option maxRecDepth 16384
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
variable {F : FTy → Type} [FloatOps F]
local notation "𝕄" => MT nD τ sig Unit (Elt F) ℕ (UR sig nD τ) ℕ

/-! # A pallas call whose two input windows read one array

Windows 0 and 1 both read the array `main_arg1`; window 2 writes `main_v3`. The distinct buffers behind the
windows are therefore two, and the pipeline holds the shared array once per window: at the left half of the
full share for window 0 and at the right half for window 1. The two halves compose to the full share, so the
core's unscoped buffers split into the pipeline's arrays and the rest, and rejoin. -/

/-- A core's unscoped buffers at contents `V` are the distinct buffers behind the windows' arrays at `V` and the rest:
    every window's array is an unscoped buffer, and this needs no distinctness of the arrays. -/
theorem unscopedBufs_split1 (c : Dev nD) (V : (b : Ref sig .tc) → Buf (Elt F) ((c : Thread nD τ).loc b)) :
    (unscopedBufs c V : sProp 𝕄) = iprop((Pipeline.arrBufs spec1 c V : sProp 𝕄) ∗ Pipeline.unscopedRest spec1 c V) :=
  Pipeline.unscopedBufs_split₀ (fun _ : Unit => cfg1) () winFacts₀1.arr_unscoped c V

/-- The distinct buffers behind the three windows are the shared input array and the output array. -/
theorem arrBufs_eq1 (c : Dev nD) (V : (b : Ref sig .tc) → Buf (Elt F) ((c : Thread nD τ).loc b)) :
    (Pipeline.arrBufs spec1 c V : sProp 𝕄)
      = iprop((((c : Thread nD τ).loc main_arg1) ↦{fullShare} V main_arg1) ∗ (((c : Thread nD τ).loc main_v3) ↦{fullShare} V main_v3)) := by
  unfold Pipeline.arrBufs
  exact bigSep_eq_bigSepL_of_eq [main_arg1, main_v3] (by decide) (by decide) _

/-- A full-share points-to is its left half and its right half: the two halves of the full share compose to it. -/
private theorem pointsTo_halves {ℓ : Loc nD τ sig} (f : Buf (Elt F) ℓ) :
    (ℓ ↦{fullShare} f : sProp 𝕄) = iprop((ℓ ↦{fullShare.left} f) ∗ ℓ ↦{fullShare.right} f) := by
  have h : (ℓ ↦{fullShare} f : sProp 𝕄) ⊣⊢ iprop((ℓ ↦{fullShare.left} f) ∗ ℓ ↦{fullShare.right} f) :=
    pointsTo_share (PosShare.mem_left_op_right fullShare)
  exact h.1.antisymm h.2

/-- The pipeline's arrays, window by window: the shared input array at the left half share for window 0 and at the
    right half share for window 1, the output array at the full share. Every window's array is a whole buffer, so
    each points-to is over all of the buffer's elements; an output's share is full, an input's is the proof data's. -/
theorem arrays_eq1 {c : Dev nD} (dat : Dat τ (Elt F) Unit ℕ (UR sig nD τ) ℕ cfg1 c)
    (hq0 : dat.q 0 = fullShare.left) (hq1 : dat.q 1 = fullShare.right)
    (Fn : (w : Fin cfg1.W) → Buf (Elt F) ((cfg1.win w).arr.view.loc (c : Thread nD τ))) :
    (dat.arrays Fn : sProp 𝕄)
      = iprop((((c : Thread nD τ).loc main_arg1) ↦{fullShare.left} Fn (0 : Fin 3)) ∗ (((c : Thread nD τ).loc main_arg1) ↦{fullShare.right} Fn (1 : Fin 3))
          ∗ (((c : Thread nD τ).loc main_v3) ↦{fullShare} Fn (2 : Fin 3))) := by
  have hsL : dat.share (0 : Fin 3) = fullShare.left := by unfold Dat.share; rw [if_neg (by decide)]; exact hq0
  have hsR : dat.share (1 : Fin 3) = fullShare.right := by unfold Dat.share; rw [if_neg (by decide)]; exact hq1
  have hsO : dat.share (2 : Fin 3) = fullShare := by unfold Dat.share; rw [if_pos (by decide)]
  have eL : ((cfg1.win (0 : Fin 3)).arr.view.loc (c : Thread nD τ) ↦[(cfg1.win (0 : Fin 3)).arr.view.set]{dat.share (0 : Fin 3)} Fn (0 : Fin 3) : sProp 𝕄)
      = (((c : Thread nD τ).loc main_arg1) ↦{fullShare.left} Fn (0 : Fin 3)) := by
    rw [(arr_whole1 0).set_eq_univ, hsL]
  have eR : ((cfg1.win (1 : Fin 3)).arr.view.loc (c : Thread nD τ) ↦[(cfg1.win (1 : Fin 3)).arr.view.set]{dat.share (1 : Fin 3)} Fn (1 : Fin 3) : sProp 𝕄)
      = (((c : Thread nD τ).loc main_arg1) ↦{fullShare.right} Fn (1 : Fin 3)) := by
    rw [(arr_whole1 1).set_eq_univ, hsR]
  have eO : ((cfg1.win (2 : Fin 3)).arr.view.loc (c : Thread nD τ) ↦[(cfg1.win (2 : Fin 3)).arr.view.set]{dat.share (2 : Fin 3)} Fn (2 : Fin 3) : sProp 𝕄)
      = (((c : Thread nD τ).loc main_v3) ↦{fullShare} Fn (2 : Fin 3)) := by
    rw [(arr_whole1 2).set_eq_univ, hsO]
  unfold Dat.arrays
  rw [bigSep_W1]
  exact congrArg₂ _ eL (congrArg₂ _ eR eO)

/-- ENTRY, the arrays' part: a core's unscoped buffers at contents `V` are the pipeline's arrays at the proof data's
    entry contents, those being read off `V`, and the unscoped rest. The shared input array's full share is dealt to
    its two windows, the left half to window 0 and the right half to window 1. -/
theorem arrays_entry1 {c : Dev nD} (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b)) (hA : ∀ w, dat.A w = V (Pipeline.arrRef spec1 w)) :
    (unscopedBufs c V : sProp 𝕄) ⊢ iprop(dat.arrays dat.A ∗ Pipeline.unscopedRest spec1 c V) := by
  rw [unscopedBufs_split1 c V, arrBufs_eq1, arrays_eq1 dat hq0 hq1 dat.A,
    hA (0 : Fin 3), hA (1 : Fin 3), hA (2 : Fin 3)]
  refine sep_mono ?_ .rfl
  rw [pointsTo_halves (V main_arg1)]
  exact sep_assoc.1

/-- EXIT, the arrays' part: the pipeline's arrays at contents `Fn` and the unscoped rest at `V` are the core's unscoped
    buffers at any valuation `V'` that has the arrays at `Fn` and agrees with `V` off them. Windows 0 and 1 hold the
    one input array at the same contents, so their two half shares rejoin to the full share. -/
theorem arrays_exit1 {c : Dev nD} (dat : Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w))
    (hrest : ∀ b, b ∉ Finset.univ.image (Pipeline.arrRef spec1) → V' b = V b) :
    iprop(dat.arrays Fn ∗ Pipeline.unscopedRest spec1 c V) ⊢ (unscopedBufs c V' : sProp 𝕄) := by
  rw [unscopedBufs_split1 c V', arrBufs_eq1, arrays_eq1 dat hq0 hq1 Fn,
    hF (0 : Fin 3), hF (1 : Fin 3), hF (2 : Fin 3)]
  refine sep_mono ?_ (Entails.of_eq ?_)
  · rw [pointsTo_halves (V' main_arg1)]
    exact sep_assoc.2
  · unfold Pipeline.unscopedRest
    exact bigSep_congr fun b hb => by rw [hrest b (Finset.mem_sdiff.mp hb).2]

end Cert.KernelIdeal.Hand
-- ==== Proof.KI.Run.lean ====
import proofs.«123961_j29377576305361_1_alg».proof.Proof.KI.R0Frame
import proofs.«123961_j29377576305361_1_alg».proof.Proof.KI.R1Frame
import proofs.«123961_j29377576305361_1_alg».proof.Proof.KI.R2Frame
import proofs.«123961_j29377576305361_1_alg».proof.Proof.KI.Shared0
import proofs.«123961_j29377576305361_1_alg».proof.Proof.KI.Shared1
import proofs.«123961_j29377576305361_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The run of @main: three kernel regions among three stretches of host operations

## The buffers' contents at every boundary between two items: a fold from the launch memory -/

variable (m : (ℓ : Loc nD τ sig) → Buf (Elt F) ℓ) (ρ : Dev nD → PrngReg)

/-- Core `c`'s unscoped buffers at launch: the launch memory. -/
abbrev U0 (c : Dev nD) : Valuation τ sig (Elt F) := fun b => m (c, b)
/-- The same read at the TensorCore's references: the contents call 0 is entered at. -/
abbrev E0 : (c : Dev nD) → (b : Ref sig .tc) → Buf (Elt F) ((c : Thread nD τ).loc b) := fun c b => U0 m c b
/-- After call 0: only its output array `main_v0` has changed, to what the write-backs of all points leave. -/
abbrev U1 (c : Dev nD) : Valuation τ sig (Elt F) :=
  Function.update (U0 m c) (Proc.devRef .tc main_v0) ((dat0 (E0 m) c).arrAt 2 cfg0.N)
/-- The same read at the TensorCore's references: the contents call 0 is left at. -/
abbrev X0 : (c : Dev nD) → (b : Ref sig .tc) → Buf (Elt F) ((c : Thread nD τ).loc b) := fun c b => U1 m c b
/-- After the first stretch of host operations. -/
abbrev U2 (c : Dev nD) : Valuation τ sig (Elt F) := StableHlo.after hostOps1 (U1 m c)
/-- The contents call 1 is entered at. -/
abbrev E1 : (c : Dev nD) → (b : Ref sig .tc) → Buf (Elt F) ((c : Thread nD τ).loc b) := fun c b => U2 m c b
/-- After call 1: only its output array `main_v3` has changed. -/
abbrev U3 (c : Dev nD) : Valuation τ sig (Elt F) :=
  Function.update (U2 m c) (Proc.devRef .tc main_v3) ((dat1 (E1 m) c).arrAt 2 cfg1.N)
/-- The contents call 1 is left at. -/
abbrev X1 : (c : Dev nD) → (b : Ref sig .tc) → Buf (Elt F) ((c : Thread nD τ).loc b) := fun c b => U3 m c b
/-- After the second stretch of host operations. -/
abbrev U4 (c : Dev nD) : Valuation τ sig (Elt F) := StableHlo.after hostOps2 (U3 m c)
/-- The contents call 2 is entered at. -/
abbrev E2 : (c : Dev nD) → (b : Ref sig .tc) → Buf (Elt F) ((c : Thread nD τ).loc b) := fun c b => U4 m c b
/-- After call 2: only its output array `main_v6` has changed. -/
abbrev U5 (c : Dev nD) : Valuation τ sig (Elt F) :=
  Function.update (U4 m c) (Proc.devRef .tc main_v6) ((dat2 (E2 m) c).arrAt 2 cfg2.N)
/-- The contents call 2 is left at. -/
abbrev X2 : (c : Dev nD) → (b : Ref sig .tc) → Buf (Elt F) ((c : Thread nD τ).loc b) := fun c b => U5 m c b
/-- After the last stretch of host operations: what @main returns with. -/
abbrev U6 (c : Dev nD) : Valuation τ sig (Elt F) := StableHlo.after hostOps3 (U5 m c)

/-- Call 0's output array after the call holds what the write-backs leave. -/
theorem U1_out (c : Dev nD) : U1 m c (Proc.devRef .tc main_v0) = (dat0 (E0 m) c).arrAt 2 cfg0.N := Function.update_self ..
/-- Call 0 changes no other buffer. -/
theorem U1_of_ne (c : Dev nD) (b : Ref sig .tc) (h : b ≠ main_v0) : U1 m c (Proc.devRef .tc b) = U0 m c (Proc.devRef .tc b) :=
  Function.update_of_ne (StableHlo.devRef_ne_of_ne h) ..
theorem U3_out (c : Dev nD) : U3 m c (Proc.devRef .tc main_v3) = (dat1 (E1 m) c).arrAt 2 cfg1.N := Function.update_self ..
theorem U3_of_ne (c : Dev nD) (b : Ref sig .tc) (h : b ≠ main_v3) : U3 m c (Proc.devRef .tc b) = U2 m c (Proc.devRef .tc b) :=
  Function.update_of_ne (StableHlo.devRef_ne_of_ne h) ..
theorem U5_out (c : Dev nD) : U5 m c (Proc.devRef .tc main_v6) = (dat2 (E2 m) c).arrAt 2 cfg2.N := Function.update_self ..
theorem U5_of_ne (c : Dev nD) (b : Ref sig .tc) (h : b ≠ main_v6) : U5 m c (Proc.devRef .tc b) = U4 m c (Proc.devRef .tc b) :=
  Function.update_of_ne (StableHlo.devRef_ne_of_ne h) ..
/-- A stretch of host operations leaves a buffer it does not write as it was. -/
theorem U2_of (c : Dev nD) (b : Ref sig .tc) (h : b ∉ hostOps1_W) : U2 m c (Proc.devRef .tc b) = U1 m c (Proc.devRef .tc b) :=
  StableHlo.after_of_writes_sub hostOps1 _ hostOps1_writes h
theorem U4_of (c : Dev nD) (b : Ref sig .tc) (h : b ∉ hostOps2_W) : U4 m c (Proc.devRef .tc b) = U3 m c (Proc.devRef .tc b) :=
  StableHlo.after_of_writes_sub hostOps2 _ hostOps2_writes h
theorem U6_of (c : Dev nD) (b : Ref sig .tc) (h : b ∉ hostOps3_W) : U6 m c (Proc.devRef .tc b) = U5 m c (Proc.devRef .tc b) :=
  StableHlo.after_of_writes_sub hostOps3 _ hostOps3_writes h

/-- No item of @main writes the argument `main_arg0`: no host operation writes it and no call's output array is
    it, so the fold read at it walks back to the launch memory. -/
theorem U6_main_arg0 (c : Dev nD) : U6 m c (Proc.devRef .tc main_arg0) = m ((c : Thread nD τ).loc main_arg0) :=
  (U6_of m c main_arg0 (by decide)).trans <| (U5_of_ne m c main_arg0 (by decide)).trans <|
    (U4_of m c main_arg0 (by decide)).trans <| (U3_of_ne m c main_arg0 (by decide)).trans <|
    (U2_of m c main_arg0 (by decide)).trans <| (U1_of_ne m c main_arg0 (by decide)).trans rfl
/-- Nor the argument `main_arg1`. -/
theorem U6_main_arg1 (c : Dev nD) : U6 m c (Proc.devRef .tc main_arg1) = m ((c : Thread nD τ).loc main_arg1) :=
  (U6_of m c main_arg1 (by decide)).trans <| (U5_of_ne m c main_arg1 (by decide)).trans <|
    (U4_of m c main_arg1 (by decide)).trans <| (U3_of_ne m c main_arg1 (by decide)).trans <|
    (U2_of m c main_arg1 (by decide)).trans <| (U1_of_ne m c main_arg1 (by decide)).trans rfl

/-! ## The proof data of the three calls, each at the contents its call is entered at -/

/-- Every call's proof data, each at the contents its call is entered at, given call by call (no call has a
    prefetched table, so the tables' admissible contents are the trivial ones). -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
theorem pdats_0 (c : Dev nD) : pdats m 0 c = dat0 (E0 m) c := rfl
theorem pdats_1 (c : Dev nD) : pdats m 1 c = dat1 (E1 m) c := rfl
theorem pdats_2 (c : Dev nD) : pdats m 2 c = dat2 (E2 m) c := rfl

/-! ## The thread state between two items -/

/-- No core owes another anything: no level is assigned. -/
abbrev L : GSem nD τ sig → Finset Unit := fun _ => ∅
abbrev lv : GSem nD τ sig → Unit → ℕ := fun _ _ => 0
/-- What rides beside the buffers through every item: the core's generator register at some state (a call's
    invariant takes it in and gives it back) and the core's dues, none. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding
    along; it leaves them at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

/-- At call 0's exit each of its arrays holds what the pipeline leaves: an input array what it held at entry
    (never written), the output array its write-backs folded. -/
theorem hF0 (c : Dev nD) (w : Fin cfg0.W) : (pdats m 0 c).arrAt w cfg0.N = X0 m c (Pipeline.arrRef spec0 w) :=
  match w with
  | ⟨0, _⟩ => (((dat0 (E0 m) c).arrAt_in 0 rfl _).trans (A_eq0 (E0 m) c 0)).trans (U1_of_ne m c _ (by decide)).symm
  | ⟨1, _⟩ => (((dat0 (E0 m) c).arrAt_in 1 rfl _).trans (A_eq0 (E0 m) c 1)).trans (U1_of_ne m c _ (by decide)).symm
  | ⟨2, _⟩ => (U1_out m c).symm
/-- And every buffer that is none of its arrays holds what it held at entry. -/
theorem hrest0 (c : Dev nD) : ∀ b, b ∉ Finset.univ.image (Pipeline.arrRef spec0) → X0 m c b = E0 m c b :=
  fun b hb => U1_of_ne m c b fun e => hb (Finset.mem_image.mpr ⟨2, Finset.mem_univ _, e.symm⟩)

set_option backward.isDefEq.respectTransparency.types false in
/-- CALL 0 as a segment over the thread state: entered with every unscoped buffer at the contents before it, left
    with them at the contents after it. Its arrays are split out of the unscoped buffers at entry and put back at the
    exit contents; the generator register goes into the call's invariant and comes back; nothing is owed; the kernel
    has no semaphore of its own. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := arrays_entry0 (pdats m 0 c) rfl rfl (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    refine (hout0 (E0 m) c).trans ?_
    rw [Pipeline.ownSems0_none]; unfold Pipeline.ΦA
    iintro ⟨Hr, Hp⟩
    isplitl [Hp]; · iexact Hp
    isplitr; · iempintro
    iexact Hr
  hexit c := by
    have hjoin := arrays_exit0 (pdats m 0 c) rfl rfl (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At call 1's exit each of its arrays holds what the pipeline leaves: an input array what it held at entry
    (never written), the output array its write-backs folded. -/
theorem hF1 (c : Dev nD) (w : Fin cfg1.W) : (pdats m 1 c).arrAt w cfg1.N = X1 m c (Pipeline.arrRef spec1 w) :=
  match w with
  | ⟨0, _⟩ => (((dat1 (E1 m) c).arrAt_in 0 rfl _).trans (A_eq1 (E1 m) c 0)).trans (U3_of_ne m c _ (by decide)).symm
  | ⟨1, _⟩ => (((dat1 (E1 m) c).arrAt_in 1 rfl _).trans (A_eq1 (E1 m) c 1)).trans (U3_of_ne m c _ (by decide)).symm
  | ⟨2, _⟩ => (U3_out m c).symm
/-- And every buffer that is none of its arrays holds what it held at entry. -/
theorem hrest1 (c : Dev nD) : ∀ b, b ∉ Finset.univ.image (Pipeline.arrRef spec1) → X1 m c b = E1 m c b :=
  fun b hb => U3_of_ne m c b fun e => hb (Finset.mem_image.mpr ⟨2, Finset.mem_univ _, e.symm⟩)

set_option backward.isDefEq.respectTransparency.types false in
/-- CALL 1 as a segment over the thread state: entered with every unscoped buffer at the contents before it, left
    with them at the contents after it. Its arrays are split out of the unscoped buffers at entry and put back at the
    exit contents; the generator register goes into the call's invariant and comes back; nothing is owed; the kernel
    has no semaphore of its own. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays_entry1 (pdats m 1 c) rfl rfl (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    refine (hout1 (E1 m) c).trans ?_
    rw [Pipeline.ownSems0_none]; unfold Pipeline.ΦA
    iintro ⟨Hr, Hp⟩
    isplitl [Hp]; · iexact Hp
    isplitr; · iempintro
    iexact Hr
  hexit c := by
    have hjoin := arrays_exit1 (pdats m 1 c) rfl rfl (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At call 2's exit each of its arrays holds what the pipeline leaves: an input array what it held at entry
    (never written), the output array its write-backs folded. -/
theorem hF2 (c : Dev nD) (w : Fin cfg2.W) : (pdats m 2 c).arrAt w cfg2.N = X2 m c (Pipeline.arrRef spec2 w) :=
  match w with
  | ⟨0, _⟩ => (((dat2 (E2 m) c).arrAt_in 0 rfl _).trans (A_eq2 (E2 m) c 0)).trans (U5_of_ne m c _ (by decide)).symm
  | ⟨1, _⟩ => (((dat2 (E2 m) c).arrAt_in 1 rfl _).trans (A_eq2 (E2 m) c 1)).trans (U5_of_ne m c _ (by decide)).symm
  | ⟨2, _⟩ => (U5_out m c).symm
/-- And every buffer that is none of its arrays holds what it held at entry. -/
theorem hrest2 (c : Dev nD) : ∀ b, b ∉ Finset.univ.image (Pipeline.arrRef spec2) → X2 m c b = E2 m c b :=
  fun b hb => U5_of_ne m c b fun e => hb (Finset.mem_image.mpr ⟨2, Finset.mem_univ _, e.symm⟩)

set_option backward.isDefEq.respectTransparency.types false in
/-- CALL 2 as a segment over the thread state: entered with every unscoped buffer at the contents before it, left
    with them at the contents after it. Its arrays are split out of the unscoped buffers at entry and put back at the
    exit contents; the generator register goes into the call's invariant and comes back; nothing is owed; the kernel
    has no semaphore of its own. -/
def reg2 : Pipeline.RegionSeg (pcfgs (F := F)) adm (pdats m) () defs₀ Variants.none L lv 2 where
  win := launch2.win.to₀
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E2 m) c)
    unfold Pipeline.ΦA
    iintro ⟨Hp, -, Hr⟩
    isplitl [Hr]; · iexact Hr
    iexact Hp
  hout c := by
    refine (hout2 (E2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order: a region per call, a host segment per stretch from its boundary's contents. -/
abbrev segs : List (Pipeline.Seg (pcfgs (F := F)) adm (pdats m) () defs₀ Variants.none L lv) :=
  [ .region (reg0 m),
    .host (hseg hostOps1 hostOps1_sub hostOps1_fresh (U1 m)),
    .region (reg1 m),
    .host (hseg hostOps2 hostOps2_sub hostOps2_fresh (U3 m)),
    .region (reg2 m),
    .host (hseg hostOps3 hostOps3_sub hostOps3_fresh (U5 m)) ]
/-- @main is the run of the segments. -/
theorem main_run (c : Dev nD) : main (F := F) c = Pipeline.Seg.run (segs m) :=
  main_segs adm (pdats m) () Variants.none L lv _ _ _ (reg0 m) (reg1 m) (reg2 m) rfl rfl rfl c

set_option backward.isDefEq.respectTransparency.types false in
/-- THE RUN: from any memory with zero counters every weakly fair execution of @main on the TensorCores terminates,
    and every final memory holds, at each unscoped buffer, the last contents of the fold. The launch over the segments;
    the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = U6 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c))
    (Tₙ := fun c => iprop(StableHlo.held (c : Thread nD τ) (Pipeline.ucRefs τ sig) (U6 m c) ∗ ∃ r, prngReg c r))
    (hch := ⟨fun _ => .rfl, fun _ => .rfl, fun _ => .rfl, fun _ => .rfl, fun _ => .rfl, fun _ => .rfl, fun c =>
      show iprop(StableHlo.held (c : Thread nD τ) (Pipeline.ucRefs τ sig) (U6 m c) ∗ R c)
        ⊢ iprop(iprop(StableHlo.held (c : Thread nD τ) (Pipeline.ucRefs τ sig) (U6 m c) ∗ ∃ r, prngReg c r)
            ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun _ h => h)

/-- THE FRAME: every final memory holds the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (U6_main_arg0 m c),
     (h c _ (mem_uc main_arg1 (by decide))).trans (U6_main_arg1 m c)⟩) (run_all m ρ)

/-- info: 'Cert.KernelIdeal.Hand.frame' depends on axioms: [propext, Classical.choice, Quot.sound] -/
#guard_msgs in #print axioms frame

end Cert.KernelIdeal.Hand

end
-- ==== Proof.Spec.lean ====
/-
  The mathematics both programs compute, stated once over the extended reals.

  For two matrices x, y of 8192 rows and 64 columns:
    rowSq x p     = the sum over k of x(p,k)², the squared norm of row p;
    dot x y p q   = the sum over k of x(p,k)·y(q,k), the inner product of row p of x with row q of y;
    kval x y p q  = exp ((0 − (rowSq x p + rowSq y q − 2·dot x y p q)) · 2⁻¹²), the kernel value of the pair
                    (the exponent is minus the squared distance of the two rows over 64²);
    total x y     = the sum of kval over all pairs (p, q);
    mean x y      = total x y divided by 2²⁶ = 8192², the number of pairs;
    mmd z t       = mean z z + mean t t − 2·mean z t, the biased maximum mean discrepancy.
  The three float literals stay as their words; only their denotations are ever needed.
-/
import Idealize.ShloMosaic.PureOps.Ideal
import Idealize.ShloMosaic.Lib.ValueIdx

noncomputable section

open scoped BigOperators

namespace Cert.Spec

open Idealize.ShloMosaic Idealize.ShloMosaic.ValueIdx

/-- The shape of both inputs. -/
abbrev SX : Shape := ⟨2, ![8192, 64]⟩

/-- The literal 2.0. -/
abbrev two : EReal := Ideal.ofBits .f32 0x40000000#32
/-- The literal 2⁻¹² = 1/4096 = 1/64². -/
abbrev c12 : EReal := Ideal.ofBits .f32 0x39800000#32
/-- The literal 2²⁶ = 8192². -/
abbrev npairs : EReal := Ideal.ofBits .f32 0x4C800000#32

/-- The squared norm of row p. -/
def rowSq (x : SX.Idx → EReal) (p : Fin 8192) : EReal := ∑ k : Fin 64, x (ix2 p k) * x (ix2 p k)

/-- The inner product of row p of x with row q of y. -/
def dot (x y : SX.Idx → EReal) (p q : Fin 8192) : EReal := ∑ k : Fin 64, x (ix2 p k) * y (ix2 q k)

/-- The kernel value of the pair (row p of x, row q of y). -/
def kval (x y : SX.Idx → EReal) (p q : Fin 8192) : EReal :=
  Ideal.exp (((0 : EReal) - ((rowSq x p + rowSq y q) - two * dot x y p q)) * c12)

/-- The sum of the kernel values over all pairs of rows. -/
def total (x y : SX.Idx → EReal) : EReal := ∑ p : Fin 8192, ∑ q : Fin 8192, kval x y p q

/-- The mean kernel value over the 8192² pairs. -/
def mean (x y : SX.Idx → EReal) : EReal := Ideal.div (total x y) npairs

/-- The biased maximum mean discrepancy of the two samples. -/
def mmd (z t : SX.Idx → EReal) : EReal := (mean z z + mean t t) - two * mean z t

end Cert.Spec

end
-- ==== Proof.LibScalarCast.lean ====
/-
  A one-element array cast to rank 0, read at its index (general in the shape).

  A reshape keeps the row-major position. An array with one element has every index at position 0, and the
  rank-0 array's one index is at position 0 too, so the cast reads the operand at any index one cares to name.
-/
import Idealize.ShloMosaic.Lib.Pipeline.Value

namespace Idealize.ShloMosaic.ValueLayout

variable {α : Type}

/-- A one-element array cast to the rank-0 shape reads, at the rank-0 index, the operand at any of its indices
    (there is only one). -/
theorem shapeCast_scalar_apply {s : Shape} (x : s.Idx → α) (h : s.ShapeCasts ⟨0, ![]⟩) (hn : s.numel = 1)
    (j : (⟨0, ![]⟩ : Shape).Idx) (k : s.Idx) : shapeCast ⟨0, ![]⟩ x h j = x k :=
  shapeCast_apply x h j k (by
    have h1 : (s.rowMajor k).val < s.numel := (s.rowMajor k).isLt
    have h2 : ((⟨0, ![]⟩ : Shape).rowMajor j).val < (⟨0, ![]⟩ : Shape).numel := ((⟨0, ![]⟩ : Shape).rowMajor j).isLt
    have h0 : (⟨0, ![]⟩ : Shape).numel = 1 := by decide
    omega)

end Idealize.ShloMosaic.ValueLayout
-- ==== Proof.KI.Tail.lean ====
/-
  The host operations around the three calls, read at the result.

  Between and after its three calls the program only reshapes, divides, adds, scales and subtracts scalars: after call
  K (K = 0, 1, 2) the call's 1×1 output is reshaped to a scalar and divided by 2²⁶, the number of pairs; after the
  third call the first two quotients are added and twice the third is subtracted. A call replaces only its own output
  array's contents; a stretch of host operations writes only its own results. So, folding the buffer contents through
  the program from any start contents and any three outputs o0, o3, o6, the result array ends holding
      (o0(0,0) / 2²⁶ + o3(0,0) / 2²⁶) − 2 · (o6(0,0) / 2²⁶)
  (`fold_value`). Each stretch is read on its own first (`after1_v2`, `after2_v5`, `after3_v11`): its operations'
  results are substituted one into the next, the reshape of a one-element array to rank 0 reads the array's one entry,
  and the scalar operations are the extended reals'. The fold then only has to follow each quotient through the later
  calls and stretches, none of which writes it. The two float literals stay as their words.
-/
import proofs.«123961_j29377576305361_1_alg».proof.Proof.Gen.KernelIdeal.Regions
import proofs.«123961_j29377576305361_1_alg».proof.Proof.Spec
import proofs.«123961_j29377576305361_1_alg».proof.Proof.LibScalarCast
import Idealize.ShloMosaic.Lib.StableHlo.Run
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx Idealize.ShloMosaic.ValueLayout

/-! ## One stretch at a time -/

/-- A `[1, 1]` array has one element. -/
theorem numel_S1x1 : S1x1.numel = 1 := by decide

/-- After the first stretch, `main_v2` holds the first call's output entry divided by the number of pairs. -/
theorem after1_v2 (W : Valuation τ sig (Elt Ideal)) (o : S1x1.Idx → EReal) (h : W (Proc.devRef .tc main_v0) = o) :
    StableHlo.after (hostOps1 (F := Ideal)) W (Proc.devRef .tc main_v2)
      = fun _ => Ideal.div (o (ix2 0 0)) Cert.Spec.npairs := by
  after_results
  funext j
  show Ideal.div (shapeCast S_ (W (Proc.devRef .tc main_v0)) shapeCasts_S1x1_S_ j) (Ideal.ofBits .f32 0x4C800000#32) = _
  rw [h, shapeCast_scalar_apply o _ numel_S1x1 j (ix2 0 0)]

/-- After the second stretch, `main_v5` holds the second call's output entry divided by the number of pairs. -/
theorem after2_v5 (W : Valuation τ sig (Elt Ideal)) (o : S1x1.Idx → EReal) (h : W (Proc.devRef .tc main_v3) = o) :
    StableHlo.after (hostOps2 (F := Ideal)) W (Proc.devRef .tc main_v5)
      = fun _ => Ideal.div (o (ix2 0 0)) Cert.Spec.npairs := by
  after_results
  funext j
  show Ideal.div (shapeCast S_ (W (Proc.devRef .tc main_v3)) shapeCasts_S1x1_S_ j) (Ideal.ofBits .f32 0x4C800000#32) = _
  rw [h, shapeCast_scalar_apply o _ numel_S1x1 j (ix2 0 0)]

/-- After the third stretch, `main_v11` holds the sum of the two earlier quotients minus twice the third call's output
    entry divided by the number of pairs. -/
theorem after3_v11 (W : Valuation τ sig (Elt Ideal)) (a b : EReal) (o : S1x1.Idx → EReal)
    (h2 : W (Proc.devRef .tc main_v2) = fun _ => a) (h5 : W (Proc.devRef .tc main_v5) = fun _ => b)
    (h6 : W (Proc.devRef .tc main_v6) = o) :
    StableHlo.after (hostOps3 (F := Ideal)) W (Proc.devRef .tc main_v11)
      = fun _ => (a + b) - Cert.Spec.two * Ideal.div (o (ix2 0 0)) Cert.Spec.npairs := by
  after_results
  rw [h2, h5, h6]
  funext j
  show (a + b) - Ideal.ofBits .f32 0x40000000#32
        * Ideal.div (shapeCast S_ o shapeCasts_S1x1_S_ j) (Ideal.ofBits .f32 0x4C800000#32) = _
  rw [shapeCast_scalar_apply o _ numel_S1x1 j (ix2 0 0)]

/-! ## The three stretches folded through the three calls -/

/-- The result of @main read off the fold: the first two calls' output entries, each divided by the number of pairs,
    added, minus twice the third's divided by the number of pairs — whatever the start contents. -/
theorem fold_value (W0 : Valuation τ sig (Elt Ideal))
    (o0 : (Proc.devRef (τ := τ) .tc main_v0).ty.Contents (Elt Ideal))
    (o3 : (Proc.devRef (τ := τ) .tc main_v3).ty.Contents (Elt Ideal))
    (o6 : (Proc.devRef (τ := τ) .tc main_v6).ty.Contents (Elt Ideal)) :
    StableHlo.after (hostOps3 (F := Ideal))
        (Function.update
          (StableHlo.after (hostOps2 (F := Ideal))
            (Function.update
              (StableHlo.after (hostOps1 (F := Ideal)) (Function.update W0 (Proc.devRef .tc main_v0) o0))
              (Proc.devRef .tc main_v3) o3))
          (Proc.devRef .tc main_v6) o6)
        (Proc.devRef .tc main_v11)
      = fun _ => (Ideal.div (o0 (ix2 0 0)) Cert.Spec.npairs + Ideal.div (o3 (ix2 0 0)) Cert.Spec.npairs)
          - Cert.Spec.two * Ideal.div (o6 (ix2 0 0)) Cert.Spec.npairs := by
  refine after3_v11 _ _ _ o6 ?_ ?_ (Function.update_self _ _ _)
  · rw [Function.update_of_ne (StableHlo.devRef_ne_of_ne (show main_v2 ≠ main_v6 by decide)),
      StableHlo.after_of_writes_sub hostOps2 _ hostOps2_writes (show main_v2 ∉ hostOps2_W by decide),
      Function.update_of_ne (StableHlo.devRef_ne_of_ne (show main_v2 ≠ main_v3 by decide))]
    exact after1_v2 _ o0 (Function.update_self _ _ _)
  · rw [Function.update_of_ne (StableHlo.devRef_ne_of_ne (show main_v5 ≠ main_v6 by decide))]
    exact after2_v5 _ o3 (Function.update_self _ _ _)

end Cert.KernelIdeal.Hand

end
-- ==== Proof.LibBlockSum.lean ====
/-
  A finite sum taken block by block.

  `N = a * b` positions are cut into `a` consecutive blocks of `b` positions each: position `q` of block `t` is
  position `t * b + q` (`blockRow`). In any commutative additive monoid the sum of a function over all `N` positions is
  the sum, over the blocks, of its sums over each block's positions (`sum_fin_blocks`): the bijection
  `Fin a × Fin b ≃ Fin (a * b)`, `(t, q) ↦ q + b * t`. Applied twice it cuts the rows of a row-major matrix into row
  blocks and each row into its entries. Nothing is asked of the summands: on the extended reals, whose addition is
  commutative and associative at the infinities too, this re-groups a sum of any values. Generic in the sizes and in the
  monoid. Last, a reshape re-arranges a vector's entries bijectively, so it does not change their sum (`sum_shapeCast`).
-/
import Idealize.ShloMosaic.Lib.ValueIdx
import Mathlib.Algebra.BigOperators.Fin
import Mathlib.Logic.Equiv.Fin.Basic

open scoped BigOperators

namespace Cert.Lib.BlockSum

open Idealize.ShloMosaic Idealize.ShloMosaic.ValueIdx

/-- Row `q` of row block `t`, among the `N = a * b` rows: row `t * b + q`. -/
def blockRow {N a b : ℕ} (hN : N = a * b) (t : Fin a) (q : Fin b) : Fin N :=
  ⟨t.val * b + q.val, by
    subst hN
    calc t.val * b + q.val < t.val * b + b := Nat.add_lt_add_left q.isLt _
      _ = (t.val + 1) * b := (Nat.succ_mul _ _).symm
      _ ≤ a * b := Nat.mul_le_mul_right _ t.isLt⟩

@[simp] theorem blockRow_val {N a b : ℕ} (hN : N = a * b) (t : Fin a) (q : Fin b) :
    (blockRow hN t q).val = t.val * b + q.val := rfl

/-- A sum over `a * b` positions is the sum over the `a` blocks of the sums over each block's `b` positions. -/
theorem sum_fin_blocks {M : Type*} [AddCommMonoid M] {N a b : ℕ} (hN : N = a * b) (f : Fin N → M) :
    ∑ r, f r = ∑ t : Fin a, ∑ q : Fin b, f (blockRow hN t q) := by
  subst hN
  rw [← Equiv.sum_comp finProdFinEquiv f, Fintype.sum_prod_type]
  refine Finset.sum_congr rfl fun t _ => Finset.sum_congr rfl fun q _ => congrArg f (Fin.ext ?_)
  show q.val + b * t.val = t.val * b + q.val
  rw [Nat.mul_comm, Nat.add_comm]

/-- A reshape only re-arranges: the sum over a reshaped vector's entries is the sum over the vector's entries (each entry of
    the result is the operand's entry at the same row-major position, a bijection of the two index sets). -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

end Cert.Lib.BlockSum
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.KIPay.lean ====
/-
  The kernel body's payload at the ideal values, and the sum of the tiles.

  At grid point t the body holds the whole of x (8192 rows of 64) and block t of y (128 rows of 64) and adds ONE number
  to its 1×1 accumulator: the sum, over the 8192 rows p of x and the 128 rows l of the block, of
      exp ((0 − ((|x_p|² + |yb_l|²) − 2·⟨x_p, yb_l⟩)) · 2⁻¹²),
  the kernel value of the pair. The payload computes it in stages: the squared norms of the rows of x as a column
  [8192, 1] and of the block's rows as a row [1, 128] (a lane sum, a reshape, for the block also a transpose), the inner
  products as the matrix product x · ybᵀ into a zero accumulator (the narrowing of the operands is the identity on
  extended reals), the exponent entry by entry on [8192, 128], then the sum along the lanes and the sum of the resulting
  column. Each stage is read at an index here (`x2_apply`, `y2_apply`, `xy_apply`, `kmat_apply`) and the payload at its
  one index is the accumulator plus `tileSum` (`pay2_apply`); the initial store's payload is zero (`pay1_apply`).
  The 64 blocks of y tile its 8192 rows (row l of block t is row 128·t + l), so the tiles' sums add up to the sum over
  all pairs (`total_of_tiles`): a finite sum regrouped block by block, in the commutative monoid of extended reals.
-/
import proofs.«123961_j29377576305361_1_alg».proof.Proof.Gen.KernelIdeal.Skeleton
import proofs.«123961_j29377576305361_1_alg».proof.Proof.Spec
import proofs.«123961_j29377576305361_1_alg».proof.Proof.LibBlockSum
import proofs.«123961_j29377576305361_1_alg».proof.Proof.LibColumn
import proofs.«123961_j29377576305361_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Cert.Spec Idealize.ShloMosaic Idealize.ShloMosaic.ValueIdx
open Idealize.ShloMosaic.ValueLayout Idealize.ShloMosaic.PlainDot Cert.Lib.BlockSum

/-! ## A sum along one axis of a matrix, read at an index -/

/-- The sum along the lanes of an `[a, b]` array, read at row `i`: the sum over the columns `k` of the entry `(i, k)`
    (the reduced index with `k` inserted on axis 1 is `(i, k)`). -/
theorem rowSum_apply {a b : ℕ} (v : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ v 0x00000000#32 h hφ hacc (ix1 i) = ∑ k : Fin b, v (ix2 i k) := by
  refine (Ideal.multiReduction_add_single v _ h hφ hacc (ix1 i)).trans ?_
  refine Finset.sum_congr rfl fun k _ => congrArg v ?_
  funext c
  match c with
  | ⟨0, _⟩ => rfl
  | ⟨1, _⟩ => rfl

/-- The sum along the rows of a column `[a, 1]`, read at its one index: the sum over the rows `p` of the entry `(p, 0)`. -/
theorem colSum_apply {a : ℕ} (v : FVec Ideal (⟨2, ![a, 1]⟩ : Shape) .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ v 0x00000000#32 h hφ hacc (ix1 u) = ∑ p : Fin a, v (ix2 p (0 : Fin 1)) := by
  refine (Ideal.multiReduction_add_single v _ h hφ hacc (ix1 u)).trans ?_
  refine Finset.sum_congr rfl fun p _ => congrArg v ?_
  funext c
  match c with
  | ⟨0, _⟩ => rfl
  | ⟨1, _⟩ => exact Fin.ext (by show u.val = 0; omega)

/-- The 1×1 shape has one index. -/
theorem idx11 (j : S1x1.Idx) : j = ix2 (0 : Fin 1) (0 : Fin 1) := by
  funext c
  match c with
  | ⟨0, _⟩ => exact Fin.ext (by have := idx2_lt0 j; show (j 0).val = 0; omega)
  | ⟨1, _⟩ => exact Fin.ext (by have := idx2_lt1 j; show (j 1).val = 0; omega)

/-! ## The payload's stages -/

/-- The squared norms of the rows of x, as a column `[8192, 1]`. -/
def x2 (x : FVec Ideal S8192x64 .f32) : FVec Ideal S8192x1 .f32 :=
  shapeCast S8192x1 (multiReduction .add [1] S8192 (mulf x x) 0x00000000#32 reduces_S8192x64_S8192 (.inl rfl) rfl)
    shapeCasts_S8192_S8192x1

/-- The squared norms of the block's rows, as a row `[1, 128]`. -/
def y2 (yb : FVec Ideal S128x64 .f32) : FVec Ideal S1x128 .f32 :=
  transpose S1x128 [1, 0]
    (shapeCast S128x1 (multiReduction .add [1] S128 (mulf yb yb) 0x00000000#32 reduces_S128x64_S128 (.inl rfl) rfl)
      shapeCasts_S128_S128x1)
    transposes_S128x1_p1_0_S1x128

/-- The inner products of the rows of x with the block's rows: the product of x with the block transposed, into zero. -/
def xy (x : FVec Ideal S8192x64 .f32) (yb : FVec Ideal S128x64 .f32) : FVec Ideal S8192x128 .f32 :=
  matmul dot_S8192x64_S64x128_S8192x128_1_0_0_1_n_n none (truncf .bf16 x bitsLt_bf16_f32)
    (transpose S64x128 [1, 0] (truncf .bf16 yb bitsLt_bf16_f32) transposes_S128x64_p1_0_S64x128)
    (constant S8192x128 .f32 0x00000000#32)

/-- The kernel values of the pairs (row of x, row of the block), as `[8192, 128]`. -/
def kmat (x : FVec Ideal S8192x64 .f32) (yb : FVec Ideal S128x64 .f32) : FVec Ideal S8192x128 .f32 :=
  exp (mulf
    (subf (broadcast S8192x128 (Scalar.ofBits .f32 0x00000000#32))
      (subf
        (addf (broadcastTo S8192x128 (x2 x) broadcasts_S8192x1_S8192x128)
          (broadcastTo S8192x128 (y2 yb) broadcasts_S1x128_S8192x128))
        (mulf (broadcast S8192x128 (Scalar.ofBits .f32 0x40000000#32)) (xy x yb))))
    (broadcast S8192x128 (Scalar.ofBits .f32 0x39800000#32)))

/-- The payload is the accumulator plus the sum of `kmat` along the lanes and then along the rows, between reshapes. -/
theorem pay2_eq (x : Vec Ideal S8192x64 .f32) (yb : Vec Ideal S128x64 .f32) (s : Vec Ideal S1x1 .f32) :
    k0_pay2 (F := Ideal) x yb s
      = shapeCast S1x1
          (addf s
            (shapeCast S1x1
              (multiReduction .add [0] S1
                (shapeCast S8192x1
                  (multiReduction .add [1] S8192 (kmat x yb) 0x00000000#32 reduces_S8192x128_S8192 (.inl rfl) rfl)
                  shapeCasts_S8192_S8192x1)
                0x00000000#32 reduces_S8192x1_S1 (.inl rfl) rfl)
              shapeCasts_S1_S1x1))
          shapeCasts_S1x1_S1x1 := rfl

/-- The dimension numbers of the body's matrix product are the plain ones of `[8192, 64] · [64, 128]`. -/
theorem dot_isPlain : IsPlain dot_S8192x64_S64x128_S8192x128_1_0_0_1_n_n := ⟨rfl, rfl, rfl, rfl, rfl, rfl⟩

/-- Entry `(p, u)` of the column of squared norms is the squared norm of row `p` of x. -/
theorem x2_apply (x : FVec Ideal S8192x64 .f32) (p : Fin 8192) (u : Fin 1) : x2 x (ix2 p u) = rowSq x p :=
  (shapeCast_a_a1_apply _ _ p u).trans (rowSum_apply (mulf x x) _ _ _ p)

/-- Entry `(u, l)` of the row of squared norms is the squared norm of row `l` of the block. -/
theorem y2_apply (yb : FVec Ideal S128x64 .f32) (u : Fin 1) (l : Fin 128) :
    y2 yb (ix2 u l) = ∑ k : Fin 64, yb (ix2 l k) * yb (ix2 l k) :=
  (transpose_ix2_apply _ _ u l).trans ((shapeCast_a_a1_apply _ _ l u).trans (rowSum_apply (mulf yb yb) _ _ _ l))

/-- Entry `(p, l)` of the product is the inner product of row `p` of x with row `l` of the block. -/
theorem xy_apply (x : FVec Ideal S8192x64 .f32) (yb : FVec Ideal S128x64 .f32) (p : Fin 8192) (l : Fin 128) :
    xy x yb (ix2 p l) = ∑ k : Fin 64, x (ix2 p k) * yb (ix2 l k) :=
  (Ideal.matmul_constant_zero_apply _ none _ _ (ix2 p l)).trans
    ((sum_contr dot_isPlain _ _ p l).trans
      (Finset.sum_congr rfl fun k _ => congrArg (x (ix2 p k) * ·) (transpose_ix2_apply _ _ k l)))

/-- Entry `(p, l)` of `kmat` is the kernel value of row `p` of x and row `l` of the block. -/
theorem kmat_apply (x : FVec Ideal S8192x64 .f32) (yb : FVec Ideal S128x64 .f32) (p : Fin 8192) (l : Fin 128) :
    kmat x yb (ix2 p l)
      = Ideal.exp (((0 : EReal) - ((rowSq x p + ∑ k : Fin 64, yb (ix2 l k) * yb (ix2 l k))
          - two * ∑ k : Fin 64, x (ix2 p k) * yb (ix2 l k))) * c12) := by
  show Ideal.exp ((Ideal.ofBits .f32 0x00000000#32
      - ((broadcastTo S8192x128 (x2 x) broadcasts_S8192x1_S8192x128 (ix2 p l)
            + broadcastTo S8192x128 (y2 yb) broadcasts_S1x128_S8192x128 (ix2 p l))
          - two * xy x yb (ix2 p l))) * c12) = _
  rw [Ideal.ofBits_zero_f32, broadcastTo_a1_ab_apply (by decide) (x2 x) _ p l, x2_apply,
    broadcastTo_1b_ab_apply (y2 yb) _ p l, y2_apply, xy_apply]

/-! ## The payloads at their one index -/

/-- The sum of the kernel values of all rows of x against the 128 rows of one block of y. -/
def tileSum (x : S8192x64.Idx → EReal) (yb : S128x64.Idx → EReal) : EReal :=
  ∑ p : Fin 8192, ∑ l : Fin 128,
    Ideal.exp (((0 : EReal) - ((rowSq x p + ∑ k : Fin 64, yb (ix2 l k) * yb (ix2 l k))
      - two * ∑ k : Fin 64, x (ix2 p k) * yb (ix2 l k))) * c12)

/-- The body's stored value: the accumulator as loaded plus the tile's sum. -/
theorem pay2_apply (x : Vec Ideal S8192x64 .f32) (yb : Vec Ideal S128x64 .f32) (s : Vec Ideal S1x1 .f32) (j : S1x1.Idx) :
    k0_pay2 (F := Ideal) x yb s j = s (ix2 0 0) + tileSum x yb := by
  obtain rfl : j = ix2 (0 : Fin 1) (0 : Fin 1) := idx11 j
  rw [pay2_eq]
  refine (congrFun (shapeCast_self _ _) _).trans ?_
  show s (ix2 0 0) + _ = s (ix2 0 0) + tileSum x yb
  refine congrArg (s (ix2 0 0) + ·) ?_
  refine (shapeCast_a_a1_apply _ _ (0 : Fin 1) (0 : Fin 1)).trans ?_
  refine (colSum_apply _ _ _ _ (0 : Fin 1)).trans ?_
  unfold tileSum
  refine Finset.sum_congr rfl fun p _ => ?_
  refine (shapeCast_a_a1_apply _ _ p (0 : Fin 1)).trans ?_
  refine (rowSum_apply _ _ _ _ p).trans ?_
  exact Finset.sum_congr rfl fun l _ => kmat_apply x yb p l

/-- The first grid point's initial store writes zero. -/
theorem pay1_apply (j : S1x1.Idx) : k0_pay1 (F := Ideal) j = 0 := by
  unfold k0_pay1
  refine (congrFun (shapeCast_self _ _) _).trans ?_
  exact Ideal.ofBits_zero_f32

/-- The other two calls' payloads are the first call's, term for term. -/
theorem k1_pay2_eq : @k1_pay2 = @k0_pay2 := rfl
theorem k2_pay2_eq : @k2_pay2 = @k0_pay2 := rfl
theorem k1_pay1_eq : @k1_pay1 = @k0_pay1 := rfl
theorem k2_pay1_eq : @k2_pay1 = @k0_pay1 := rfl

/-! ## The tiles' sums add up to the sum over all pairs -/

/-- The 8192 rows of y are 64 blocks of 128. -/
theorem rows_blocks : 8192 = 64 * 128 := by norm_num

/-- Block t of y. -/
def yblk (y : SX.Idx → EReal) (t : Fin 64) : S128x64.Idx → EReal :=
  fun j => y (ix2 ⟨128 * t.val + (j 0).val, by have := idx2_lt0 j; have := t.isLt; omega⟩ (j 1))

/-- Row `l` of block `t` is row `128·t + l` of y. -/
theorem yblk_apply (y : SX.Idx → EReal) (t : Fin 64) (l : Fin 128) (k : Fin 64) :
    yblk y t (ix2 l k) = y (ix2 (blockRow rows_blocks t l) k) := by
  unfold yblk
  refine congrArg y ?_
  funext c
  match c with
  | ⟨0, _⟩ => exact Fin.ext (by show 128 * t.val + l.val = t.val * 128 + l.val; omega)
  | ⟨1, _⟩ => rfl

/-- A tile's sum is the sum of the kernel values of all rows of x against the rows of y in that block. -/
theorem tileSum_yblk (x y : SX.Idx → EReal) (t : Fin 64) :
    tileSum x (yblk y t) = ∑ p : Fin 8192, ∑ l : Fin 128, kval x y p (blockRow rows_blocks t l) := by
  unfold tileSum kval rowSq dot
  simp only [yblk_apply]

/-- The 64 tiles' sums add up to the sum of the kernel values over all pairs of rows. -/
theorem total_of_tiles (x y : SX.Idx → EReal) : ∑ t : Fin 64, tileSum x (yblk y t) = Cert.Spec.total x y := by
  unfold total
  rw [Finset.sum_congr rfl fun t _ => tileSum_yblk x y t, Finset.sum_comm]
  refine Finset.sum_congr rfl fun p _ => ?_
  exact (sum_fin_blocks rows_blocks (fun q => kval x y p q)).symm

/-! The same two facts under each call's own payload names (the three calls' payloads are one term). -/

theorem pay2_apply0 (x : Vec Ideal S8192x64 .f32) (yb : Vec Ideal S128x64 .f32) (s : Vec Ideal S1x1 .f32) (j : S1x1.Idx) :
    k0_pay2 (F := Ideal) x yb s j = s (ix2 0 0) + tileSum x yb := pay2_apply x yb s j
theorem pay2_apply1 (x : Vec Ideal S8192x64 .f32) (yb : Vec Ideal S128x64 .f32) (s : Vec Ideal S1x1 .f32) (j : S1x1.Idx) :
    k1_pay2 (F := Ideal) x yb s j = s (ix2 0 0) + tileSum x yb := pay2_apply x yb s j
theorem pay2_apply2 (x : Vec Ideal S8192x64 .f32) (yb : Vec Ideal S128x64 .f32) (s : Vec Ideal S1x1 .f32) (j : S1x1.Idx) :
    k2_pay2 (F := Ideal) x yb s j = s (ix2 0 0) + tileSum x yb := pay2_apply x yb s j
theorem pay1_apply0 (j : S1x1.Idx) : k0_pay1 (F := Ideal) j = 0 := pay1_apply j
theorem pay1_apply1 (j : S1x1.Idx) : k1_pay1 (F := Ideal) j = 0 := pay1_apply j
theorem pay1_apply2 (j : S1x1.Idx) : k2_pay1 (F := Ideal) j = 0 := pay1_apply j

end Cert.KernelIdeal.PayValue

end
-- ==== Proof.KI.R0ValueA.lean ====
import proofs.«123961_j29377576305361_1_alg».proof.Proof.KI.R0Frame
import proofs.«123961_j29377576305361_1_alg».proof.Proof.KIPay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! # Kernel call 0: what each point's stores leave, as values

Each control case of the body (first point, middle point, last point) leaves in the 1×1 accumulator the payload of its
last store there, and the last point leaves the same in the 1×1 output block. The payload is the accumulator as loaded
plus the sum of the kernel values of all rows of the first operand against the 128 rows of the point's block of the
second; at the first point the accumulator was just cleared, so the payload is that sum alone. -/

/-! ## The pieces the three runs found, read back -/

/-- The zero offsets of a rank-2 rectangle, as the constant function. -/
theorem blk0_hz : (![0, 0] : Fin 2 → Nat) = fun _ => 0 := funext fun a => by fin_cases a <;> rfl

/-- The first point leaves in the accumulator the payload of its second store: the tile's sum added to what its first
    store, the zero, left there (the accumulator is loaded back after the clearing store). -/
theorem sout0_A_eq (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec F S8192x64 .f32) (x1 : Vec F S128x64 .f32) :
    sout0_A c i arg1 harg1 arg2 harg2 arg3 harg3 arg4 harg4 hc0 hc1 x0 x1 = k0_pay2 x0 x1 (k0_pay1 (F := F)) := by
  unfold sout0_A
  rw [View.read_writes_eq_canon _ _ _ (scover0_A c i arg1 harg1 arg2 harg2 arg3 harg3 arg4 harg4 hc0 hc1 x0 x1)]
  unfold kernelRun0_A
  dsimp only
  sl_unfold_words
  rw [View.canon_cons_unit_zero (S := S1x1) blk0_hz, View.readCov_unit_zero (S := S1x1) _ blk0_hz]
  simp only [View.readAt_eq_ld, harg1.read_unread, harg2.read_unread, View.ld_unit_zero (S := S8192x64) blk0_hz,
    View.ld_unit_zero (S := S128x64) blk0_hz]

/-- A middle point leaves in the accumulator the payload of its one store: the tile's sum added to what was there. -/
theorem sout0_B_eq (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec F S8192x64 .f32) (x1 : Vec F S128x64 .f32) (xs0 : Vec F S1x1 .f32) :
    sout0_B c i arg1 harg1 arg2 harg2 arg3 harg3 arg4 harg4 hc0 hc1 x0 x1 xs0 = k0_pay2 x0 x1 xs0 := by
  unfold sout0_B
  rw [View.read_writes_eq_canon _ _ _ (scover0_B c i arg1 harg1 arg2 harg2 arg3 harg3 arg4 harg4 hc0 hc1 x0 x1 xs0)]
  unfold kernelRun0_B
  dsimp only
  sl_unfold_words
  rw [View.canon_unit_zero (S := S1x1) blk0_hz]
  simp only [View.readAt_eq_ld, harg1.read_unread, harg2.read_unread, harg4.read_unread, View.ld_unit_zero (S := S8192x64) blk0_hz,
    View.ld_unit_zero (S := S128x64) blk0_hz, View.ld_unit_zero (S := S1x1) blk0_hz]

/-- So does the last point. -/
theorem sout0_C_eq (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x64 .f32) (x1 : Vec F S128x64 .f32) (xs0 : Vec F S1x1 .f32) :
    sout0_C c i arg1 harg1 arg2 harg2 arg3 harg3 arg4 harg4 hc0 hc1 x0 x1 xs0 = k0_pay2 x0 x1 xs0 := by
  unfold sout0_C
  rw [View.read_writes_eq_canon _ _ _ (scover0_C c i arg1 harg1 arg2 harg2 arg3 harg3 arg4 harg4 hc0 hc1 x0 x1 xs0)]
  unfold kernelRun0_C
  dsimp only
  sl_unfold_words
  rw [View.canon_unit_zero (S := S1x1) blk0_hz]
  simp only [View.readAt_eq_ld, harg1.read_unread, harg2.read_unread, harg4.read_unread, View.ld_unit_zero (S := S8192x64) blk0_hz,
    View.ld_unit_zero (S := S128x64) blk0_hz, View.ld_unit_zero (S := S1x1) blk0_hz]

/-- And the last point leaves the same in the output block: it stores there the accumulator as loaded back after its
    own store. -/
theorem out0_C_eq (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec F S8192x64 .f32) (x1 : Vec F S128x64 .f32) (xs0 : Vec F S1x1 .f32) :
    out0_C c i arg1 harg1 arg2 harg2 arg3 harg3 arg4 harg4 hc0 hc1 x0 x1 xs0 = k0_pay2 x0 x1 xs0 := by
  unfold out0_C
  rw [View.read_writes_eq_canon _ _ _ (cover0_C c i arg1 harg1 arg2 harg2 arg3 harg3 arg4 harg4 hc0 hc1 x0 x1 xs0)]
  unfold kernelRun0_C
  dsimp only
  sl_unfold_words
  rw [View.canon_unit_zero (S := S1x1) blk0_hz]
  simp only [View.readAt_eq_ld, harg1.read_unread, harg2.read_unread, harg4.read_unread, View.ld_unit_zero (S := S8192x64) blk0_hz,
    View.ld_unit_zero (S := S128x64) blk0_hz, View.ld_unit_zero (S := S1x1) blk0_hz, View.readCov_unit_zero (S := S1x1) _ blk0_hz]

/-! ## The payloads at the ideal values, under this call's names -/

/-- The stored value at its one index: the accumulator as loaded plus the tile's sum. -/
theorem out0_pay2 (x : Vec Ideal S8192x64 .f32) (yb : Vec Ideal S128x64 .f32) (s : Vec Ideal S1x1 .f32) (j : S1x1.Idx) :
    k0_pay2 (F := Ideal) x yb s j = s (ix2 0 0) + PayValue.tileSum x yb := PayValue.pay2_apply0 x yb s j

/-- The clearing store writes zero. -/
theorem out0_pay1 (j : S1x1.Idx) : k0_pay1 (F := Ideal) j = 0 := PayValue.pay1_apply0 j

/-- What the first point leaves in the accumulator, at its one index: the tile's sum (zero plus it). Stated over
    blocks of literal type, equal to the given ones. -/
theorem out0_pieceA (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i) (x0 : Vec Ideal S8192x64 .f32) (x1 : Vec Ideal S128x64 .f32)
    (X : Vec Ideal S8192x64 .f32) (Y : Vec Ideal S128x64 .f32) (hx : x0 = X) (hy : x1 = Y) (j : S1x1.Idx) :
    sout0_A c i arg1 harg1 arg2 harg2 arg3 harg3 arg4 harg4 hc0 hc1 x0 x1 j = PayValue.tileSum X Y := by
  subst hx hy
  refine (congrFun (sout0_A_eq (F := Ideal) c i arg1 harg1 arg2 harg2 arg3 harg3 arg4 harg4 hc0 hc1 x0 x1) j).trans ?_
  refine (out0_pay2 x0 x1 (k0_pay1 (F := Ideal)) j).trans ?_
  rw [out0_pay1, zero_add]

/-- What a middle point leaves there: what was there plus the tile's sum. -/
theorem out0_pieceB (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i) (x0 : Vec Ideal S8192x64 .f32) (x1 : Vec Ideal S128x64 .f32) (xs0 : Vec Ideal S1x1 .f32)
    (X : Vec Ideal S8192x64 .f32) (Y : Vec Ideal S128x64 .f32) (hx : x0 = X) (hy : x1 = Y) (j : S1x1.Idx) :
    sout0_B c i arg1 harg1 arg2 harg2 arg3 harg3 arg4 harg4 hc0 hc1 x0 x1 xs0 j = xs0 (ix2 0 0) + PayValue.tileSum X Y := by
  subst hx hy
  exact (congrFun (sout0_B_eq (F := Ideal) c i arg1 harg1 arg2 harg2 arg3 harg3 arg4 harg4 hc0 hc1 x0 x1 xs0) j).trans (out0_pay2 x0 x1 xs0 j)

/-- So does the last point, -/
theorem out0_pieceC (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec Ideal S8192x64 .f32) (x1 : Vec Ideal S128x64 .f32) (xs0 : Vec Ideal S1x1 .f32)
    (X : Vec Ideal S8192x64 .f32) (Y : Vec Ideal S128x64 .f32) (hx : x0 = X) (hy : x1 = Y) (j : S1x1.Idx) :
    sout0_C c i arg1 harg1 arg2 harg2 arg3 harg3 arg4 harg4 hc0 hc1 x0 x1 xs0 j = xs0 (ix2 0 0) + PayValue.tileSum X Y := by
  subst hx hy
  exact (congrFun (sout0_C_eq (F := Ideal) c i arg1 harg1 arg2 harg2 arg3 harg3 arg4 harg4 hc0 hc1 x0 x1 xs0) j).trans (out0_pay2 x0 x1 xs0 j)

/-- in the output block too. -/
theorem out0_pieceO (c : Dev nD) (i : grid0.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i) (x0 : Vec Ideal S8192x64 .f32) (x1 : Vec Ideal S128x64 .f32) (xs0 : Vec Ideal S1x1 .f32)
    (X : Vec Ideal S8192x64 .f32) (Y : Vec Ideal S128x64 .f32) (hx : x0 = X) (hy : x1 = Y) (j : S1x1.Idx) :
    out0_C c i arg1 harg1 arg2 harg2 arg3 harg3 arg4 harg4 hc0 hc1 x0 x1 xs0 j = xs0 (ix2 0 0) + PayValue.tileSum X Y := by
  subst hx hy
  exact (congrFun (out0_C_eq (F := Ideal) c i arg1 harg1 arg2 harg2 arg3 harg3 arg4 harg4 hc0 hc1 x0 x1 xs0) j).trans (out0_pay2 x0 x1 xs0 j)

end Cert.KernelIdeal.Hand

end
-- ==== Proof.LibPartialSum.lean ====
/-
  Partial sums over the first positions of a finite range.

  `upto n k` is the set of positions `b : Fin n` with `b ≤ k`. In any commutative additive monoid the sum over
  `upto n 0` is the summand at position `0`, passing from `k` to `k + 1` adds the summand at position `k + 1`, and
  once `k` reaches the last position the sum is the sum over all positions. This is what an accumulator that adds one
  term per step holds after each step, stated without reference to any order of evaluation.
-/
import Mathlib.Algebra.BigOperators.Fin

open scoped BigOperators

namespace Cert.Lib.PartialSum

variable {M : Type*} [AddCommMonoid M] {n : ℕ}

/-- The positions up to and including `k`. -/
def upto (n k : ℕ) : Finset (Fin n) := Finset.univ.filter fun b => b.val ≤ k

theorem mem_upto {k : ℕ} {b : Fin n} : b ∈ upto n k ↔ b.val ≤ k := by
  simp [upto]

/-- Up to position `0` there is one summand. -/
theorem sum_upto_zero (hn : 0 < n) (g : Fin n → M) : ∑ b ∈ upto n 0, g b = g ⟨0, hn⟩ := by
  have : upto n 0 = {⟨0, hn⟩} := by
    ext b
    rw [mem_upto, Finset.mem_singleton]
    exact ⟨fun h => Fin.ext (Nat.le_zero.mp h), fun h => by rw [h]⟩
  rw [this, Finset.sum_singleton]

/-- One more position adds its summand. -/
theorem sum_upto_succ (k : ℕ) (hk : k + 1 < n) (g : Fin n → M) :
    ∑ b ∈ upto n (k + 1), g b = ∑ b ∈ upto n k, g b + g ⟨k + 1, hk⟩ := by
  have hins : upto n (k + 1) = insert ⟨k + 1, hk⟩ (upto n k) := by
    ext b
    rw [Finset.mem_insert, mem_upto, mem_upto]
    constructor
    · intro h
      rcases Nat.lt_or_ge b.val (k + 1) with h' | h'
      · exact Or.inr (Nat.lt_succ_iff.mp h')
      · exact Or.inl (Fin.ext (Nat.le_antisymm h h'))
    · rintro (h | h)
      · rw [h]
      · exact Nat.le_succ_of_le h
  have hnot : (⟨k + 1, hk⟩ : Fin n) ∉ upto n k := by
    rw [mem_upto]; exact Nat.not_succ_le_self k
  rw [hins, Finset.sum_insert hnot, add_comm]

/-- Up to the last position the sum is the whole sum. -/
theorem sum_upto_last (k : ℕ) (hk : n ≤ k + 1) (g : Fin n → M) : ∑ b ∈ upto n k, g b = ∑ b, g b := by
  have : upto n k = Finset.univ := by
    ext b
    rw [mem_upto]
    exact ⟨fun _ => Finset.mem_univ _, fun _ => Nat.lt_succ_iff.mp (Nat.lt_of_lt_of_le b.isLt hk)⟩
  rw [this]

end Cert.Lib.PartialSum
-- ==== Proof.LibRunningSum.lean ====
/-
  An accumulator that adds one term per step holds, after each step, the sum of the terms so far.

  Let `a n` be the contents after step `n` of a run of `N` steps, and `g b` the term step `b` adds. If the first step
  leaves `g 0` and every later step leaves what was there plus its own term, then `a n` is the sum of `g` over the
  steps up to `n`: by induction on `n`. Stated over any commutative additive monoid and any length `N`, so that it is
  used at a grid's size without that size ever being computed.
-/
import proofs.«123961_j29377576305361_1_alg».proof.Proof.LibPartialSum

open scoped BigOperators

namespace Cert.Lib.RunningSum

open Cert.Lib.PartialSum

variable {M : Type*} [AddCommMonoid M] {N : ℕ}

theorem eq_sum_upto (a : (n : ℕ) → n < N → M) (g : Fin N → M) (h0 : ∀ h : 0 < N, a 0 h = g ⟨0, h⟩)
    (hs : ∀ (n : ℕ) (h : n + 1 < N), a (n + 1) h = a n (Nat.lt_of_succ_lt h) + g ⟨n + 1, h⟩) :
    ∀ (n : ℕ) (h : n < N), a n h = ∑ b ∈ upto N n, g b
  | 0, h => by rw [sum_upto_zero h, h0 h]
  | n + 1, h => by rw [sum_upto_succ n h, hs n h, eq_sum_upto a g h0 hs n (Nat.lt_of_succ_lt h)]

end Cert.Lib.RunningSum
-- ==== Proof.KI.R0Value.lean ====
import proofs.«123961_j29377576305361_1_alg».proof.Proof.KI.R0ValueA
import proofs.«123961_j29377576305361_1_alg».proof.Proof.LibRunningSum
import proofs.«123961_j29377576305361_1_alg».proof.Proof.LibPartialSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! # Kernel call 0: what it leaves in its output array, at the ideal values

At every point the body reads the whole first operand and block t of the second (rows 128·t … 128·t + 127). So the
accumulator after point t holds the sum of the tiles' sums up to t; the last point copies it into the 1×1 output
block, which is the whole output array; and the 64 tiles' sums add up to the sum of the kernel values over all pairs
of rows. -/

/-! ## The blocks the body reads -/

section Values

variable (V : (c : Dev nD) → (b : Ref sig .tc) → Buf (Elt Ideal) ((c : Thread nD τ).loc b))

/-- Window 0's block index is (0, 0) at every point; -/
theorem blk0_idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- window 1's is (t, 0) at point t; -/
theorem blk0_idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 0's block is the whole first operand at every point: its block index is (0, 0) and its block has the
    array's sizes, so entry (p, k) of the block is entry (0·8192 + p, 0·64 + k) of the array. -/
theorem blk0_0 (c : Dev nD) (t : Fin cfg0.N) : iblk0 V c 0 t = V c (Pipeline.arrRef spec0 0) := by
  funext j
  unfold iblk0
  rw [View.read_apply]
  show V c (Pipeline.arrRef spec0 0) (((cfg0.win 0).blk t).view.emb j) = V c (Pipeline.arrRef spec0 0) j
  refine congrArg (V c (Pipeline.arrRef spec0 0)) ?_
  funext a
  apply Fin.ext
  match a with
  | ⟨0, _⟩ => show win0_0.index t 0 * 8192 + 1 * (j 0).val = (j 0).val; rw [(blk0_idx0 t).1]; omega
  | ⟨1, _⟩ => show win0_0.index t 1 * 64 + 1 * (j 1).val = (j 1).val; rw [(blk0_idx0 t).2]; omega

/-- Window 1's block at point t is block t of the second operand: entry (l, k) of the block is entry
    (t·128 + l, 0·64 + k) of the array. -/
theorem blk0_1 (c : Dev nD) (t : Fin cfg0.N) :
    iblk0 V c 1 t = PayValue.yblk (V c (Pipeline.arrRef spec0 1)) ⟨t.val, by have := t.isLt; have : cfg0.N = 64 := N_0; omega⟩ := by
  funext j
  unfold iblk0 PayValue.yblk
  rw [View.read_apply]
  show V c (Pipeline.arrRef spec0 1) (((cfg0.win 1).blk t).view.emb j)
    = V c (Pipeline.arrRef spec0 1) (ix2 ⟨128 * t.val + (j 0).val, _⟩ (j 1))
  refine congrArg (V c (Pipeline.arrRef spec0 1)) ?_
  funext a
  apply Fin.ext
  match a with
  | ⟨0, _⟩ => show win0_1.index t 0 * 128 + 1 * (j 0).val = 128 * t.val + (j 0).val; rw [(blk0_idx1 t).1]; omega
  | ⟨1, _⟩ => show win0_1.index t 1 * 64 + 1 * (j 1).val = (j 1).val; rw [(blk0_idx1 t).2]; omega

/-! ## The accumulator, point by point -/

/-- The sum a tile contributes: all rows of the first operand against block b of the second. -/
abbrev out0_tile (c : Dev nD) (b : Fin 64) : EReal :=
  PayValue.tileSum (V c (Pipeline.arrRef spec0 0)) (PayValue.yblk (V c (Pipeline.arrRef spec0 1)) b)

/-- After the first point the accumulator holds the first tile's sum. -/
theorem out0_accZero (c : Dev nD) (h0 : 0 < cfg0.N) (j : S1x1.Idx) :
    (outsAt0 V c 0 h0).2 j = out0_tile V c ⟨0, by norm_num⟩ := by
  rw [outsAt0_A V c ⟨0, h0⟩ rfl (show ¬(0 : ℕ) = 63 by decide)]
  dsimp only
  exact out0_pieceA c (grid0.coords ⟨0, h0⟩) (ms0_0 ⟨0, h0⟩) (hs0_0 ⟨0, h0⟩) (ms0_1 ⟨0, h0⟩) (hs0_1 ⟨0, h0⟩) (ms0_2 ⟨0, h0⟩) (hs0_2 ⟨0, h0⟩)
    scM0 (Memref.isWhole_whole _) _ _ (iblk0 V c 0 ⟨0, h0⟩) (iblk0 V c 1 ⟨0, h0⟩)
    (V c (Pipeline.arrRef spec0 0)) (PayValue.yblk (V c (Pipeline.arrRef spec0 1)) ⟨0, by norm_num⟩)
    (blk0_0 V c ⟨0, h0⟩) (blk0_1 V c ⟨0, h0⟩) j

/-- Every later point adds its tile's sum to what the point before left. -/
theorem out0_accStep (c : Dev nD) (n : ℕ) (hn : n + 1 < cfg0.N) (h64 : n + 1 < 64) (j : S1x1.Idx) :
    (outsAt0 V c (n + 1) hn).2 j = (outsAt0 V c n (Nat.lt_of_succ_lt hn)).2 (ix2 0 0) + out0_tile V c ⟨n + 1, h64⟩ := by
  by_cases h1 : n + 1 = 63
  · rw [outsAt0_C V c ⟨n + 1, hn⟩ (Nat.succ_ne_zero n) h1]
    dsimp only
    exact out0_pieceC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      scM0 (Memref.isWhole_whole _) _ _ (iblk0 V c 0 ⟨n + 1, hn⟩) (iblk0 V c 1 ⟨n + 1, hn⟩) (outsAt0 V c n (Nat.lt_of_succ_lt hn)).2
      (V c (Pipeline.arrRef spec0 0)) (PayValue.yblk (V c (Pipeline.arrRef spec0 1)) ⟨n + 1, h64⟩)
      (blk0_0 V c ⟨n + 1, hn⟩) (blk0_1 V c ⟨n + 1, hn⟩) j
  · rw [outsAt0_B V c ⟨n + 1, hn⟩ (Nat.succ_ne_zero n) h1]
    dsimp only
    exact out0_pieceB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      scM0 (Memref.isWhole_whole _) _ _ (iblk0 V c 0 ⟨n + 1, hn⟩) (iblk0 V c 1 ⟨n + 1, hn⟩) (outsAt0 V c n (Nat.lt_of_succ_lt hn)).2
      (V c (Pipeline.arrRef spec0 0)) (PayValue.yblk (V c (Pipeline.arrRef spec0 1)) ⟨n + 1, h64⟩)
      (blk0_0 V c ⟨n + 1, hn⟩) (blk0_1 V c ⟨n + 1, hn⟩) j

/-- So after point t the accumulator holds the sum of the tiles' sums up to t: it starts at the first term and adds
    one term per point. -/
theorem acc0 (c : Dev nD) (t : Fin cfg0.N) (j : S1x1.Idx) :
    (outsAt0 V c t.val t.isLt).2 j
      = ∑ b ∈ Cert.Lib.PartialSum.upto 64 t.val,
          PayValue.tileSum (V c (Pipeline.arrRef spec0 0)) (PayValue.yblk (V c (Pipeline.arrRef spec0 1)) b) := by
  have hN : cfg0.N = 64 := N_0
  have key := Cert.Lib.RunningSum.eq_sum_upto (N := 64)
    (fun n h => (outsAt0 V c n (lt_of_lt_of_eq h hN.symm)).2 (ix2 0 0)) (fun b => out0_tile V c b)
    (fun h => out0_accZero V c (lt_of_lt_of_eq h hN.symm) (ix2 0 0))
    (fun n h => out0_accStep V c n (lt_of_lt_of_eq h hN.symm) h (ix2 0 0))
    t.val (lt_of_lt_of_eq t.isLt hN)
  rw [PayValue.idx11 j]
  exact key

/-! ## The output block at the last point, and the output array -/

/-- At the last point the output block holds the sum of the kernel values over all pairs of rows: the accumulator
    after the point before plus the last tile's sum is the sum of all 64 tiles' sums. -/
theorem out0_lastAt (c : Dev nD) (n : ℕ) (hn : n + 1 < cfg0.N) (h1 : n + 1 = 63) (j : S1x1.Idx) :
    (outsAt0 V c (n + 1) hn).1 j = Cert.Spec.total (V c (Pipeline.arrRef spec0 0)) (V c (Pipeline.arrRef spec0 1)) := by
  have h64 : n + 1 < 64 := by omega
  rw [outsAt0_C V c ⟨n + 1, hn⟩ (Nat.succ_ne_zero n) h1]
  dsimp only
  refine (out0_pieceO c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      scM0 (Memref.isWhole_whole _) _ _ (iblk0 V c 0 ⟨n + 1, hn⟩) (iblk0 V c 1 ⟨n + 1, hn⟩) (outsAt0 V c n (Nat.lt_of_succ_lt hn)).2
      (V c (Pipeline.arrRef spec0 0)) (PayValue.yblk (V c (Pipeline.arrRef spec0 1)) ⟨n + 1, h64⟩)
      (blk0_0 V c ⟨n + 1, hn⟩) (blk0_1 V c ⟨n + 1, hn⟩) j).trans ?_
  rw [acc0 V c ⟨n, Nat.lt_of_succ_lt hn⟩ (ix2 0 0)]
  refine (Cert.Lib.PartialSum.sum_upto_succ n h64 (fun b => out0_tile V c b)).symm.trans ?_
  refine (Cert.Lib.PartialSum.sum_upto_last (n + 1) (by omega) (fun b => out0_tile V c b)).trans ?_
  exact PayValue.total_of_tiles (V c (Pipeline.arrRef spec0 0)) (V c (Pipeline.arrRef spec0 1))

/-- The same at the point's number. -/
theorem out0_last (c : Dev nD) (h63 : 63 < cfg0.N) (j : S1x1.Idx) :
    (outsAt0 V c 63 h63).1 j = Cert.Spec.total (V c (Pipeline.arrRef spec0 0)) (V c (Pipeline.arrRef spec0 1)) :=
  out0_lastAt V c 62 h63 rfl j

/-- Window 2's block index is (0, 0) at every point. -/
theorem blk0_idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The output array's final contents: the sum over all pairs of rows, at its one index. -/
abbrev out0_G (c : Dev nD) : Buf (Elt Ideal) ((cfg0.win 2).arr.view.loc (c : Thread nD τ)) :=
  fun _ => Cert.Spec.total (V c (Pipeline.arrRef spec0 0)) (V c (Pipeline.arrRef spec0 1))

/-- The only point that writes the output block back is the last one, and what it writes back — the whole block, the
    window being uncut — is constant at the sum over all pairs: the block's read of the constant array. -/
theorem out0_flushed (c : Dev nD) (t : Fin cfg0.N) (hf : (cfg0.win 2).flush t = true) :
    (dat0 V c).flushed 2 t = ((cfg0.win 2).blk t).view.read (Elt Ideal) (out0_G V c) := by
  have hN : cfg0.N = 64 := N_0
  have h63 : t.val = 63 := by have := (flush0_2 t).mp hf; have := t.isLt; omega
  obtain ⟨n, hn⟩ := t
  dsimp only at h63
  cases n with
  | zero => exact absurd h63 (by decide)
  | succ n =>
    funext j
    rw [View.read_apply]
    show (dat0 V c).after 2 ⟨n + 1, hn⟩ ((cfg0.win 2).xinj (grid0.coords ⟨n + 1, hn⟩) j)
      = Cert.Spec.total (V c (Pipeline.arrRef spec0 0)) (V c (Pipeline.arrRef spec0 1))
    rw [after0_2]
    exact out0_lastAt V c n hn h63 _

/-- The one index of the 1×1 output array lies in the last point's block: the block starts at (0·1, 0·1) and has
    sizes (1, 1). -/
theorem out0_cover (c : Dev nD) (i : ((cfg0.win 2).arr.view.loc (c : Thread nD τ)).2.ty.Idx) :
    ∃ t : Fin cfg0.N, (cfg0.win 2).flush t = true ∧ i ∈ ((cfg0.win 2).blk t).view.set := by
  have hN : cfg0.N = 64 := N_0
  have h63 : 63 < cfg0.N := by omega
  refine ⟨⟨63, h63⟩, (flush0_2 ⟨63, h63⟩).mpr rfl, ?_⟩
  show i ∈ ((View.whole (Pipeline.arrRef spec0 2)).slice ((cfg0.win 2).rect ⟨63, h63⟩)).set
  rw [View.set_slice_whole, Rect.mem_set_unit]
  intro a
  match a with
  | ⟨0, _⟩ =>
    have hi : (i 0).val < 1 := (i 0).isLt
    show win0_2.index ⟨63, h63⟩ 0 * 1 ≤ (i 0).val ∧ (i 0).val < win0_2.index ⟨63, h63⟩ 0 * 1 + 1
    rw [(blk0_idx2 ⟨63, h63⟩).1]; omega
  | ⟨1, _⟩ =>
    have hi : (i 1).val < 1 := (i 1).isLt
    show win0_2.index ⟨63, h63⟩ 1 * 1 ≤ (i 1).val ∧ (i 1).val < win0_2.index ⟨63, h63⟩ 1 * 1 + 1
    rw [(blk0_idx2 ⟨63, h63⟩).2]; omega

/-- So the call leaves its output array holding, at its one index, the sum of the kernel values over all pairs of
    rows of its two operands. -/
theorem final0 (c : Dev nD) :
    (dat0 V c).arrAt 2 cfg0.N = fun _ => Cert.Spec.total (V c (Pipeline.arrRef spec0 0)) (V c (Pipeline.arrRef spec0 1)) :=
  (dat0 V c).arrAt_eq_of_cover 2 (out0_G V c) (out0_flushed V c) (out0_cover c)

end Values

end Cert.KernelIdeal.Hand

end
-- ==== Proof.KI.R1ValueA.lean ====
import proofs.«123961_j29377576305361_1_alg».proof.Proof.KI.R1Frame
import proofs.«123961_j29377576305361_1_alg».proof.Proof.KIPay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! # Kernel call 0: what each point's stores leave, as values

Each control case of the body (first point, middle point, last point) leaves in the 1×1 accumulator the payload of its
last store there, and the last point leaves the same in the 1×1 output block. The payload is the accumulator as loaded
plus the sum of the kernel values of all rows of the first operand against the 128 rows of the point's block of the
second; at the first point the accumulator was just cleared, so the payload is that sum alone. -/

/-! ## The pieces the three runs found, read back -/

/-- The zero offsets of a rank-2 rectangle, as the constant function. -/
theorem blk1_hz : (![0, 0] : Fin 2 → Nat) = fun _ => 0 := funext fun a => by fin_cases a <;> rfl

/-- The first point leaves in the accumulator the payload of its second store: the tile's sum added to what its first
    store, the zero, left there (the accumulator is loaded back after the clearing store). -/
theorem sout1_A_eq (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S8192x64 .f32) (x1 : Vec F S128x64 .f32) :
    sout1_A c i arg1 harg1 arg2 harg2 arg3 harg3 arg4 harg4 hc0 hc1 x0 x1 = k1_pay2 x0 x1 (k1_pay1 (F := F)) := by
  unfold sout1_A
  rw [View.read_writes_eq_canon _ _ _ (scover1_A c i arg1 harg1 arg2 harg2 arg3 harg3 arg4 harg4 hc0 hc1 x0 x1)]
  unfold kernelRun1_A
  dsimp only
  sl_unfold_words
  rw [View.canon_cons_unit_zero (S := S1x1) blk1_hz, View.readCov_unit_zero (S := S1x1) _ blk1_hz]
  simp only [View.readAt_eq_ld, harg1.read_unread, harg2.read_unread, View.ld_unit_zero (S := S8192x64) blk1_hz,
    View.ld_unit_zero (S := S128x64) blk1_hz]

/-- A middle point leaves in the accumulator the payload of its one store: the tile's sum added to what was there. -/
theorem sout1_B_eq (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S8192x64 .f32) (x1 : Vec F S128x64 .f32) (xs0 : Vec F S1x1 .f32) :
    sout1_B c i arg1 harg1 arg2 harg2 arg3 harg3 arg4 harg4 hc0 hc1 x0 x1 xs0 = k1_pay2 x0 x1 xs0 := by
  unfold sout1_B
  rw [View.read_writes_eq_canon _ _ _ (scover1_B c i arg1 harg1 arg2 harg2 arg3 harg3 arg4 harg4 hc0 hc1 x0 x1 xs0)]
  unfold kernelRun1_B
  dsimp only
  sl_unfold_words
  rw [View.canon_unit_zero (S := S1x1) blk1_hz]
  simp only [View.readAt_eq_ld, harg1.read_unread, harg2.read_unread, harg4.read_unread, View.ld_unit_zero (S := S8192x64) blk1_hz,
    View.ld_unit_zero (S := S128x64) blk1_hz, View.ld_unit_zero (S := S1x1) blk1_hz]

/-- So does the last point. -/
theorem sout1_C_eq (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S8192x64 .f32) (x1 : Vec F S128x64 .f32) (xs0 : Vec F S1x1 .f32) :
    sout1_C c i arg1 harg1 arg2 harg2 arg3 harg3 arg4 harg4 hc0 hc1 x0 x1 xs0 = k1_pay2 x0 x1 xs0 := by
  unfold sout1_C
  rw [View.read_writes_eq_canon _ _ _ (scover1_C c i arg1 harg1 arg2 harg2 arg3 harg3 arg4 harg4 hc0 hc1 x0 x1 xs0)]
  unfold kernelRun1_C
  dsimp only
  sl_unfold_words
  rw [View.canon_unit_zero (S := S1x1) blk1_hz]
  simp only [View.readAt_eq_ld, harg1.read_unread, harg2.read_unread, harg4.read_unread, View.ld_unit_zero (S := S8192x64) blk1_hz,
    View.ld_unit_zero (S := S128x64) blk1_hz, View.ld_unit_zero (S := S1x1) blk1_hz]

/-- And the last point leaves the same in the output block: it stores there the accumulator as loaded back after its
    own store. -/
theorem out1_C_eq (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S8192x64 .f32) (x1 : Vec F S128x64 .f32) (xs0 : Vec F S1x1 .f32) :
    out1_C c i arg1 harg1 arg2 harg2 arg3 harg3 arg4 harg4 hc0 hc1 x0 x1 xs0 = k1_pay2 x0 x1 xs0 := by
  unfold out1_C
  rw [View.read_writes_eq_canon _ _ _ (cover1_C c i arg1 harg1 arg2 harg2 arg3 harg3 arg4 harg4 hc0 hc1 x0 x1 xs0)]
  unfold kernelRun1_C
  dsimp only
  sl_unfold_words
  rw [View.canon_unit_zero (S := S1x1) blk1_hz]
  simp only [View.readAt_eq_ld, harg1.read_unread, harg2.read_unread, harg4.read_unread, View.ld_unit_zero (S := S8192x64) blk1_hz,
    View.ld_unit_zero (S := S128x64) blk1_hz, View.ld_unit_zero (S := S1x1) blk1_hz, View.readCov_unit_zero (S := S1x1) _ blk1_hz]

/-! ## The payloads at the ideal values, under this call's names -/

/-- The stored value at its one index: the accumulator as loaded plus the tile's sum. -/
theorem out1_pay2 (x : Vec Ideal S8192x64 .f32) (yb : Vec Ideal S128x64 .f32) (s : Vec Ideal S1x1 .f32) (j : S1x1.Idx) :
    k1_pay2 (F := Ideal) x yb s j = s (ix2 0 0) + PayValue.tileSum x yb := PayValue.pay2_apply1 x yb s j

/-- The clearing store writes zero. -/
theorem out1_pay1 (j : S1x1.Idx) : k1_pay1 (F := Ideal) j = 0 := PayValue.pay1_apply1 j

/-- What the first point leaves in the accumulator, at its one index: the tile's sum (zero plus it). Stated over
    blocks of literal type, equal to the given ones. -/
theorem out1_pieceA (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec Ideal S8192x64 .f32) (x1 : Vec Ideal S128x64 .f32)
    (X : Vec Ideal S8192x64 .f32) (Y : Vec Ideal S128x64 .f32) (hx : x0 = X) (hy : x1 = Y) (j : S1x1.Idx) :
    sout1_A c i arg1 harg1 arg2 harg2 arg3 harg3 arg4 harg4 hc0 hc1 x0 x1 j = PayValue.tileSum X Y := by
  subst hx hy
  refine (congrFun (sout1_A_eq (F := Ideal) c i arg1 harg1 arg2 harg2 arg3 harg3 arg4 harg4 hc0 hc1 x0 x1) j).trans ?_
  refine (out1_pay2 x0 x1 (k1_pay1 (F := Ideal)) j).trans ?_
  rw [out1_pay1, zero_add]

/-- What a middle point leaves there: what was there plus the tile's sum. -/
theorem out1_pieceB (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec Ideal S8192x64 .f32) (x1 : Vec Ideal S128x64 .f32) (xs0 : Vec Ideal S1x1 .f32)
    (X : Vec Ideal S8192x64 .f32) (Y : Vec Ideal S128x64 .f32) (hx : x0 = X) (hy : x1 = Y) (j : S1x1.Idx) :
    sout1_B c i arg1 harg1 arg2 harg2 arg3 harg3 arg4 harg4 hc0 hc1 x0 x1 xs0 j = xs0 (ix2 0 0) + PayValue.tileSum X Y := by
  subst hx hy
  exact (congrFun (sout1_B_eq (F := Ideal) c i arg1 harg1 arg2 harg2 arg3 harg3 arg4 harg4 hc0 hc1 x0 x1 xs0) j).trans (out1_pay2 x0 x1 xs0 j)

/-- So does the last point, -/
theorem out1_pieceC (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec Ideal S8192x64 .f32) (x1 : Vec Ideal S128x64 .f32) (xs0 : Vec Ideal S1x1 .f32)
    (X : Vec Ideal S8192x64 .f32) (Y : Vec Ideal S128x64 .f32) (hx : x0 = X) (hy : x1 = Y) (j : S1x1.Idx) :
    sout1_C c i arg1 harg1 arg2 harg2 arg3 harg3 arg4 harg4 hc0 hc1 x0 x1 xs0 j = xs0 (ix2 0 0) + PayValue.tileSum X Y := by
  subst hx hy
  exact (congrFun (sout1_C_eq (F := Ideal) c i arg1 harg1 arg2 harg2 arg3 harg3 arg4 harg4 hc0 hc1 x0 x1 xs0) j).trans (out1_pay2 x0 x1 xs0 j)

/-- in the output block too. -/
theorem out1_pieceO (c : Dev nD) (i : grid1.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec Ideal S8192x64 .f32) (x1 : Vec Ideal S128x64 .f32) (xs0 : Vec Ideal S1x1 .f32)
    (X : Vec Ideal S8192x64 .f32) (Y : Vec Ideal S128x64 .f32) (hx : x0 = X) (hy : x1 = Y) (j : S1x1.Idx) :
    out1_C c i arg1 harg1 arg2 harg2 arg3 harg3 arg4 harg4 hc0 hc1 x0 x1 xs0 j = xs0 (ix2 0 0) + PayValue.tileSum X Y := by
  subst hx hy
  exact (congrFun (out1_C_eq (F := Ideal) c i arg1 harg1 arg2 harg2 arg3 harg3 arg4 harg4 hc0 hc1 x0 x1 xs0) j).trans (out1_pay2 x0 x1 xs0 j)

end Cert.KernelIdeal.Hand

end
-- ==== Proof.KI.R1Value.lean ====
import proofs.«123961_j29377576305361_1_alg».proof.Proof.KI.R1ValueA
import proofs.«123961_j29377576305361_1_alg».proof.Proof.LibRunningSum
import proofs.«123961_j29377576305361_1_alg».proof.Proof.LibPartialSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! # Kernel call 0: what it leaves in its output array, at the ideal values

At every point the body reads the whole first operand and block t of the second (rows 128·t … 128·t + 127). So the
accumulator after point t holds the sum of the tiles' sums up to t; the last point copies it into the 1×1 output
block, which is the whole output array; and the 64 tiles' sums add up to the sum of the kernel values over all pairs
of rows. -/

/-! ## The blocks the body reads -/

section Values

variable (V : (c : Dev nD) → (b : Ref sig .tc) → Buf (Elt Ideal) ((c : Thread nD τ).loc b))

/-- Window 0's block index is (0, 0) at every point; -/
theorem blk1_idx0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
/-- window 1's is (t, 0) at point t; -/
theorem blk1_idx1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- Window 0's block is the whole first operand at every point: its block index is (0, 0) and its block has the
    array's sizes, so entry (p, k) of the block is entry (0·8192 + p, 0·64 + k) of the array. -/
theorem blk1_0 (c : Dev nD) (t : Fin cfg1.N) : iblk1 V c 0 t = V c (Pipeline.arrRef spec1 0) := by
  funext j
  unfold iblk1
  rw [View.read_apply]
  show V c (Pipeline.arrRef spec1 0) (((cfg1.win 0).blk t).view.emb j) = V c (Pipeline.arrRef spec1 0) j
  refine congrArg (V c (Pipeline.arrRef spec1 0)) ?_
  funext a
  apply Fin.ext
  match a with
  | ⟨0, _⟩ => show win1_0.index t 0 * 8192 + 1 * (j 0).val = (j 0).val; rw [(blk1_idx0 t).1]; omega
  | ⟨1, _⟩ => show win1_0.index t 1 * 64 + 1 * (j 1).val = (j 1).val; rw [(blk1_idx0 t).2]; omega

/-- Window 1's block at point t is block t of the second operand: entry (l, k) of the block is entry
    (t·128 + l, 0·64 + k) of the array. -/
theorem blk1_1 (c : Dev nD) (t : Fin cfg1.N) :
    iblk1 V c 1 t = PayValue.yblk (V c (Pipeline.arrRef spec1 1)) ⟨t.val, by have := t.isLt; have : cfg1.N = 64 := N_1; omega⟩ := by
  funext j
  unfold iblk1 PayValue.yblk
  rw [View.read_apply]
  show V c (Pipeline.arrRef spec1 1) (((cfg1.win 1).blk t).view.emb j)
    = V c (Pipeline.arrRef spec1 1) (ix2 ⟨128 * t.val + (j 0).val, _⟩ (j 1))
  refine congrArg (V c (Pipeline.arrRef spec1 1)) ?_
  funext a
  apply Fin.ext
  match a with
  | ⟨0, _⟩ => show win1_1.index t 0 * 128 + 1 * (j 0).val = 128 * t.val + (j 0).val; rw [(blk1_idx1 t).1]; omega
  | ⟨1, _⟩ => show win1_1.index t 1 * 64 + 1 * (j 1).val = (j 1).val; rw [(blk1_idx1 t).2]; omega

/-! ## The accumulator, point by point -/

/-- The sum a tile contributes: all rows of the first operand against block b of the second. -/
abbrev out1_tile (c : Dev nD) (b : Fin 64) : EReal :=
  PayValue.tileSum (V c (Pipeline.arrRef spec1 0)) (PayValue.yblk (V c (Pipeline.arrRef spec1 1)) b)

/-- After the first point the accumulator holds the first tile's sum. -/
theorem out1_accZero (c : Dev nD) (h0 : 0 < cfg1.N) (j : S1x1.Idx) :
    (outsAt1 V c 0 h0).2 j = out1_tile V c ⟨0, by norm_num⟩ := by
  rw [outsAt1_A V c ⟨0, h0⟩ rfl (show ¬(0 : ℕ) = 63 by decide)]
  dsimp only
  exact out1_pieceA c (grid1.coords ⟨0, h0⟩) (ms1_0 ⟨0, h0⟩) (hs1_0 ⟨0, h0⟩) (ms1_1 ⟨0, h0⟩) (hs1_1 ⟨0, h0⟩) (ms1_2 ⟨0, h0⟩) (hs1_2 ⟨0, h0⟩)
    scM1 (Memref.isWhole_whole _) _ _ (iblk1 V c 0 ⟨0, h0⟩) (iblk1 V c 1 ⟨0, h0⟩)
    (V c (Pipeline.arrRef spec1 0)) (PayValue.yblk (V c (Pipeline.arrRef spec1 1)) ⟨0, by norm_num⟩)
    (blk1_0 V c ⟨0, h0⟩) (blk1_1 V c ⟨0, h0⟩) j

/-- Every later point adds its tile's sum to what the point before left. -/
theorem out1_accStep (c : Dev nD) (n : ℕ) (hn : n + 1 < cfg1.N) (h64 : n + 1 < 64) (j : S1x1.Idx) :
    (outsAt1 V c (n + 1) hn).2 j = (outsAt1 V c n (Nat.lt_of_succ_lt hn)).2 (ix2 0 0) + out1_tile V c ⟨n + 1, h64⟩ := by
  by_cases h1 : n + 1 = 63
  · rw [outsAt1_C V c ⟨n + 1, hn⟩ (Nat.succ_ne_zero n) h1]
    dsimp only
    exact out1_pieceC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
      scM1 (Memref.isWhole_whole _) _ _ (iblk1 V c 0 ⟨n + 1, hn⟩) (iblk1 V c 1 ⟨n + 1, hn⟩) (outsAt1 V c n (Nat.lt_of_succ_lt hn)).2
      (V c (Pipeline.arrRef spec1 0)) (PayValue.yblk (V c (Pipeline.arrRef spec1 1)) ⟨n + 1, h64⟩)
      (blk1_0 V c ⟨n + 1, hn⟩) (blk1_1 V c ⟨n + 1, hn⟩) j
  · rw [outsAt1_B V c ⟨n + 1, hn⟩ (Nat.succ_ne_zero n) h1]
    dsimp only
    exact out1_pieceB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
      scM1 (Memref.isWhole_whole _) _ _ (iblk1 V c 0 ⟨n + 1, hn⟩) (iblk1 V c 1 ⟨n + 1, hn⟩) (outsAt1 V c n (Nat.lt_of_succ_lt hn)).2
      (V c (Pipeline.arrRef spec1 0)) (PayValue.yblk (V c (Pipeline.arrRef spec1 1)) ⟨n + 1, h64⟩)
      (blk1_0 V c ⟨n + 1, hn⟩) (blk1_1 V c ⟨n + 1, hn⟩) j

/-- So after point t the accumulator holds the sum of the tiles' sums up to t: it starts at the first term and adds
    one term per point. -/
theorem acc1 (c : Dev nD) (t : Fin cfg1.N) (j : S1x1.Idx) :
    (outsAt1 V c t.val t.isLt).2 j
      = ∑ b ∈ Cert.Lib.PartialSum.upto 64 t.val,
          PayValue.tileSum (V c (Pipeline.arrRef spec1 0)) (PayValue.yblk (V c (Pipeline.arrRef spec1 1)) b) := by
  have hN : cfg1.N = 64 := N_1
  have key := Cert.Lib.RunningSum.eq_sum_upto (N := 64)
    (fun n h => (outsAt1 V c n (lt_of_lt_of_eq h hN.symm)).2 (ix2 0 0)) (fun b => out1_tile V c b)
    (fun h => out1_accZero V c (lt_of_lt_of_eq h hN.symm) (ix2 0 0))
    (fun n h => out1_accStep V c n (lt_of_lt_of_eq h hN.symm) h (ix2 0 0))
    t.val (lt_of_lt_of_eq t.isLt hN)
  rw [PayValue.idx11 j]
  exact key

/-! ## The output block at the last point, and the output array -/

/-- At the last point the output block holds the sum of the kernel values over all pairs of rows: the accumulator
    after the point before plus the last tile's sum is the sum of all 64 tiles' sums. -/
theorem out1_lastAt (c : Dev nD) (n : ℕ) (hn : n + 1 < cfg1.N) (h1 : n + 1 = 63) (j : S1x1.Idx) :
    (outsAt1 V c (n + 1) hn).1 j = Cert.Spec.total (V c (Pipeline.arrRef spec1 0)) (V c (Pipeline.arrRef spec1 1)) := by
  have h64 : n + 1 < 64 := by omega
  rw [outsAt1_C V c ⟨n + 1, hn⟩ (Nat.succ_ne_zero n) h1]
  dsimp only
  refine (out1_pieceO c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
      scM1 (Memref.isWhole_whole _) _ _ (iblk1 V c 0 ⟨n + 1, hn⟩) (iblk1 V c 1 ⟨n + 1, hn⟩) (outsAt1 V c n (Nat.lt_of_succ_lt hn)).2
      (V c (Pipeline.arrRef spec1 0)) (PayValue.yblk (V c (Pipeline.arrRef spec1 1)) ⟨n + 1, h64⟩)
      (blk1_0 V c ⟨n + 1, hn⟩) (blk1_1 V c ⟨n + 1, hn⟩) j).trans ?_
  rw [acc1 V c ⟨n, Nat.lt_of_succ_lt hn⟩ (ix2 0 0)]
  refine (Cert.Lib.PartialSum.sum_upto_succ n h64 (fun b => out1_tile V c b)).symm.trans ?_
  refine (Cert.Lib.PartialSum.sum_upto_last (n + 1) (by omega) (fun b => out1_tile V c b)).trans ?_
  exact PayValue.total_of_tiles (V c (Pipeline.arrRef spec1 0)) (V c (Pipeline.arrRef spec1 1))

/-- The same at the point's number. -/
theorem out1_last (c : Dev nD) (h63 : 63 < cfg1.N) (j : S1x1.Idx) :
    (outsAt1 V c 63 h63).1 j = Cert.Spec.total (V c (Pipeline.arrRef spec1 0)) (V c (Pipeline.arrRef spec1 1)) :=
  out1_lastAt V c 62 h63 rfl j

/-- Window 2's block index is (0, 0) at every point. -/
theorem blk1_idx2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- The output array's final contents: the sum over all pairs of rows, at its one index. -/
abbrev out1_G (c : Dev nD) : Buf (Elt Ideal) ((cfg1.win 2).arr.view.loc (c : Thread nD τ)) :=
  fun _ => Cert.Spec.total (V c (Pipeline.arrRef spec1 0)) (V c (Pipeline.arrRef spec1 1))

/-- The only point that writes the output block back is the last one, and what it writes back — the whole block, the
    window being uncut — is constant at the sum over all pairs: the block's read of the constant array. -/
theorem out1_flushed (c : Dev nD) (t : Fin cfg1.N) (hf : (cfg1.win 2).flush t = true) :
    (dat1 V c).flushed 2 t = ((cfg1.win 2).blk t).view.read (Elt Ideal) (out1_G V c) := by
  have hN : cfg1.N = 64 := N_1
  have h63 : t.val = 63 := by have := (flush1_2 t).mp hf; have := t.isLt; omega
  obtain ⟨n, hn⟩ := t
  dsimp only at h63
  cases n with
  | zero => exact absurd h63 (by decide)
  | succ n =>
    funext j
    rw [View.read_apply]
    show (dat1 V c).after 2 ⟨n + 1, hn⟩ ((cfg1.win 2).xinj (grid1.coords ⟨n + 1, hn⟩) j)
      = Cert.Spec.total (V c (Pipeline.arrRef spec1 0)) (V c (Pipeline.arrRef spec1 1))
    rw [after1_2]
    exact out1_lastAt V c n hn h63 _

/-- The one index of the 1×1 output array lies in the last point's block: the block starts at (0·1, 0·1) and has
    sizes (1, 1). -/
theorem out1_cover (c : Dev nD) (i : ((cfg1.win 2).arr.view.loc (c : Thread nD τ)).2.ty.Idx) :
    ∃ t : Fin cfg1.N, (cfg1.win 2).flush t = true ∧ i ∈ ((cfg1.win 2).blk t).view.set := by
  have hN : cfg1.N = 64 := N_1
  have h63 : 63 < cfg1.N := by omega
  refine ⟨⟨63, h63⟩, (flush1_2 ⟨63, h63⟩).mpr rfl, ?_⟩
  show i ∈ ((View.whole (Pipeline.arrRef spec1 2)).slice ((cfg1.win 2).rect ⟨63, h63⟩)).set
  rw [View.set_slice_whole, Rect.mem_set_unit]
  intro a
  match a with
  | ⟨0, _⟩ =>
    have hi : (i 0).val < 1 := (i 0).isLt
    show win1_2.index ⟨63, h63⟩ 0 * 1 ≤ (i 0).val ∧ (i 0).val < win1_2.index ⟨63, h63⟩ 0 * 1 + 1
    rw [(blk1_idx2 ⟨63, h63⟩).1]; omega
  | ⟨1, _⟩ =>
    have hi : (i 1).val < 1 := (i 1).isLt
    show win1_2.index ⟨63, h63⟩ 1 * 1 ≤ (i 1).val ∧ (i 1).val < win1_2.index ⟨63, h63⟩ 1 * 1 + 1
    rw [(blk1_idx2 ⟨63, h63⟩).2]; omega

/-- So the call leaves its output array holding, at its one index, the sum of the kernel values over all pairs of
    rows of its two operands. -/
theorem final1 (c : Dev nD) :
    (dat1 V c).arrAt 2 cfg1.N = fun _ => Cert.Spec.total (V c (Pipeline.arrRef spec1 0)) (V c (Pipeline.arrRef spec1 1)) :=
  (dat1 V c).arrAt_eq_of_cover 2 (out1_G V c) (out1_flushed V c) (out1_cover c)

end Values

end Cert.KernelIdeal.Hand

end
-- ==== Proof.KI.R2ValueA.lean ====
import proofs.«123961_j29377576305361_1_alg».proof.Proof.KI.R2Frame
import proofs.«123961_j29377576305361_1_alg».proof.Proof.KIPay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! # Kernel call 0: what each point's stores leave, as values

Each control case of the body (first point, middle point, last point) leaves in the 1×1 accumulator the payload of its
last store there, and the last point leaves the same in the 1×1 output block. The payload is the accumulator as loaded
plus the sum of the kernel values of all rows of the first operand against the 128 rows of the point's block of the
second; at the first point the accumulator was just cleared, so the payload is that sum alone. -/

/-! ## The pieces the three runs found, read back -/

/-- The zero offsets of a rank-2 rectangle, as the constant function. -/
theorem blk2_hz : (![0, 0] : Fin 2 → Nat) = fun _ => 0 := funext fun a => by fin_cases a <;> rfl

/-- The first point leaves in the accumulator the payload of its second store: the tile's sum added to what its first
    store, the zero, left there (the accumulator is loaded back after the clearing store). -/
theorem sout2_A_eq (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec F S8192x64 .f32) (x1 : Vec F S128x64 .f32) :
    sout2_A c i arg1 harg1 arg2 harg2 arg3 harg3 arg4 harg4 hc0 hc1 x0 x1 = k2_pay2 x0 x1 (k2_pay1 (F := F)) := by
  unfold sout2_A
  rw [View.read_writes_eq_canon _ _ _ (scover2_A c i arg1 harg1 arg2 harg2 arg3 harg3 arg4 harg4 hc0 hc1 x0 x1)]
  unfold kernelRun2_A
  dsimp only
  sl_unfold_words
  rw [View.canon_cons_unit_zero (S := S1x1) blk2_hz, View.readCov_unit_zero (S := S1x1) _ blk2_hz]
  simp only [View.readAt_eq_ld, harg1.read_unread, harg2.read_unread, View.ld_unit_zero (S := S8192x64) blk2_hz,
    View.ld_unit_zero (S := S128x64) blk2_hz]

/-- A middle point leaves in the accumulator the payload of its one store: the tile's sum added to what was there. -/
theorem sout2_B_eq (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec F S8192x64 .f32) (x1 : Vec F S128x64 .f32) (xs0 : Vec F S1x1 .f32) :
    sout2_B c i arg1 harg1 arg2 harg2 arg3 harg3 arg4 harg4 hc0 hc1 x0 x1 xs0 = k2_pay2 x0 x1 xs0 := by
  unfold sout2_B
  rw [View.read_writes_eq_canon _ _ _ (scover2_B c i arg1 harg1 arg2 harg2 arg3 harg3 arg4 harg4 hc0 hc1 x0 x1 xs0)]
  unfold kernelRun2_B
  dsimp only
  sl_unfold_words
  rw [View.canon_unit_zero (S := S1x1) blk2_hz]
  simp only [View.readAt_eq_ld, harg1.read_unread, harg2.read_unread, harg4.read_unread, View.ld_unit_zero (S := S8192x64) blk2_hz,
    View.ld_unit_zero (S := S128x64) blk2_hz, View.ld_unit_zero (S := S1x1) blk2_hz]

/-- So does the last point. -/
theorem sout2_C_eq (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S8192x64 .f32) (x1 : Vec F S128x64 .f32) (xs0 : Vec F S1x1 .f32) :
    sout2_C c i arg1 harg1 arg2 harg2 arg3 harg3 arg4 harg4 hc0 hc1 x0 x1 xs0 = k2_pay2 x0 x1 xs0 := by
  unfold sout2_C
  rw [View.read_writes_eq_canon _ _ _ (scover2_C c i arg1 harg1 arg2 harg2 arg3 harg3 arg4 harg4 hc0 hc1 x0 x1 xs0)]
  unfold kernelRun2_C
  dsimp only
  sl_unfold_words
  rw [View.canon_unit_zero (S := S1x1) blk2_hz]
  simp only [View.readAt_eq_ld, harg1.read_unread, harg2.read_unread, harg4.read_unread, View.ld_unit_zero (S := S8192x64) blk2_hz,
    View.ld_unit_zero (S := S128x64) blk2_hz, View.ld_unit_zero (S := S1x1) blk2_hz]

/-- And the last point leaves the same in the output block: it stores there the accumulator as loaded back after its
    own store. -/
theorem out2_C_eq (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec F S8192x64 .f32) (x1 : Vec F S128x64 .f32) (xs0 : Vec F S1x1 .f32) :
    out2_C c i arg1 harg1 arg2 harg2 arg3 harg3 arg4 harg4 hc0 hc1 x0 x1 xs0 = k2_pay2 x0 x1 xs0 := by
  unfold out2_C
  rw [View.read_writes_eq_canon _ _ _ (cover2_C c i arg1 harg1 arg2 harg2 arg3 harg3 arg4 harg4 hc0 hc1 x0 x1 xs0)]
  unfold kernelRun2_C
  dsimp only
  sl_unfold_words
  rw [View.canon_unit_zero (S := S1x1) blk2_hz]
  simp only [View.readAt_eq_ld, harg1.read_unread, harg2.read_unread, harg4.read_unread, View.ld_unit_zero (S := S8192x64) blk2_hz,
    View.ld_unit_zero (S := S128x64) blk2_hz, View.ld_unit_zero (S := S1x1) blk2_hz, View.readCov_unit_zero (S := S1x1) _ blk2_hz]

/-! ## The payloads at the ideal values, under this call's names -/

/-- The stored value at its one index: the accumulator as loaded plus the tile's sum. -/
theorem out2_pay2 (x : Vec Ideal S8192x64 .f32) (yb : Vec Ideal S128x64 .f32) (s : Vec Ideal S1x1 .f32) (j : S1x1.Idx) :
    k2_pay2 (F := Ideal) x yb s j = s (ix2 0 0) + PayValue.tileSum x yb := PayValue.pay2_apply2 x yb s j

/-- The clearing store writes zero. -/
theorem out2_pay1 (j : S1x1.Idx) : k2_pay1 (F := Ideal) j = 0 := PayValue.pay1_apply2 j

/-- What the first point leaves in the accumulator, at its one index: the tile's sum (zero plus it). Stated over
    blocks of literal type, equal to the given ones. -/
theorem out2_pieceA (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i) (x0 : Vec Ideal S8192x64 .f32) (x1 : Vec Ideal S128x64 .f32)
    (X : Vec Ideal S8192x64 .f32) (Y : Vec Ideal S128x64 .f32) (hx : x0 = X) (hy : x1 = Y) (j : S1x1.Idx) :
    sout2_A c i arg1 harg1 arg2 harg2 arg3 harg3 arg4 harg4 hc0 hc1 x0 x1 j = PayValue.tileSum X Y := by
  subst hx hy
  refine (congrFun (sout2_A_eq (F := Ideal) c i arg1 harg1 arg2 harg2 arg3 harg3 arg4 harg4 hc0 hc1 x0 x1) j).trans ?_
  refine (out2_pay2 x0 x1 (k2_pay1 (F := Ideal)) j).trans ?_
  rw [out2_pay1, zero_add]

/-- What a middle point leaves there: what was there plus the tile's sum. -/
theorem out2_pieceB (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i) (x0 : Vec Ideal S8192x64 .f32) (x1 : Vec Ideal S128x64 .f32) (xs0 : Vec Ideal S1x1 .f32)
    (X : Vec Ideal S8192x64 .f32) (Y : Vec Ideal S128x64 .f32) (hx : x0 = X) (hy : x1 = Y) (j : S1x1.Idx) :
    sout2_B c i arg1 harg1 arg2 harg2 arg3 harg3 arg4 harg4 hc0 hc1 x0 x1 xs0 j = xs0 (ix2 0 0) + PayValue.tileSum X Y := by
  subst hx hy
  exact (congrFun (sout2_B_eq (F := Ideal) c i arg1 harg1 arg2 harg2 arg3 harg3 arg4 harg4 hc0 hc1 x0 x1 xs0) j).trans (out2_pay2 x0 x1 xs0 j)

/-- So does the last point, -/
theorem out2_pieceC (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec Ideal S8192x64 .f32) (x1 : Vec Ideal S128x64 .f32) (xs0 : Vec Ideal S1x1 .f32)
    (X : Vec Ideal S8192x64 .f32) (Y : Vec Ideal S128x64 .f32) (hx : x0 = X) (hy : x1 = Y) (j : S1x1.Idx) :
    sout2_C c i arg1 harg1 arg2 harg2 arg3 harg3 arg4 harg4 hc0 hc1 x0 x1 xs0 j = xs0 (ix2 0 0) + PayValue.tileSum X Y := by
  subst hx hy
  exact (congrFun (sout2_C_eq (F := Ideal) c i arg1 harg1 arg2 harg2 arg3 harg3 arg4 harg4 hc0 hc1 x0 x1 xs0) j).trans (out2_pay2 x0 x1 xs0 j)

/-- in the output block too. -/
theorem out2_pieceO (c : Dev nD) (i : grid2.Coords) (arg1 : Memref sig .tc .vmem S8192x64 .f32) (harg1 : arg1.IsWhole) (arg2 : Memref sig .tc .vmem S128x64 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i) (x0 : Vec Ideal S8192x64 .f32) (x1 : Vec Ideal S128x64 .f32) (xs0 : Vec Ideal S1x1 .f32)
    (X : Vec Ideal S8192x64 .f32) (Y : Vec Ideal S128x64 .f32) (hx : x0 = X) (hy : x1 = Y) (j : S1x1.Idx) :
    out2_C c i arg1 harg1 arg2 harg2 arg3 harg3 arg4 harg4 hc0 hc1 x0 x1 xs0 j = xs0 (ix2 0 0) + PayValue.tileSum X Y := by
  subst hx hy
  exact (congrFun (out2_C_eq (F := Ideal) c i arg1 harg1 arg2 harg2 arg3 harg3 arg4 harg4 hc0 hc1 x0 x1 xs0) j).trans (out2_pay2 x0 x1 xs0 j)

end Cert.KernelIdeal.Hand

end
-- ==== Proof.KI.R2Value.lean ====
import proofs.«123961_j29377576305361_1_alg».proof.Proof.KI.R2ValueA
import proofs.«123961_j29377576305361_1_alg».proof.Proof.LibRunningSum
import proofs.«123961_j29377576305361_1_alg».proof.Proof.LibPartialSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! # Kernel call 0: what it leaves in its output array, at the ideal values

At every point the body reads the whole first operand and block t of the second (rows 128·t … 128·t + 127). So the
accumulator after point t holds the sum of the tiles' sums up to t; the last point copies it into the 1×1 output
block, which is the whole output array; and the 64 tiles' sums add up to the sum of the kernel values over all pairs
of rows. -/

/-! ## The blocks the body reads -/

section Values

variable (V : (c : Dev nD) → (b : Ref sig .tc) → Buf (Elt Ideal) ((c : Thread nD τ).loc b))

/-- Window 0's block index is (0, 0) at every point; -/
theorem blk2_idx0 : ∀ t : Fin cfg2.N, win2_0.index t (0 : Fin 2) = 0 ∧ win2_0.index t (1 : Fin 2) = 0 :=
  (by decide +kernel : ∀ t : Fin grid2.N, win2_0.index t (0 : Fin 2) = 0 ∧ win2_0.index t (1 : Fin 2) = 0)
/-- window 1's is (t, 0) at point t; -/
theorem blk2_idx1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)

/-- Window 0's block is the whole first operand at every point: its block index is (0, 0) and its block has the
    array's sizes, so entry (p, k) of the block is entry (0·8192 + p, 0·64 + k) of the array. -/
theorem blk2_0 (c : Dev nD) (t : Fin cfg2.N) : iblk2 V c 0 t = V c (Pipeline.arrRef spec2 0) := by
  funext j
  unfold iblk2
  rw [View.read_apply]
  show V c (Pipeline.arrRef spec2 0) (((cfg2.win 0).blk t).view.emb j) = V c (Pipeline.arrRef spec2 0) j
  refine congrArg (V c (Pipeline.arrRef spec2 0)) ?_
  funext a
  apply Fin.ext
  match a with
  | ⟨0, _⟩ => show win2_0.index t 0 * 8192 + 1 * (j 0).val = (j 0).val; rw [(blk2_idx0 t).1]; omega
  | ⟨1, _⟩ => show win2_0.index t 1 * 64 + 1 * (j 1).val = (j 1).val; rw [(blk2_idx0 t).2]; omega

/-- Window 1's block at point t is block t of the second operand: entry (l, k) of the block is entry
    (t·128 + l, 0·64 + k) of the array. -/
theorem blk2_1 (c : Dev nD) (t : Fin cfg2.N) :
    iblk2 V c 1 t = PayValue.yblk (V c (Pipeline.arrRef spec2 1)) ⟨t.val, by have := t.isLt; have : cfg2.N = 64 := N_2; omega⟩ := by
  funext j
  unfold iblk2 PayValue.yblk
  rw [View.read_apply]
  show V c (Pipeline.arrRef spec2 1) (((cfg2.win 1).blk t).view.emb j)
    = V c (Pipeline.arrRef spec2 1) (ix2 ⟨128 * t.val + (j 0).val, _⟩ (j 1))
  refine congrArg (V c (Pipeline.arrRef spec2 1)) ?_
  funext a
  apply Fin.ext
  match a with
  | ⟨0, _⟩ => show win2_1.index t 0 * 128 + 1 * (j 0).val = 128 * t.val + (j 0).val; rw [(blk2_idx1 t).1]; omega
  | ⟨1, _⟩ => show win2_1.index t 1 * 64 + 1 * (j 1).val = (j 1).val; rw [(blk2_idx1 t).2]; omega

/-! ## The accumulator, point by point -/

/-- The sum a tile contributes: all rows of the first operand against block b of the second. -/
abbrev out2_tile (c : Dev nD) (b : Fin 64) : EReal :=
  PayValue.tileSum (V c (Pipeline.arrRef spec2 0)) (PayValue.yblk (V c (Pipeline.arrRef spec2 1)) b)

/-- After the first point the accumulator holds the first tile's sum. -/
theorem out2_accZero (c : Dev nD) (h0 : 0 < cfg2.N) (j : S1x1.Idx) :
    (outsAt2 V c 0 h0).2 j = out2_tile V c ⟨0, by norm_num⟩ := by
  rw [outsAt2_A V c ⟨0, h0⟩ rfl (show ¬(0 : ℕ) = 63 by decide)]
  dsimp only
  exact out2_pieceA c (grid2.coords ⟨0, h0⟩) (ms2_0 ⟨0, h0⟩) (hs2_0 ⟨0, h0⟩) (ms2_1 ⟨0, h0⟩) (hs2_1 ⟨0, h0⟩) (ms2_2 ⟨0, h0⟩) (hs2_2 ⟨0, h0⟩)
    scM2 (Memref.isWhole_whole _) _ _ (iblk2 V c 0 ⟨0, h0⟩) (iblk2 V c 1 ⟨0, h0⟩)
    (V c (Pipeline.arrRef spec2 0)) (PayValue.yblk (V c (Pipeline.arrRef spec2 1)) ⟨0, by norm_num⟩)
    (blk2_0 V c ⟨0, h0⟩) (blk2_1 V c ⟨0, h0⟩) j

/-- Every later point adds its tile's sum to what the point before left. -/
theorem out2_accStep (c : Dev nD) (n : ℕ) (hn : n + 1 < cfg2.N) (h64 : n + 1 < 64) (j : S1x1.Idx) :
    (outsAt2 V c (n + 1) hn).2 j = (outsAt2 V c n (Nat.lt_of_succ_lt hn)).2 (ix2 0 0) + out2_tile V c ⟨n + 1, h64⟩ := by
  by_cases h1 : n + 1 = 63
  · rw [outsAt2_C V c ⟨n + 1, hn⟩ (Nat.succ_ne_zero n) h1]
    dsimp only
    exact out2_pieceC c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
      scM2 (Memref.isWhole_whole _) _ _ (iblk2 V c 0 ⟨n + 1, hn⟩) (iblk2 V c 1 ⟨n + 1, hn⟩) (outsAt2 V c n (Nat.lt_of_succ_lt hn)).2
      (V c (Pipeline.arrRef spec2 0)) (PayValue.yblk (V c (Pipeline.arrRef spec2 1)) ⟨n + 1, h64⟩)
      (blk2_0 V c ⟨n + 1, hn⟩) (blk2_1 V c ⟨n + 1, hn⟩) j
  · rw [outsAt2_B V c ⟨n + 1, hn⟩ (Nat.succ_ne_zero n) h1]
    dsimp only
    exact out2_pieceB c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
      scM2 (Memref.isWhole_whole _) _ _ (iblk2 V c 0 ⟨n + 1, hn⟩) (iblk2 V c 1 ⟨n + 1, hn⟩) (outsAt2 V c n (Nat.lt_of_succ_lt hn)).2
      (V c (Pipeline.arrRef spec2 0)) (PayValue.yblk (V c (Pipeline.arrRef spec2 1)) ⟨n + 1, h64⟩)
      (blk2_0 V c ⟨n + 1, hn⟩) (blk2_1 V c ⟨n + 1, hn⟩) j

/-- So after point t the accumulator holds the sum of the tiles' sums up to t: it starts at the first term and adds
    one term per point. -/
theorem acc2 (c : Dev nD) (t : Fin cfg2.N) (j : S1x1.Idx) :
    (outsAt2 V c t.val t.isLt).2 j
      = ∑ b ∈ Cert.Lib.PartialSum.upto 64 t.val,
          PayValue.tileSum (V c (Pipeline.arrRef spec2 0)) (PayValue.yblk (V c (Pipeline.arrRef spec2 1)) b) := by
  have hN : cfg2.N = 64 := N_2
  have key := Cert.Lib.RunningSum.eq_sum_upto (N := 64)
    (fun n h => (outsAt2 V c n (lt_of_lt_of_eq h hN.symm)).2 (ix2 0 0)) (fun b => out2_tile V c b)
    (fun h => out2_accZero V c (lt_of_lt_of_eq h hN.symm) (ix2 0 0))
    (fun n h => out2_accStep V c n (lt_of_lt_of_eq h hN.symm) h (ix2 0 0))
    t.val (lt_of_lt_of_eq t.isLt hN)
  rw [PayValue.idx11 j]
  exact key

/-! ## The output block at the last point, and the output array -/

/-- At the last point the output block holds the sum of the kernel values over all pairs of rows: the accumulator
    after the point before plus the last tile's sum is the sum of all 64 tiles' sums. -/
theorem out2_lastAt (c : Dev nD) (n : ℕ) (hn : n + 1 < cfg2.N) (h1 : n + 1 = 63) (j : S1x1.Idx) :
    (outsAt2 V c (n + 1) hn).1 j = Cert.Spec.total (V c (Pipeline.arrRef spec2 0)) (V c (Pipeline.arrRef spec2 1)) := by
  have h64 : n + 1 < 64 := by omega
  rw [outsAt2_C V c ⟨n + 1, hn⟩ (Nat.succ_ne_zero n) h1]
  dsimp only
  refine (out2_pieceO c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
      scM2 (Memref.isWhole_whole _) _ _ (iblk2 V c 0 ⟨n + 1, hn⟩) (iblk2 V c 1 ⟨n + 1, hn⟩) (outsAt2 V c n (Nat.lt_of_succ_lt hn)).2
      (V c (Pipeline.arrRef spec2 0)) (PayValue.yblk (V c (Pipeline.arrRef spec2 1)) ⟨n + 1, h64⟩)
      (blk2_0 V c ⟨n + 1, hn⟩) (blk2_1 V c ⟨n + 1, hn⟩) j).trans ?_
  rw [acc2 V c ⟨n, Nat.lt_of_succ_lt hn⟩ (ix2 0 0)]
  refine (Cert.Lib.PartialSum.sum_upto_succ n h64 (fun b => out2_tile V c b)).symm.trans ?_
  refine (Cert.Lib.PartialSum.sum_upto_last (n + 1) (by omega) (fun b => out2_tile V c b)).trans ?_
  exact PayValue.total_of_tiles (V c (Pipeline.arrRef spec2 0)) (V c (Pipeline.arrRef spec2 1))

/-- The same at the point's number. -/
theorem out2_last (c : Dev nD) (h63 : 63 < cfg2.N) (j : S1x1.Idx) :
    (outsAt2 V c 63 h63).1 j = Cert.Spec.total (V c (Pipeline.arrRef spec2 0)) (V c (Pipeline.arrRef spec2 1)) :=
  out2_lastAt V c 62 h63 rfl j

/-- Window 2's block index is (0, 0) at every point. -/
theorem blk2_idx2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-- The output array's final contents: the sum over all pairs of rows, at its one index. -/
abbrev out2_G (c : Dev nD) : Buf (Elt Ideal) ((cfg2.win 2).arr.view.loc (c : Thread nD τ)) :=
  fun _ => Cert.Spec.total (V c (Pipeline.arrRef spec2 0)) (V c (Pipeline.arrRef spec2 1))

/-- The only point that writes the output block back is the last one, and what it writes back — the whole block, the
    window being uncut — is constant at the sum over all pairs: the block's read of the constant array. -/
theorem out2_flushed (c : Dev nD) (t : Fin cfg2.N) (hf : (cfg2.win 2).flush t = true) :
    (dat2 V c).flushed 2 t = ((cfg2.win 2).blk t).view.read (Elt Ideal) (out2_G V c) := by
  have hN : cfg2.N = 64 := N_2
  have h63 : t.val = 63 := by have := (flush2_2 t).mp hf; have := t.isLt; omega
  obtain ⟨n, hn⟩ := t
  dsimp only at h63
  cases n with
  | zero => exact absurd h63 (by decide)
  | succ n =>
    funext j
    rw [View.read_apply]
    show (dat2 V c).after 2 ⟨n + 1, hn⟩ ((cfg2.win 2).xinj (grid2.coords ⟨n + 1, hn⟩) j)
      = Cert.Spec.total (V c (Pipeline.arrRef spec2 0)) (V c (Pipeline.arrRef spec2 1))
    rw [after2_2]
    exact out2_lastAt V c n hn h63 _

/-- The one index of the 1×1 output array lies in the last point's block: the block starts at (0·1, 0·1) and has
    sizes (1, 1). -/
theorem out2_cover (c : Dev nD) (i : ((cfg2.win 2).arr.view.loc (c : Thread nD τ)).2.ty.Idx) :
    ∃ t : Fin cfg2.N, (cfg2.win 2).flush t = true ∧ i ∈ ((cfg2.win 2).blk t).view.set := by
  have hN : cfg2.N = 64 := N_2
  have h63 : 63 < cfg2.N := by omega
  refine ⟨⟨63, h63⟩, (flush2_2 ⟨63, h63⟩).mpr rfl, ?_⟩
  show i ∈ ((View.whole (Pipeline.arrRef spec2 2)).slice ((cfg2.win 2).rect ⟨63, h63⟩)).set
  rw [View.set_slice_whole, Rect.mem_set_unit]
  intro a
  match a with
  | ⟨0, _⟩ =>
    have hi : (i 0).val < 1 := (i 0).isLt
    show win2_2.index ⟨63, h63⟩ 0 * 1 ≤ (i 0).val ∧ (i 0).val < win2_2.index ⟨63, h63⟩ 0 * 1 + 1
    rw [(blk2_idx2 ⟨63, h63⟩).1]; omega
  | ⟨1, _⟩ =>
    have hi : (i 1).val < 1 := (i 1).isLt
    show win2_2.index ⟨63, h63⟩ 1 * 1 ≤ (i 1).val ∧ (i 1).val < win2_2.index ⟨63, h63⟩ 1 * 1 + 1
    rw [(blk2_idx2 ⟨63, h63⟩).2]; omega

/-- So the call leaves its output array holding, at its one index, the sum of the kernel values over all pairs of
    rows of its two operands. -/
theorem final2 (c : Dev nD) :
    (dat2 V c).arrAt 2 cfg2.N = fun _ => Cert.Spec.total (V c (Pipeline.arrRef spec2 0)) (V c (Pipeline.arrRef spec2 1)) :=
  (dat2 V c).arrAt_eq_of_cover 2 (out2_G V c) (out2_flushed V c) (out2_cover c)

end Values

end Cert.KernelIdeal.Hand

end
-- ==== Proof.KI.Value.lean ====
/-
  The value of the program's result.

  The program's result array ends holding, whatever else the memory held,
      mmd z t = mean z z + mean t t − 2 · mean z t,     mean = (the sum of the kernel values over all pairs) / 2²⁶,
  for z, t the two argument arrays as launched. The buffer contents are folded through the program from the launch
  memory: each call replaces only its output array's contents, by the sum of the kernel values over all pairs of rows of
  the two arrays it was handed as they stood at its entry (`f0`, `f1`, `f2`: the three calls' final output arrays, hypotheses of
  `value_of_finals`, proved call by call and supplied in `value`); each stretch of host operations writes only its own results. The host operations around the calls
  divide each call's output by the number of pairs, add the first two quotients and subtract twice the third (the fold
  read at the result array). It remains to see that each call found the argument arrays as launched: no call's output
  array and no host operation's result is an argument array, so the fold read at an argument walks back to the launch
  memory. The three quotients combined are then the discrepancy by its definition (`mmd_of`).
-/
import proofs.«123961_j29377576305361_1_alg».proof.Proof.KI.Run
import proofs.«123961_j29377576305361_1_alg».proof.Proof.KI.Tail
import proofs.«123961_j29377576305361_1_alg».proof.Proof.KI.R0Value
import proofs.«123961_j29377576305361_1_alg».proof.Proof.KI.R1Value
import proofs.«123961_j29377576305361_1_alg».proof.Proof.KI.R2Value
import proofs.«123961_j29377576305361_1_alg».proof.Proof.Spec

noncomputable section

open scoped BigOperators

namespace Cert.KernelIdeal.Hand

open Cert.KernelIdeal Cert.KernelIdeal.Gen Idealize.ShloMosaic Idealize.ShloMosaic.ValueIdx Idealize.ShloMosaic.ValueLayout

/-- The three quotients combined are the discrepancy: its definition, with each sum over all pairs named. -/
theorem mmd_of (z t : Cert.Spec.SX.Idx → EReal) (a b d : EReal) (ha : a = Cert.Spec.total z z)
    (hb : b = Cert.Spec.total t t) (hd : d = Cert.Spec.total z t) :
    (Ideal.div a Cert.Spec.npairs + Ideal.div b Cert.Spec.npairs) - Cert.Spec.two * Ideal.div d Cert.Spec.npairs
      = Cert.Spec.mmd z t := by
  subst ha hb hd
  rfl

/-- The result array after @main, given what each call leaves in its output array: the discrepancy of the two argument
    arrays as launched. -/
theorem value_of_finals (m : (ℓ : Loc nD τ sig) → Buf (Elt Ideal) ℓ) (c : Dev nD)
    (f0 : (dat0 (E0 m) c).arrAt 2 cfg0.N
      = fun _ => Cert.Spec.total (E0 m c (Pipeline.arrRef spec0 0)) (E0 m c (Pipeline.arrRef spec0 1)))
    (f1 : (dat1 (E1 m) c).arrAt 2 cfg1.N
      = fun _ => Cert.Spec.total (E1 m c (Pipeline.arrRef spec1 0)) (E1 m c (Pipeline.arrRef spec1 1)))
    (f2 : (dat2 (E2 m) c).arrAt 2 cfg2.N
      = fun _ => Cert.Spec.total (E2 m c (Pipeline.arrRef spec2 0)) (E2 m c (Pipeline.arrRef spec2 1))) :
    U6 (F := Ideal) m c (Proc.devRef .tc main_v11)
      = fun _ => Cert.Spec.mmd (m ((c.tc : Thread nD τ).loc main_arg0)) (m ((c.tc : Thread nD τ).loc main_arg1)) := by
  -- the second and third calls find the argument arrays as launched
  have hE1 : E1 m c main_arg1 = m ((c.tc : Thread nD τ).loc main_arg1) :=
    (U2_of m c main_arg1 (by decide)).trans ((U1_of_ne m c main_arg1 (by decide)).trans rfl)
  have hE2a : E2 m c main_arg0 = m ((c.tc : Thread nD τ).loc main_arg0) :=
    (U4_of m c main_arg0 (by decide)).trans ((U3_of_ne m c main_arg0 (by decide)).trans
      ((U2_of m c main_arg0 (by decide)).trans ((U1_of_ne m c main_arg0 (by decide)).trans rfl)))
  have hE2b : E2 m c main_arg1 = m ((c.tc : Thread nD τ).loc main_arg1) :=
    (U4_of m c main_arg1 (by decide)).trans ((U3_of_ne m c main_arg1 (by decide)).trans
      ((U2_of m c main_arg1 (by decide)).trans ((U1_of_ne m c main_arg1 (by decide)).trans rfl)))
  -- the host operations read at the result, then each call's output entry
  refine (fold_value (U0 m c) ((dat0 (E0 m) c).arrAt 2 cfg0.N) ((dat1 (E1 m) c).arrAt 2 cfg1.N)
    ((dat2 (E2 m) c).arrAt 2 cfg2.N)).trans ?_
  funext _
  refine mmd_of _ _ _ _ _ ?_ ?_ ?_
  · exact (congrFun f0 _).trans rfl
  · exact (congrFun f1 _).trans (congrArg₂ Cert.Spec.total hE1 hE1)
  · exact (congrFun f2 _).trans (congrArg₂ Cert.Spec.total hE2a hE2b)

/-- The result array after @main holds the discrepancy of the two argument arrays as launched. -/
theorem value (m : (ℓ : Loc nD τ sig) → Buf (Elt Ideal) ℓ) (c : Dev nD) :
    U6 (F := Ideal) m c (Proc.devRef .tc main_v11)
      = fun _ => Cert.Spec.mmd (m ((c.tc : Thread nD τ).loc main_arg0)) (m ((c.tc : Thread nD τ).loc main_arg1)) :=
  value_of_finals m c (final0 (E0 m) c) (final1 (E1 m) c) (final2 (E2 m) c)

end Cert.KernelIdeal.Hand

end
-- ==== Proof.RefValue.lean ====
/-
  The reference program computes the specification.

  The reference evaluates, for each of the three pairs (x, y) ∈ {(z, z), (t, t), (z, t)}, the array
    k(p, q) = exp (−(‖x_p‖² + ‖y_q‖² − 2·⟨x_p, y_q⟩) / 4096)
  and its mean over the 8192² pairs, and combines the three means as mean_zz + mean_tt − 2·mean_zt. This module reads
  that chain of operations at an index and identifies every stage with the corresponding term of the specification:
    * a row's squared norm is the zero initial value plus the sum over k of x(p,k)·x(p,k), and 0 + s = s;
    * the column and the row it is broadcast along read the squared norm of row p, respectively row q, at (p, q);
    * the product with the transposed second operand is the sum over k of x(p,k)·y(q,k);
    * a negation −a is 0 − a over the extended reals, and a division by 4096 is the product with 2⁻¹² = 1/4096,
      at the infinities too;
    * the sum over all indices of an 8192 × 8192 array is the double sum over its rows and columns.
  The chains of the pairs (z, z) and (t, t) are, operation by operation, the chain of the pair (x, y) taken at equal
  arguments, so one computation of the general chain serves all three.
-/
import proofs.«123961_j29377576305361_1_alg».proof.Proof.Gen.ReferenceIdeal.Read
import proofs.«123961_j29377576305361_1_alg».proof.Proof.Spec
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## The two float literals whose values matter, and the two scalar identities -/

/-- The word of 4096.0 denotes the real 4096 = 2¹² (exponent field 139 = 127 + 12, zero fraction). -/
theorem ofBits_4096 : Ideal.ofBits .f32 0x45800000#32 = ((4096 : ℝ) : EReal) := by
  simp [Ideal.ofBits, Ideal.ieee, -EReal.coe_mul]; norm_num

/-- The word of 2⁻¹² denotes the real 1/4096 (exponent field 115 = 127 − 12, zero fraction). -/
theorem ofBits_c12 : Ideal.ofBits .f32 0x39800000#32 = ((1 / 4096 : ℝ) : EReal) := by
  simp [Ideal.ofBits, Ideal.ieee, -EReal.coe_mul]; norm_num

/-- Dividing by 4096 is multiplying by 1/4096, for every extended real: 4096 is a nonzero real. -/
theorem div_4096 (a : EReal) :
    Ideal.div a (Ideal.ofBits .f32 0x45800000#32) = a * Ideal.ofBits .f32 0x39800000#32 := by
  rw [ofBits_4096, ofBits_c12, Ideal.div_coe (by norm_num)]

/-- Over the extended reals a negation is the difference from zero: 0 − a = 0 + (−a) = −a. -/
theorem neg_eq_zero_sub (a : EReal) : -a = 0 - a := by
  rw [sub_eq_add_neg, zero_add]

/-! ## The general chain at a pair of rows -/

/-- The exponential stage of the chain of the pair (x, y), read at (p, q), is the kernel value of row p of x and
    row q of y. -/
theorem kval_xy (x y : Cert.Spec.SX.Idx → EReal) (p q : Fin 8192) :
    val_main_v58 (F := Ideal) x y (ix2 p q) = Cert.Spec.kval x y p q := by
  rw [val_main_v58_apply, val_main_v57_apply, val_main_v55_apply, val_main_v54_apply, val_main_v49_apply,
    val_main_v47_apply, val_main_v45_apply, val_main_v42_apply, val_main_v48_apply, val_main_v46_apply,
    val_main_v44_apply, val_main_v53_apply, val_main_v52_apply, val_main_v51_apply, val_main_v56_apply,
    val_main_cst_11_apply, val_main_cst_12_apply, val_main_cst_13_apply, val_main_cst_14_apply]
  have h1 : ∀ k : Fin 64, idx_main_v42 (idx_main_v45 (idx_main_v47 (ix2 p q))) k = ix2 p k := fun k =>
    funext fun a => Fin.ext (by match a with | ⟨0, _⟩ => rfl | ⟨1, _⟩ => rfl)
  have h2 : ∀ k : Fin 64, idx_main_v44 (idx_main_v46 (idx_main_v48 (ix2 p q))) k = ix2 q k := fun k =>
    funext fun a => Fin.ext (by match a with | ⟨0, _⟩ => rfl | ⟨1, _⟩ => rfl)
  have h3 : ∀ k : Fin 64, lidx_main_v51 (ix2 p q) k = ix2 p k := fun k =>
    funext fun a => Fin.ext (by match a with | ⟨0, _⟩ => rfl | ⟨1, _⟩ => rfl)
  have h4 : ∀ k : Fin 64, idx_main_v50 (ridx_main_v51 (ix2 p q) k) = ix2 q k := fun k =>
    funext fun a => Fin.ext (by match a with | ⟨0, _⟩ => rfl | ⟨1, _⟩ => rfl)
  simp only [val_main_v41_apply, val_main_v43_apply, val_main_v50_apply, h1, h2, h3, h4,
    Ideal.ofBits_def, Ideal.addf_def, Ideal.subf_def, Ideal.mulf_def, Ideal.hostDivf_def, Ideal.hostNegf_def,
    Ideal.negf_def, Ideal.hostUnary_exp_def, Ideal.ofBits_zero_f32, zero_add, div_4096]
  rw [neg_eq_zero_sub]
  rfl

/-- The last stage of the chain of the pair (x, y) is the mean kernel value: the sum over every index of the
    8192 × 8192 array is the double sum over rows and columns, the zero initial value adds nothing, and the division
    by 2²⁶ is the specification's. -/
theorem mean_xy (x y : Cert.Spec.SX.Idx → EReal) (i : S_.Idx) :
    val_main_v60 (F := Ideal) x y i = Cert.Spec.mean x y := by
  rw [val_main_v60_apply, val_main_v59_apply, val_main_cst_15_apply, val_main_cst_16_apply, sum_idx2]
  simp only [kval_xy, Ideal.ofBits_def, Ideal.hostDivf_def, Ideal.ofBits_zero_f32, zero_add]
  rfl

/-! ## The three means -/

/-- The chain of the pair (z, z) is the general chain at x = y = z. -/
theorem mean_00 (x0 : Cert.Spec.SX.Idx → EReal) (i : S_.Idx) :
    val_main_v19 (F := Ideal) x0 i = Cert.Spec.mean x0 x0 :=
  mean_xy x0 x0 i

/-- The chain of the pair (t, t) is the general chain at x = y = t. -/
theorem mean_11 (x1 : Cert.Spec.SX.Idx → EReal) (i : S_.Idx) :
    val_main_v39 (F := Ideal) x1 i = Cert.Spec.mean x1 x1 :=
  mean_xy x1 x1 i

/-- The chain of the pair (z, t). -/
theorem mean_01 (x0 x1 : Cert.Spec.SX.Idx → EReal) (i : S_.Idx) :
    val_main_v60 (F := Ideal) x0 x1 i = Cert.Spec.mean x0 x1 :=
  mean_xy x0 x1 i

/-! ## The result -/

/-- The reference's result is the biased maximum mean discrepancy of its two arguments. -/
theorem ref_value (x0 x1 : Cert.Spec.SX.Idx → EReal) :
    val_main_v62 (F := Ideal) x0 x1 = fun _ => Cert.Spec.mmd x0 x1 := by
  funext i
  rw [val_main_v62_apply, val_main_v40_apply, val_main_v61_apply, val_main_cst_17_apply,
    mean_00, mean_11, mean_01]
  simp only [Ideal.ofBits_def, Ideal.addf_def, Ideal.subf_def, Ideal.mulf_def]
  rfl

end Cert.ReferenceIdeal.RefValue

end
-- ==== Proof.RefClaims.lean ====
/-
  The two facts about the reference program that the certificate's claims use.

  The reference's run, as generated, says: every weakly fair execution terminates, the result buffer holds the
  composed term of the 83 operations applied to the two argument arrays as they were at launch, and the two argument
  arrays are unchanged. Dropping the statement about the result gives the frame claim. Keeping it, the composed term is
  the last stage of the reading of the program, and that stage is the constant array whose one entry is the biased
  maximum mean discrepancy of the two arguments; so the run ends with the result buffer at that value.
-/
import proofs.«123961_j29377576305361_1_alg».proof.Defs
import proofs.«123961_j29377576305361_1_alg».proof.Proof.Gen.ReferenceIdeal
import proofs.«123961_j29377576305361_1_alg».proof.Proof.Gen.Pre_finite_inputs
import proofs.«123961_j29377576305361_1_alg».proof.Proof.Gen.ReferenceIdeal.Run
import proofs.«123961_j29377576305361_1_alg».proof.Proof.Gen.ReferenceIdeal.Read
import proofs.«123961_j29377576305361_1_alg».proof.Proof.RefValue

noncomputable section

namespace Cert.Proof.RefClaims

open Idealize.ShloMosaic Idealize.SL.Sem

/-- The reference runs and leaves its two arguments unchanged: its generated run with the statement about the result
    dropped. The precondition is not used: the run holds from every memory. -/
theorem frame_ri :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The reference runs, ends with its result at the biased maximum mean discrepancy of its two arguments as they
    were at launch, and leaves the arguments unchanged. The run's composed term is the last stage of the reading of
    the program, which is the specification's value at every index. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v62)
          = (fun _ => Cert.Spec.mmd
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨by
        rw [(h c).1, Cert.ReferenceIdeal.Read.val_main_v62_eq]
        exact Cert.ReferenceIdeal.RefValue.ref_value _ _,
      (h c).2⟩)
    (Cert.ReferenceIdeal.Value.run (F := Ideal) m' ρ')

end Cert.Proof.RefClaims

end
-- ==== Proof.lean ====
/-
  The certificate of the maximum-mean-discrepancy kernel against its jnp reference.

  Both programs compute, for two samples z, t of 8192 rows in 64 dimensions,
      mmd = mean k(z,z) + mean k(t,t) − 2 · mean k(z,t),   k(x_p, y_q) = exp (−‖x_p − y_q‖² / 64²),
  the squared distance expanded as ‖x_p‖² + ‖y_q‖² − 2 x_p·y_q and each mean taken over the 8192² pairs (Proof/Spec.lean).
  The reference forms the 8192 × 8192 matrix of kernel values and sums it; the kernel runs three Pallas calls, one per
  pair of samples, each over a grid of 64 column tiles: at tile t it sums the kernel values of all rows of x against
  rows 128t … 128t+127 of y and adds that number into a 1×1 accumulator, which the last tile copies to the output.
  At the ideal instance the two are one finite sum taken in two groupings (the tiles partition the pairs), the kernel's
  product with the exact dyadic 2⁻¹² is the reference's division by 4096, and `0 − a` is `−a`; nothing else differs,
  so no hypothesis on the inputs is used.

  The frames: each Pallas call's body is run once per control case (first tile, middle tile, last tile) and the
  accumulator is carried between tiles by the call's invariant (Proof/KI/R*Frame.lean at any float instance, Proof/K/ for
  the word-level program); two of the calls read ONE array through both input windows, each window holding half of
  the array's share (Proof/KI/Shared*.lean); @main is the three calls among three stretches of host operations
  (Proof/KI/Run.lean). The reference's frame and value are its generated run read at the result (Proof/RefValue.lean).
-/
import proofs.«123961_j29377576305361_1_alg».proof.Defs
import proofs.«123961_j29377576305361_1_alg».proof.Proof.Gen.Kernel
import proofs.«123961_j29377576305361_1_alg».proof.Proof.Gen.KernelIdeal
import proofs.«123961_j29377576305361_1_alg».proof.Proof.Gen.ReferenceIdeal
import proofs.«123961_j29377576305361_1_alg».proof.Proof.Gen.Pre_finite_inputs
import proofs.«123961_j29377576305361_1_alg».proof.Proof.K.Run
import proofs.«123961_j29377576305361_1_alg».proof.Proof.KI.Run
import proofs.«123961_j29377576305361_1_alg».proof.Proof.KI.Value
import proofs.«123961_j29377576305361_1_alg».proof.Proof.RefClaims
import Idealize.ShloMosaic.Adequacy
import Idealize.ShloMosaic.Init

noncomputable section

namespace Cert.Proof

open Idealize.ShloMosaic Idealize.ShloMosaic.TcCoe Idealize.SL.Sem

/-- The word-level kernel runs to the end and leaves both samples as launched. -/
theorem frame_p : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The ideal pass rewrote nothing: the idealization is the program's own text read at the ideal instance. -/
theorem preserves : Cert.preserves_Kernel_KernelIdeal := trivial

/-- From memories agreeing on the two samples both idealized programs end holding the discrepancy of the samples: the
    kernel's result is the specification's value of its own arguments, the reference's of its own, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.mmd (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)), ?_, Cert.Proof.RefClaims.ref_run m' ρ'⟩
  refine (θ_run Cert.KernelIdeal.defs _ _).mono (fun r h c => ⟨?_, ?_, ?_⟩) (Cert.KernelIdeal.Hand.run_all (F := Ideal) m ρ)
  · refine (h c _ (Cert.KernelIdeal.Hand.mem_uc Cert.KernelIdeal.main_v11 (by decide))).trans ?_
    rw [Cert.KernelIdeal.Hand.value m c]
    beta_reduce
    rw [(hagree c).1, (hagree c).2]
  · exact (h c _ (Cert.KernelIdeal.Hand.mem_uc Cert.KernelIdeal.main_arg0 (by decide))).trans (Cert.KernelIdeal.Hand.U6_main_arg0 m c)
  · exact (h c _ (Cert.KernelIdeal.Hand.mem_uc Cert.KernelIdeal.main_arg1 (by decide))).trans (Cert.KernelIdeal.Hand.U6_main_arg1 m c)

theorem claim : Cert.Claim :=
  ⟨Cert.Kernel.Gen.facts, Cert.KernelIdeal.Gen.facts, Cert.ReferenceIdeal.Gen.facts, Cert.Pre_finite_inputs.Gen.facts,
    frame_p, frame_pi, Cert.Proof.RefClaims.frame_ri, preserves, algebraic⟩

end Cert.Proof

end
